-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S1048576 : Shape := ⟨1, ![1048576]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1048576x128 .f32) (main_arg1 : FVec F S1048576x128 .f32) (main_arg2 : IVec S1048576 32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S1048576x128 .f32 := Host.absf main_arg1
  let main_cst_0 : FVec F S_ .f32 := constant S_ .f32 0x7F800000#32
  let main_v5 : FVec F S1048576x128 .f32 := broadcastInDim S1048576x128 ![] bcast_S_S1048576x128 main_cst_0
  let main_v6 : IVec S1048576x128 1 := cmpf .olt main_v4 main_v5
  let main_c_1 : IVec S_ 1 := constantI S_ 1 1#1
  let main_v7 : IVec S_ 1 := (fun x v => Host.reduce IntOp.andi x v reducesTo_S1048576x128_S_d0_1 h_S_) main_v6 main_c_1
  let main_v8 : IVec S_ 1 := andi main_v3 main_v7
  let main_c_2 : IVec S_ 32 := constantI S_ 32 0#32
  let main_v9 : IVec S1048576 32 := broadcastInDim S1048576 ![] bcast_S_S1048576 main_c_2
  let main_v10 : IVec S1048576 1 := cmpi .sge main_arg2 main_v9
  let main_c_3 : IVec S_ 1 := constantI S_ 1 1#1
  let main_v11 : IVec S_ 1 := (fun x v => Host.reduce IntOp.andi x v reducesTo_S1048576_S_d0 h_S_) main_v10 main_c_3
  let main_v12 : IVec S_ 1 := andi main_v8 main_v11
  let main_c_4 : IVec S_ 32 := constantI S_ 32 128#32
  let main_v13 : IVec S1048576 32 := broadcastInDim S1048576 ![] bcast_S_S1048576 main_c_4
  let main_v14 : IVec S1048576 1 := cmpi .slt main_arg2 main_v13
  let main_c_5 : IVec S_ 1 := constantI S_ 1 1#1
  let main_v15 : IVec S_ 1 := (fun x v => Host.reduce IntOp.andi x v reducesTo_S1048576_S_d0 h_S_) main_v14 main_c_5
  fn_part1 (F := F) main_v12 main_v15
-- ==== Kernel.lean ====
abbrev S1048576x128 : Shape := ⟨2, ![1048576, 128]⟩
abbrev S1048576 : Shape := ⟨1, ![1048576]⟩
abbrev S1048576x1 : Shape := ⟨2, ![1048576, 1]⟩
abbrev S1x128 : Shape := ⟨2, ![1, 128]⟩
abbrev S4096x128 : Shape := ⟨2, ![4096, 128]⟩
abbrev S4096x1 : Shape := ⟨2, ![4096, 1]⟩
abbrev S4096 : Shape := ⟨1, ![4096]⟩
abbrev S128 : Shape := ⟨1, ![128]⟩
abbrev S1x30 : Shape := ⟨2, ![1, 30]⟩
abbrev S30 : Shape := ⟨1, ![30]⟩
abbrev S_ : Shape := ⟨0, ![]⟩
abbrev S1 : Shape := ⟨1, ![1]⟩
abbrev S2 : Shape := ⟨1, ![2]⟩
abbrev S1x1 : Shape := ⟨2, ![1, 1]⟩

abbrev nBuf : Space → Nat
  | .hbm => 40
  | .vmem => 20
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S1048576, .i32⟩
  | .hbm, ⟨3, _⟩ => ⟨S1048576x1, .i32⟩
  | .hbm, ⟨4, _⟩ => ⟨S1048576x1, .f32⟩
  | .hbm, ⟨5, _⟩ => ⟨S1048576x1, .i32⟩
  | .hbm, ⟨6, _⟩ => ⟨S1x128, .f32⟩
  | .hbm, ⟨7, _⟩ => ⟨S1x30, .f32⟩
  | .hbm, ⟨8, _⟩ => ⟨S30, .f32⟩
  | .hbm, ⟨9, _⟩ => ⟨S_, .f32⟩
  | .hbm, ⟨10, _⟩ => ⟨S30, .f32⟩
  | .hbm, ⟨11, _⟩ => ⟨S30, .i1⟩
  | .hbm, ⟨12, _⟩ => ⟨S30, .i32⟩
  | .hbm, ⟨13, _⟩ => ⟨S_, .i32⟩
  | .hbm, ⟨14, _⟩ => ⟨S_, .i32⟩
  | .hbm, ⟨15, _⟩ => ⟨S_, .f32⟩
  | .hbm, ⟨16, _⟩ => ⟨S_, .f32⟩
  | .hbm, ⟨17, _⟩ => ⟨S30, .f32⟩
  | .hbm, ⟨18, _⟩ => ⟨S30, .i1⟩
  | .hbm, ⟨19, _⟩ => ⟨S_, .f32⟩
  | .hbm, ⟨20, _⟩ => ⟨S30, .f32⟩
  | .hbm, ⟨21, _⟩ => ⟨S30, .f32⟩
  | .hbm, ⟨22, _⟩ => ⟨S_, .f32⟩
  | .hbm, ⟨23, _⟩ => ⟨S30, .f32⟩
  | .hbm, ⟨24, _⟩ => ⟨S30, .f32⟩
  | .hbm, ⟨25, _⟩ => ⟨S_, .f32⟩
  | .hbm, ⟨26, _⟩ => ⟨S_, .f32⟩
  | .hbm, ⟨27, _⟩ => ⟨S30, .f32⟩
  | .hbm, ⟨28, _⟩ => ⟨S30, .f32⟩
  | .hbm, ⟨29, _⟩ => ⟨S_, .f32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S1x1, .f32⟩
  | .hbm, ⟨38, _⟩ => ⟨S1x1, .f32⟩
  | .hbm, ⟨39, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x1, .i32⟩
  | .local _ .vmem, ⟨5, _⟩ => ⟨S4096x1, .i32⟩
  | .local _ .vmem, ⟨6, _⟩ => ⟨S4096x1, .f32⟩
  | .local _ .vmem, ⟨7, _⟩ => ⟨S4096x1, .f32⟩
  | .local _ .vmem, ⟨8, _⟩ => ⟨S4096x1, .i32⟩
  | .local _ .vmem, ⟨9, _⟩ => ⟨S4096x1, .i32⟩
  | .local _ .vmem, ⟨10, _⟩ => ⟨S1x128, .f32⟩
  | .local _ .vmem, ⟨11, _⟩ => ⟨S1x128, .f32⟩
  | .local _ .vmem, ⟨12, _⟩ => ⟨S4096x1, .f32⟩
  | .local _ .vmem, ⟨13, _⟩ => ⟨S4096x1, .f32⟩
  | .local _ .vmem, ⟨14, _⟩ => ⟨S4096x1, .i32⟩
  | .local _ .vmem, ⟨15, _⟩ => ⟨S4096x1, .i32⟩
  | .local _ .vmem, ⟨16, _⟩ => ⟨S1x128, .f32⟩
  | .local _ .vmem, ⟨17, _⟩ => ⟨S1x1, .f32⟩
  | .local _ .vmem, ⟨18, _⟩ => ⟨S1x1, .f32⟩
  | .local _ .vmem, ⟨19, _⟩ => ⟨S1x1, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v52 : BitVec 1 := Scalar.cmpi .eq arg0 c255_i32
  let v53 : BitVec 32 := Scalar.extui v52
  let c0_i32_20 : BitVec 32 := 0#32
  let v54 : BitVec 1 := Scalar.cmpi .ne v53 c0_i32_20
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![256], ![false]⟩

def k1_cond2 (i : grid1.Coords) : BitVec 1 :=
  let arg0 : BitVec 32 := BitVec.ofNat 32 (i 0).val
  let c255_i32 : BitVec 32 := 255#32
  let v37 : BitVec 1 := Scalar.cmpi .eq arg0 c255_i32
  let v38 : BitVec 32 := Scalar.extui v37
  let c0_i32_16 : BitVec 32 := 0#32
  let v39 : BitVec 1 := Scalar.cmpi .ne v38 c0_i32_16
  v39

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S1048576_S1048576x1 : S1048576.ShapeCasts S1048576x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x128_S4096x128_0_0 : ∀ a, (![0, 0] : Fin 2 → Nat) a + S4096x128.size a ≤ S4096x128.size a
  h_S4096x128 : 0 < S4096x128.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x128_d1_w32 : S4096x128.Iotas .tc 32 [1]
  broadcasts_S4096x1_S4096x128 : S4096x1.Broadcasts S4096x128
  natLt_1_32 : 1 < 32
  reduces_S4096x128_S4096 : S4096x128.Reduces [1] S4096
  shapeCasts_S4096_S4096x1 : S4096.ShapeCasts S4096x1
  reduces_S4096x128_S128 : S4096x128.Reduces [0] S128
  shapeCasts_S128_S1x128 : S128.ShapeCasts S1x128
  slices_S1x128_S1x30_0_0 : S1x128.Slices ![0, 0] S1x30
  shapeCasts_S1x30_S30 : S1x30.ShapeCasts S30
  bcast_S_S30 : S_.BroadcastsInDim S30 (![] : Fin 0 → Fin S30.rank)
  reducesTo_S30_S_d0 : S30.ReducesTo [0] S_
  h_S_ : 0 < S_.numel
  bcast_S_S1x128 : S_.BroadcastsInDim S1x128 (![] : Fin 0 → Fin S1x128.rank)
  bcast_S_S1 : S_.BroadcastsInDim S1 (![] : Fin 0 → Fin S1.rank)
  concatenates_S1_S1_S2_d0 : Shape.Concatenates [S1, S1] S2 0
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x128_S4096x128 : S1x128.Broadcasts S4096x128
  broadcasts_S1x1_S4096x1 : S1x1.Broadcasts S4096x1
  reduces_S4096x1_S1 : S4096x1.Reduces [0] S1
  shapeCasts_S1_S1x1 : S1.ShapeCasts S1x1
  shapeCasts_S1x1_S_ : S1x1.ShapeCasts S_
  scatter_S1x128_S2_S30_0_0_01_0_wf : ScatterDims.WF S1x128 S2 S30 [0] [0] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1048576x128.size a
  hwx0_0 : ∀ i : grid0.Coords, EltTy.bits .f32 = 32 ∨ (Rect.block (s := S1048576x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S1048576x128.size a
  hwx0_1 : ∀ i : grid0.Coords, EltTy.bits .f32 = 32 ∨ (Rect.block (s := S1048576x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S1048576x1.size a
  hwx0_2 : ∀ i : grid0.Coords, EltTy.bits .i32 = 32 ∨ (Rect.block (s := S1048576x1) S4096x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S1048576x1.size a
  hwx0_3 : ∀ i : grid0.Coords, EltTy.bits .f32 = 32 ∨ (Rect.block (s := S1048576x1) S4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S1048576x1.size a
  hwx0_4 : ∀ i : grid0.Coords, EltTy.bits .i32 = 32 ∨ (Rect.block (s := S1048576x1) S4096x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x1.size a ≤ S1048576x1.size a
  hwx1_0 : ∀ i : grid1.Coords, EltTy.bits .f32 = 32 ∨ (Rect.block (s := S1048576x1) S4096x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S1048576x1.size a
  hwx1_1 : ∀ i : grid1.Coords, EltTy.bits .i32 = 32 ∨ (Rect.block (s := S1048576x1) S4096x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def scatter_S1x128_S2_S30_0_0_01_0 : ScatterDims S1x128 S2 S30 where
  updateWindowDims := [0]
  insertedWindowDims := [0]
  scatterDimsToOperandDims := [0, 1]
  indexVectorDim := 0
  wf := scatter_S1x128_S2_S30_0_0_01_0_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S4096x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S4096x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v1_0) S4096x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S1048576x128 : Shape := ⟨2, ![1048576, 128]⟩
abbrev S1048576 : Shape := ⟨1, ![1048576]⟩
abbrev S1048576x1 : Shape := ⟨2, ![1048576, 1]⟩
abbrev S1x128 : Shape := ⟨2, ![1, 128]⟩
abbrev S_ : Shape := ⟨0, ![]⟩
abbrev S30 : Shape := ⟨1, ![30]⟩

abbrev nBuf : Space → Nat
  | .hbm => 99
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S1048576, .i32⟩
  | .hbm, ⟨3, _⟩ => ⟨S1048576x1, .i32⟩
  | .hbm, ⟨4, _⟩ => ⟨S1x128, .i32⟩
  | .hbm, ⟨5, _⟩ => ⟨S1048576x128, .i32⟩
  | .hbm, ⟨6, _⟩ => ⟨S1048576x128, .i32⟩
  | .hbm, ⟨7, _⟩ => ⟨S1048576x128, .i1⟩
  | .hbm, ⟨8, _⟩ => ⟨S1048576x128, .f32⟩
  | .hbm, ⟨9, _⟩ => ⟨S_, .f32⟩
  | .hbm, ⟨10, _⟩ => ⟨S1048576, .f32⟩
  | .hbm, ⟨11, _⟩ => ⟨S_, .f32⟩
  | .hbm, ⟨12, _⟩ => ⟨S1048576, .f32⟩
  | .hbm, ⟨13, _⟩ => ⟨S1048576, .f32⟩
  | .hbm, ⟨14, _⟩ => ⟨S1048576x1, .f32⟩
  | .hbm, ⟨15, _⟩ => ⟨S1048576x128, .f32⟩
  | .hbm, ⟨16, _⟩ => ⟨S1048576x128, .f32⟩
  | .hbm, ⟨17, _⟩ => ⟨S1048576x128, .f32⟩
  | .hbm, ⟨18, _⟩ => ⟨S_, .f32⟩
  | .hbm, ⟨19, _⟩ => ⟨S1048576, .f32⟩
  | .hbm, ⟨20, _⟩ => ⟨S1048576x1, .f32⟩
  | .hbm, ⟨21, _⟩ => ⟨S1048576x1, .f32⟩
  | .hbm, ⟨22, _⟩ => ⟨S1048576x128, .f32⟩
  | .hbm, ⟨23, _⟩ => ⟨S1048576x128, .f32⟩
  | .hbm, ⟨24, _⟩ => ⟨S1048576x128, .f32⟩
  | .hbm, ⟨25, _⟩ => ⟨S_, .f32⟩
  | .hbm, ⟨26, _⟩ => ⟨S1048576, .f32⟩
  | .hbm, ⟨27, _⟩ => ⟨S1048576x128, .f32⟩
  | .hbm, ⟨28, _⟩ => ⟨S1048576x128, .f32⟩
  | .hbm, ⟨29, _⟩ => ⟨S_, .f32⟩
  | .hbm, ⟨30, _⟩ => ⟨S1048576x128, .f32⟩
  | .hbm, ⟨31, _⟩ => ⟨S1048576x128, .f32⟩
  | .hbm, ⟨32, _⟩ => ⟨S_, .f32⟩
  | .hbm, ⟨33, _⟩ => ⟨S1048576x128, .f32⟩
  | .hbm, ⟨34, _⟩ => ⟨S1048576x128, .f32⟩
  | .hbm, ⟨35, _⟩ => ⟨S1048576x128, .f32⟩
  | .hbm, ⟨36, _⟩ => ⟨S1048576x128, .f32⟩
  | .hbm, ⟨37, _⟩ => ⟨S1048576x128, .f32⟩
  | .hbm, ⟨38, _⟩ => ⟨S_, .f32⟩
  | .hbm, ⟨39, _⟩ => ⟨S1048576, .f32⟩
  | .hbm, ⟨40, _⟩ => ⟨S_, .f32⟩
  | .hbm, ⟨41, _⟩ => ⟨S1048576, .f32⟩
  | .hbm, ⟨42, _⟩ => ⟨S1048576, .f32⟩
  | .hbm, ⟨43, _⟩ => ⟨S1048576, .f32⟩
  | .hbm, ⟨44, _⟩ => ⟨S1048576, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1048576, .i32⟩
  | .hbm, ⟨49, _⟩ => ⟨S1048576, .i32⟩
  | .hbm, ⟨50, _⟩ => ⟨S_, .i32⟩
  | .hbm, ⟨51, _⟩ => ⟨S1048576, .i32⟩
  | .hbm, ⟨52, _⟩ => ⟨S1048576, .i32⟩
  | .hbm, ⟨53, _⟩ => ⟨S_, .f32⟩
  | .hbm, ⟨54, _⟩ => ⟨S1048576, .f32⟩
  | .hbm, ⟨55, _⟩ => ⟨S_, .f32⟩
  | .hbm, ⟨56, _⟩ => ⟨S30, .f32⟩
  | .hbm, ⟨57, _⟩ => ⟨S1048576x1, .i32⟩
  | .hbm, ⟨58, _⟩ => ⟨S30, .f32⟩
  | .hbm, ⟨59, _⟩ => ⟨S_, .f32⟩
  | .hbm, ⟨60, _⟩ => ⟨S30, .f32⟩
  | .hbm, ⟨61, _⟩ => ⟨S30, .i1⟩
  | .hbm, ⟨62, _⟩ => ⟨S30, .i32⟩
  | .hbm, ⟨63, _⟩ => ⟨S_, .i32⟩
  | .hbm, ⟨64, _⟩ => ⟨S_, .i32⟩
  | .hbm, ⟨65, _⟩ => ⟨S_, .f32⟩
  | .hbm, ⟨66, _⟩ => ⟨S_, .f32⟩
  | .hbm, ⟨67, _⟩ => ⟨S30, .f32⟩
  | .hbm, ⟨68, _⟩ => ⟨S30, .i1⟩
  | .hbm, ⟨69, _⟩ => ⟨S_, .f32⟩
  | .hbm, ⟨70, _⟩ => ⟨S30, .f32⟩
  | .hbm, ⟨71, _⟩ => ⟨S30, .f32⟩
  | .hbm, ⟨72, _⟩ => ⟨S_, .f32⟩
  | .hbm, ⟨73, _⟩ => ⟨S30, .f32⟩
  | .hbm, ⟨74, _⟩ => ⟨S30, .f32⟩
  | .hbm, ⟨75, _⟩ => ⟨S_, .f32⟩
  | .hbm, ⟨76, _⟩ => ⟨S_, .f32⟩
  | .hbm, ⟨77, _⟩ => ⟨S30, .f32⟩
  | .hbm, ⟨78, _⟩ => ⟨S30, .f32⟩
  | .hbm, ⟨79, _⟩ => ⟨S_, .i32⟩
  | .hbm, ⟨80, _⟩ => ⟨S1048576, .i32⟩
  | .hbm, ⟨81, _⟩ => ⟨S1048576, .i1⟩
  | .hbm, ⟨82, _⟩ => ⟨S_, .i32⟩
  | .hbm, ⟨83, _⟩ => ⟨S1048576, .i32⟩
  | .hbm, ⟨84, _⟩ => ⟨S1048576, .i32⟩
  | .hbm, ⟨85, _⟩ => ⟨S1048576, .i32⟩
  | .hbm, ⟨86, _⟩ => ⟨S1048576x1, .i32⟩
  | .hbm, ⟨87, _⟩ => ⟨S1048576, .f32⟩
  | .hbm, ⟨88, _⟩ => ⟨S_, .f32⟩
  | .hbm, ⟨89, _⟩ => ⟨S_, .f32⟩
  | .hbm, ⟨90, _⟩ => ⟨S1048576, .f32⟩
  | .hbm, ⟨91, _⟩ => ⟨S1048576, .f32⟩
  | .hbm, ⟨92, _⟩ => ⟨S1048576, .f32⟩
  | .hbm, ⟨93, _⟩ => ⟨S1048576, .f32⟩
  | .hbm, ⟨94, _⟩ => ⟨S_, .f32⟩
  | .hbm, ⟨95, _⟩ => ⟨S1048576, .f32⟩
  | .hbm, ⟨96, _⟩ => ⟨S1048576, .f32⟩
  | .hbm, ⟨97, _⟩ => ⟨S_, .f32⟩
  | .hbm, ⟨98, _⟩ => ⟨S_, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_call1_cst : Ref sig .tc := ⟨.hbm, 9, rfl⟩
abbrev main_call1_v0 : Ref sig .tc := ⟨.hbm, 10, rfl⟩
abbrev main_call1_cst_0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_cst_1 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_v1 : Ref sig .tc := ⟨.hbm, 23, rfl⟩
abbrev main_v2 : Ref sig .tc := ⟨.hbm, 24, rfl⟩
abbrev main_cst : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst_0 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_cst_3 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c : Ref sig .tc := ⟨.hbm, 45, rfl⟩
abbrev main_c_4 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v18 : Ref sig .tc := ⟨.hbm, 52, rfl⟩
abbrev main_cst_5 : Ref sig .tc := ⟨.hbm, 53, rfl⟩
abbrev main_v19 : Ref sig .tc := ⟨.hbm, 54, rfl⟩
abbrev main_cst_6 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_7 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c_8 : Ref sig .tc := ⟨.hbm, 63, rfl⟩
abbrev main_v26 : Ref sig .tc := ⟨.hbm, 64, rfl⟩
abbrev main_v27 : Ref sig .tc := ⟨.hbm, 65, rfl⟩
abbrev main_cst_9 : Ref sig .tc := ⟨.hbm, 66, rfl⟩
abbrev main_v28 : Ref sig .tc := ⟨.hbm, 67, rfl⟩
abbrev main_v29 : Ref sig .tc := ⟨.hbm, 68, rfl⟩
abbrev main_cst_10 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_cst_12 : Ref sig .tc := ⟨.hbm, 75, rfl⟩
abbrev main_call3_v0 : Ref sig .tc := ⟨.hbm, 76, rfl⟩
abbrev main_call3_v1 : Ref sig .tc := ⟨.hbm, 77, rfl⟩
abbrev main_v34 : Ref sig .tc := ⟨.hbm, 78, rfl⟩
abbrev main_c_13 : Ref sig .tc := ⟨.hbm, 79, rfl⟩
abbrev main_v35 : Ref sig .tc := ⟨.hbm, 80, rfl⟩
abbrev main_v36 : Ref sig .tc := ⟨.hbm, 81, rfl⟩
abbrev main_c_14 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_cst_15 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_16 : Ref sig .tc := ⟨.hbm, 94, rfl⟩
abbrev main_v47 : Ref sig .tc := ⟨.hbm, 95, rfl⟩
abbrev main_v48 : Ref sig .tc := ⟨.hbm, 96, rfl⟩
abbrev main_cst_17 : Ref sig .tc := ⟨.hbm, 97, rfl⟩
abbrev main_v49 : Ref sig .tc := ⟨.hbm, 98, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S1048576x1_S1048576x128_0_1 : S1048576x1.BroadcastsInDim S1048576x128 (![0, 1] : Fin 2 → Fin S1048576x128.rank)
  bcast_S1x128_S1048576x128_0_1 : S1x128.BroadcastsInDim S1048576x128 (![0, 1] : Fin 2 → Fin S1048576x128.rank)
  reducesTo_S1048576x128_S1048576_d1 : S1048576x128.ReducesTo [1] S1048576
  h_S_ : 0 < S_.numel
  bcast_S_S1048576 : S_.BroadcastsInDim S1048576 (![] : Fin 0 → Fin S1048576.rank)
  bcast_S_S1048576x128 : S_.BroadcastsInDim S1048576x128 (![] : Fin 0 → Fin S1048576x128.rank)
  bcast_S_S30 : S_.BroadcastsInDim S30 (![] : Fin 0 → Fin S30.rank)
  natLt_1_32 : 1 < 32
  reducesTo_S30_S_d0 : S30.ReducesTo [0] S_
  reducesTo_S1048576_S_d0 : S1048576.ReducesTo [0] S_
  scatter_S30_S1048576x1_S1048576_n_0_0_1_wf : ScatterDims.WF S30 S1048576x1 S1048576 [] [0] [0] 1
  gather_S30_S1048576x1_S1048576_n_0_n_n_0_1_1_wf : GatherDims.WF S30 S1048576x1 S1048576 [] [0] [] [0] [] 1 ![1]

variable [Facts₀]

def scatter_S30_S1048576x1_S1048576_n_0_0_1 : ScatterDims S30 S1048576x1 S1048576 where
  updateWindowDims := []
  insertedWindowDims := [0]
  scatterDimsToOperandDims := [0]
  indexVectorDim := 1
  wf := scatter_S30_S1048576x1_S1048576_n_0_0_1_wf
def gather_S30_S1048576x1_S1048576_n_0_n_n_0_1_1 : GatherDims S30 S1048576x1 S1048576 where
  offsetDims := []
  collapsedSliceDims := [0]
  operandBatchingDims := []
  startIndicesBatchingDims := []
  startIndexMap := [0]
  indexVectorDim := 1
  sliceSizes := ![1]
  wf := gather_S30_S1048576x1_S1048576_n_0_n_n_0_1_1_wf

class Facts : Prop extends Facts₀ where

variable [Facts]
-- ==== Proof.K.Dat0.lean ====
/-
  The first kernel region (the per-row pass over 256 tiles of 4096 rows), as data for the pipeline rule, at any
  float instance and at any contents `V` of the core's buffers when the region is entered.

  At tile `t` the body reads the tile's block of logits `p`, of targets and of labels, and leaves
  • in the log-probability window the column `(Σ_j p·onehot) − (max p + log Σ_j exp (p − max p))` of the tile (payload 4),
  • in the bin window the column `clip (⌊30 · Σ_j |σ(p) − target|·onehot⌋, 0, 29)` of the tile (payload 5),
  • in its scratch row the running histogram: the row of zeros at tile 0, then at every tile the previous row plus the
    number of the tile's rows whose bin is lane `j` (payload 1);
  the histogram window receives the scratch row at the last tile only and is idle before.
-/
import proofs.«173433_j21406117003629_1_alg».proof.Proof.Gen.Kernel.Launch
import proofs.«173433_j21406117003629_1_alg».proof.Proof.Gen.Kernel.Skeleton
import proofs.«173433_j21406117003629_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile's block of logits, of targets and of labels, at their literal shapes. -/
abbrev pblk (c : Dev nD) (t : Fin cfg0.N) : Vec F S4096x128 .f32 := iblk0 V c 0 t
abbrev tblk (c : Dev nD) (t : Fin cfg0.N) : Vec F S4096x128 .f32 := iblk0 V c 1 t
abbrev lblk (c : Dev nD) (t : Fin cfg0.N) : Vec F S4096x1 .i32 := iblk0 V c 2 t

/-- The lane number of every entry of a tile: what the body compares labels and bins against. -/
abbrev lanes : IVec S4096x128 32 := iota .tc S4096x128 32 [1] iota_S4096x128_d1_w32

/-- The tile's column of log-probabilities and its column of bins. -/
abbrev logpCol (c : Dev nD) (t : Fin cfg0.N) : Vec F S4096x1 .f32 := k0_pay4 (pblk V c t) (lblk V c t)
abbrev binCol (c : Dev nD) (t : Fin cfg0.N) : IVec S4096x1 32 := k0_pay5 (pblk V c t) (tblk V c t) (lblk V c t)

/-- THE RUNNING HISTOGRAM: the scratch row after tile `n` — zeros plus the lane counts of tiles 0 … n, added tile by tile. -/
def histAt (c : Dev nD) : (n : ℕ) → n < cfg0.N → Vec F S1x128 .f32
  | 0, h => k0_pay1 lanes (binCol V c ⟨0, h⟩) (k0_pay2 (F := F))
  | n + 1, h => k0_pay1 lanes (binCol V c ⟨n + 1, h⟩) (histAt c n (Nat.lt_of_succ_lt h))

theorem histAt_zero (c : Dev nD) (h : 0 < cfg0.N) :
    histAt V c 0 h = k0_pay1 lanes (binCol V c ⟨0, h⟩) (k0_pay2 (F := F)) := rfl
theorem histAt_succ (c : Dev nD) (n : ℕ) (h : n + 1 < cfg0.N) :
    histAt V c (n + 1) h = k0_pay1 lanes (binCol V c ⟨n + 1, h⟩) (histAt V c n (Nat.lt_of_succ_lt h)) := rfl

/-- The kernel's scratch row, a whole scoped buffer of its own. -/
abbrev scM0 : Memref sig .tc .vmem S1x128 .f32 := Memref.whole cc0_scratch0

/-- The core's other scoped buffers that are no staging buffer of this region (the second region's), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- The region's invariant before tile `n`: before the first tile the pipeline's own (every scoped buffer at anything);
    afterwards the scratch row at the running histogram of the tiles so far, the other scoped buffers at anything, the
    generator register at some state. -/
def PhiS0 (c : Dev nD) : (n : ℕ) → n ≤ cfg0.N → sProp 𝕄
  | 0, _ => Pipeline.ΦA spec0 c
  | n + 1, hn => iprop(owns (c : Thread nD τ) scM0 fullShare (histAt V c n hn) ∗ rest0 (F := F) c ∗ (∃ r, prngReg c r))

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => logpCol V c t
    | ⟨4, _⟩ => binCol V c t
    | ⟨5, _⟩ => histAt V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = logpCol V c t := by dsimp only [dat0]
theorem after0_4 (c : Dev nD) (t : Fin cfg0.N) : (dat0 V c).after 4 t = binCol V c t := by dsimp only [dat0]
theorem after0_5 (c : Dev nD) (t : Fin cfg0.N) : (dat0 V c).after 5 t = histAt V c t.val t.isLt := by dsimp only [dat0]

end Region0

end Cert.Kernel.Hand

end
-- ==== Proof.K.Dat1.lean ====
/-
  The second kernel region (the weighted sum over 256 tiles of 4096 rows), as data for the pipeline rule, at any float
  instance and at any contents `V` of the core's buffers when the region is entered.

  At tile `t` the body reads the tile's column of log-probabilities and of bins, the row of bin weights and the
  number of non-empty bins, and adds to its one-word scratch the tile's sum of
  `(0 − logp) · ((Σ_j [j = bin]·weight_j) / max (nonempty, 1)) / 2^20` (payload 2), from zero at tile 0 (payload 1); the
  result window receives the scratch word at the last tile only and is idle before.
-/
import proofs.«173433_j21406117003629_1_alg».proof.Proof.Gen.Kernel.Launch
import proofs.«173433_j21406117003629_1_alg».proof.Proof.Gen.Kernel.Skeleton
import proofs.«173433_j21406117003629_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile's column of log-probabilities and of bins, the weight row and the non-empty count, at their literal shapes. -/
abbrev lpblk (c : Dev nD) (t : Fin cfg1.N) : Vec F S4096x1 .f32 := iblk1 V c 0 t
abbrev bblk (c : Dev nD) (t : Fin cfg1.N) : Vec F S4096x1 .i32 := iblk1 V c 1 t
abbrev wblk (c : Dev nD) (t : Fin cfg1.N) : Vec F S1x128 .f32 := iblk1 V c 2 t
abbrev nblk (c : Dev nD) (t : Fin cfg1.N) : Vec F S1x1 .f32 := iblk1 V c 3 t

/-- THE RUNNING LOSS: the scratch word after tile `n` — zero plus the weighted sums of tiles 0 … n, added tile by tile. -/
def lossAt (c : Dev nD) : (n : ℕ) → n < cfg1.N → Vec F S1x1 .f32
  | 0, h => k1_pay2 (lpblk V c ⟨0, h⟩) (bblk V c ⟨0, h⟩) (wblk V c ⟨0, h⟩) (nblk V c ⟨0, h⟩) (k1_pay1 (F := F))
  | n + 1, h => k1_pay2 (lpblk V c ⟨n + 1, h⟩) (bblk V c ⟨n + 1, h⟩) (wblk V c ⟨n + 1, h⟩) (nblk V c ⟨n + 1, h⟩) (lossAt c n (Nat.lt_of_succ_lt h))

theorem lossAt_zero (c : Dev nD) (h : 0 < cfg1.N) :
    lossAt V c 0 h = k1_pay2 (lpblk V c ⟨0, h⟩) (bblk V c ⟨0, h⟩) (wblk V c ⟨0, h⟩) (nblk V c ⟨0, h⟩) (k1_pay1 (F := F)) := rfl
theorem lossAt_succ (c : Dev nD) (n : ℕ) (h : n + 1 < cfg1.N) :
    lossAt V c (n + 1) h = k1_pay2 (lpblk V c ⟨n + 1, h⟩) (bblk V c ⟨n + 1, h⟩) (wblk V c ⟨n + 1, h⟩) (nblk V c ⟨n + 1, h⟩) (lossAt V c n (Nat.lt_of_succ_lt h)) := rfl

/-- The kernel's scratch word, a whole scoped buffer of its own. -/
abbrev scM1 : Memref sig .tc .vmem S1x1 .f32 := Memref.whole cc1_scratch0

/-- The core's other scoped buffers that are no staging buffer of this region (the first region's), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_scratch0), ((c : Thread nD τ).loc cc0_scratch0) ↦{fullShare} f))

/-- The region's invariant before tile `n`: before the first tile the pipeline's own (every scoped buffer at anything);
    afterwards the scratch word at the running loss of the tiles so far, the other scoped buffers at anything, the
    generator register at some state. -/
def PhiS1 (c : Dev nD) : (n : ℕ) → n ≤ cfg1.N → sProp 𝕄
  | 0, _ => Pipeline.ΦA spec1 c
  | n + 1, hn => iprop(owns (c : Thread nD τ) scM1 fullShare (lossAt V c n hn) ∗ rest1 (F := F) c ∗ (∃ r, prngReg c r))

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => lossAt V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = lossAt V c t.val t.isLt := by dsimp only [dat1]

end Region1

end Cert.Kernel.Hand

end
-- ==== Proof.K.Entry.lean ====
/-
  The contents of the core's buffers when each kernel region is entered, read at the TensorCore's references: before
  the first region the launch contents with the label vector re-laid as a column; before the second region those with
  the first region's three results and the host operations between the regions (the bin weights and the count of
  non-empty bins) applied.
-/
import proofs.«173433_j21406117003629_1_alg».proof.Proof.Gen.Kernel.Regions
import proofs.«173433_j21406117003629_1_alg».proof.Proof.K.Dat0
import proofs.«173433_j21406117003629_1_alg».proof.Proof.K.Dat1

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

/-- What the first region finds in the core's buffers. -/
abbrev E1 : (c : Dev nD) → (b : Ref sig .tc) → Buf (Elt F) ((c : Thread nD τ).loc b) := fun c b => Gen.V1 m c b

/-- What the second region finds in the core's buffers, given what the regions leave (`outs`). -/
abbrev E5 (outs : Gen.Outs (F := F)) : (c : Dev nD) → (b : Ref sig .tc) → Buf (Elt F) ((c : Thread nD τ).loc b) :=
  fun c b => Gen.V5 m outs c b

end Cert.Kernel.Hand

end
-- ==== Proof.K.Body0.lean ====
/-
  The body obligation of kernel region 0: at every tile the kernel body, called on the windows' current staging
  buffers holding what the pipeline rule says they hold, runs to the end and leaves them holding what the proof data
  (`dat0`) states, the region's invariant carrying the scratch accumulator from tile to tile.

  Three cases meet the 256 tiles: the first tile (the scratch row is zeroed, then accumulated into), a middle tile
  (accumulated into), the last tile (accumulated into, then copied to the histogram window). Each case's whole-body
  run is stated over explicit contents; the obligation picks the case by the closed forms of the body's two conditions.
-/
import proofs.«173433_j21406117003629_1_alg».proof.Proof.Gen.Kernel.Launch
import proofs.«173433_j21406117003629_1_alg».proof.Proof.Gen.Kernel.Skeleton
import proofs.«173433_j21406117003629_1_alg».proof.Proof.Gen.Kernel.Points
import proofs.«173433_j21406117003629_1_alg».proof.Proof.K.Dat0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading whole-buffer loads and stores -/

/-- The zero offsets of a rank-2 rectangle, however spelt. -/
theorem b0_hz2 : (![0, 0] : Fin 2 → Nat) = fun _ => 0 := funext fun a => by fin_cases a <;> rfl

/-- A load through the whole-shape rectangle of a whole buffer holding `X` reads `X`. -/
theorem b0_readAt_unread {S : Shape} {e : EltTy} (m : Memref sig .tc .vmem S e) (h : m.IsWhole) {off : Fin S.rank → Nat}
    (hz : off = fun _ => 0) (inb : ∀ a, off a + S.size a ≤ S.size a) (X : S.Idx → Elt F e) :
    m.view.readAt (Elt F) (Rect.unit off S.size inb).toLoadRect (h.unread X) = X := by
  rw [View.readAt_eq_ld, h.read_unread, View.ld_unit_zero hz]

/-- A store through the whole-shape rectangle, LAST, leaves its payload, whatever the buffer held and whatever was
    stored before. -/
theorem b0_read_store_last {S : Shape} {e : EltTy} (m : Memref sig .tc .vmem S e) (f : m.view.ty.Contents (Elt F)) {off : Fin S.rank → Nat}
    (hz : off = fun _ => 0) (inb : ∀ a, off a + S.size a ≤ S.size a) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- A load through it after such a store reads the payload. -/
theorem b0_readCov_store_last {S : Shape} {e : EltTy} (m : Memref sig .tc .vmem S e) {off : Fin S.rank → Nat}
    (hz : off = fun _ => 0) (inb inb' : ∀ a, off a + S.size a ≤ S.size a) (w : S.Idx → Elt F e) (L : List (View.Piece (Elt F) S e)) :
    m.view.readCov ((⟨Rect.unit off S.size inb, w⟩ : View.Piece (Elt F) S e) :: L) (Rect.unit off S.size inb').toLoadRect = w := by
  rw [View.readCov_eq_canon_ld _ _ _ (fun y => ⟨_, List.mem_cons_self, View.mem_set_unit_zero hz inb y⟩),
    View.canon_cons_unit_zero hz, View.ld_unit_zero hz]

/-! ## The body's two conditions on the tile -/

/-- The condition of the first conditional (the tile is the first), from the grid coordinate. -/
abbrev cond0_0 (i : grid0.Coords) : Prop := (Scalar.cmpi .ne (Scalar.extui (Scalar.cmpi .eq (BitVec.ofNat 32 (i 0).val) 0#32)) 0#32) = 1#1
/-- The condition of the second conditional (the tile is the last). -/
abbrev cond0_1 (i : grid0.Coords) : Prop := k0_cond2 i = 1#1

set_option maxHeartbeats 1000000 in
/-- THE FIRST TILE (first conditional taken, second not): on whole buffers — the three inputs at `x0`, `x1`, `x2`, the two
    column outputs and the scratch row at anything, the histogram window at `xi6` — the body runs to the inputs as they were,
    the columns at their payloads, the histogram window untouched, the scratch row at the row of zeros plus the tile's
    lane counts (the zeros it stored first are what it loads back). -/
theorem run0_A (c : Dev nD) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x1 .i32) (harg3 : arg3.IsWhole) (arg4 : Memref sig .tc .vmem S4096x1 .f32) (harg4 : arg4.IsWhole)
    (arg5 : Memref sig .tc .vmem S4096x1 .i32) (harg5 : arg5.IsWhole) (arg6 : Memref sig .tc .vmem S1x128 .f32) (harg6 : arg6.IsWhole)
    (arg7 : Memref sig .tc .vmem S1x128 .f32) (harg7 : arg7.IsWhole) (hc0 : cond0_0 i) (hc1 : ¬cond0_1 i)
    (x0 : Vec F S4096x128 .f32) (x1 : Vec F S4096x128 .f32) (x2 : Vec F S4096x1 .i32) (xi6 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare xi6 ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x2) ∗ owns (c : Thread nD τ) arg5 fullShare (k0_pay5 x0 x1 x2)
            ∗ owns (c : Thread nD τ) arg6 fullShare xi6
            ∗ owns (c : Thread nD τ) arg7 fullShare (k0_pay1 lanes (k0_pay5 x0 x1 x2) (k0_pay2 (F := F)))) -∗ K ⟨⟩))
      ⊢ wp frame (wpE (defs₀ (F := F)) Variants.none c none) E (cc0_kernel_a i arg1 harg1 arg2 harg2 arg3 harg3 arg4 harg4 arg5 harg5 arg6 harg6 arg7 harg7) K := by
  simp only [cc0_kernel_a_eq_skeleton]; unfold cc0_kernel_a_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%ds, %fs, -, HS⟩, Hk⟩
  obtain rfl := harg1.eq_unread hf0; obtain rfl := harg2.eq_unread hf1; obtain rfl := harg3.eq_unread hf2
  obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [b0_read_store_last _ _ b0_hz2]
    simp only [b0_readAt_unread (S := S4096x128) _ _ b0_hz2, b0_readAt_unread (S := S4096x1) _ _ b0_hz2, b0_readAt_unread (S := S1x128) _ _ b0_hz2, b0_readCov_store_last (S := S1x128) _ b0_hz2]
  isplitl [H4]
  · iexists _; isplitr
    swap; · iexact H4
    ipureintro
    rw [b0_read_store_last _ _ b0_hz2]
    simp only [b0_readAt_unread (S := S4096x128) _ _ b0_hz2, b0_readAt_unread (S := S4096x1) _ _ b0_hz2, b0_readAt_unread (S := S1x128) _ _ b0_hz2, b0_readCov_store_last (S := S1x128) _ b0_hz2]
  isplitl [H5]
  · iexists _; isplitr; · ipureintro; exact harg6.read_unread _
    iexact H5
  iexists _; isplitr
  swap; · iexact HS
  ipureintro
  sl_unfold_words
  rw [b0_read_store_last _ _ b0_hz2]
  simp only [b0_readAt_unread (S := S4096x128) _ _ b0_hz2, b0_readAt_unread (S := S4096x1) _ _ b0_hz2, b0_readAt_unread (S := S1x128) _ _ b0_hz2, b0_readCov_store_last (S := S1x128) _ b0_hz2]

set_option maxHeartbeats 1000000 in
/-- A MIDDLE TILE (neither conditional taken): the same with the scratch row handed at `xs`, what the tile before left:
    it ends at `xs` plus the tile's lane counts. -/
theorem run0_B (c : Dev nD) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x1 .i32) (harg3 : arg3.IsWhole) (arg4 : Memref sig .tc .vmem S4096x1 .f32) (harg4 : arg4.IsWhole)
    (arg5 : Memref sig .tc .vmem S4096x1 .i32) (harg5 : arg5.IsWhole) (arg6 : Memref sig .tc .vmem S1x128 .f32) (harg6 : arg6.IsWhole)
    (arg7 : Memref sig .tc .vmem S1x128 .f32) (harg7 : arg7.IsWhole) (hc0 : ¬cond0_0 i) (hc1 : ¬cond0_1 i)
    (x0 : Vec F S4096x128 .f32) (x1 : Vec F S4096x128 .f32) (x2 : Vec F S4096x1 .i32) (xi6 : Vec F S1x128 .f32) (xs : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare xi6 ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x2) ∗ owns (c : Thread nD τ) arg5 fullShare (k0_pay5 x0 x1 x2)
            ∗ owns (c : Thread nD τ) arg6 fullShare xi6
            ∗ owns (c : Thread nD τ) arg7 fullShare (k0_pay1 lanes (k0_pay5 x0 x1 x2) xs)) -∗ K ⟨⟩))
      ⊢ wp frame (wpE (defs₀ (F := F)) Variants.none c none) E (cc0_kernel_a i arg1 harg1 arg2 harg2 arg3 harg3 arg4 harg4 arg5 harg5 arg6 harg6 arg7 harg7) K := by
  simp only [cc0_kernel_a_eq_skeleton]; unfold cc0_kernel_a_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%fs, %hfs, HS⟩, Hk⟩
  obtain rfl := harg1.eq_unread hf0; obtain rfl := harg2.eq_unread hf1; obtain rfl := harg3.eq_unread hf2
  obtain rfl := harg6.eq_unread hf5; obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [b0_read_store_last _ _ b0_hz2]
    simp only [b0_readAt_unread (S := S4096x128) _ _ b0_hz2, b0_readAt_unread (S := S4096x1) _ _ b0_hz2, b0_readAt_unread (S := S1x128) _ _ b0_hz2, b0_readCov_store_last (S := S1x128) _ b0_hz2]
  isplitl [H4]
  · iexists _; isplitr
    swap; · iexact H4
    ipureintro
    rw [b0_read_store_last _ _ b0_hz2]
    simp only [b0_readAt_unread (S := S4096x128) _ _ b0_hz2, b0_readAt_unread (S := S4096x1) _ _ b0_hz2, b0_readAt_unread (S := S1x128) _ _ b0_hz2, b0_readCov_store_last (S := S1x128) _ b0_hz2]
  isplitl [H5]
  · iexists _; isplitr; · ipureintro; exact harg6.read_unread _
    iexact H5
  iexists _; isplitr
  swap; · iexact HS
  ipureintro
  sl_unfold_words
  rw [b0_read_store_last _ _ b0_hz2]
  simp only [b0_readAt_unread (S := S4096x128) _ _ b0_hz2, b0_readAt_unread (S := S4096x1) _ _ b0_hz2, b0_readAt_unread (S := S1x128) _ _ b0_hz2, b0_readCov_store_last (S := S1x128) _ b0_hz2]

set_option maxHeartbeats 1000000 in
/-- THE LAST TILE (second conditional taken, first not): as a middle tile, and the histogram window, handed at anything,
    ends at the scratch row's final contents (the body loads the row back and stores it there). -/
theorem run0_C (c : Dev nD) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x1 .i32) (harg3 : arg3.IsWhole) (arg4 : Memref sig .tc .vmem S4096x1 .f32) (harg4 : arg4.IsWhole)
    (arg5 : Memref sig .tc .vmem S4096x1 .i32) (harg5 : arg5.IsWhole) (arg6 : Memref sig .tc .vmem S1x128 .f32) (harg6 : arg6.IsWhole)
    (arg7 : Memref sig .tc .vmem S1x128 .f32) (harg7 : arg7.IsWhole) (hc0 : ¬cond0_0 i) (hc1 : cond0_1 i)
    (x0 : Vec F S4096x128 .f32) (x1 : Vec F S4096x128 .f32) (x2 : Vec F S4096x1 .i32) (xs : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x2) ∗ owns (c : Thread nD τ) arg5 fullShare (k0_pay5 x0 x1 x2)
            ∗ owns (c : Thread nD τ) arg6 fullShare (k0_pay1 lanes (k0_pay5 x0 x1 x2) xs)
            ∗ owns (c : Thread nD τ) arg7 fullShare (k0_pay1 lanes (k0_pay5 x0 x1 x2) xs)) -∗ K ⟨⟩))
      ⊢ wp frame (wpE (defs₀ (F := F)) Variants.none c none) E (cc0_kernel_a i arg1 harg1 arg2 harg2 arg3 harg3 arg4 harg4 arg5 harg5 arg6 harg6 arg7 harg7) K := by
  simp only [cc0_kernel_a_eq_skeleton]; unfold cc0_kernel_a_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs, %hfs, HS⟩, Hk⟩
  obtain rfl := harg1.eq_unread hf0; obtain rfl := harg2.eq_unread hf1; obtain rfl := harg3.eq_unread hf2
  obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [b0_read_store_last _ _ b0_hz2]
    simp only [b0_readAt_unread (S := S4096x128) _ _ b0_hz2, b0_readAt_unread (S := S4096x1) _ _ b0_hz2, b0_readAt_unread (S := S1x128) _ _ b0_hz2, b0_readCov_store_last (S := S1x128) _ b0_hz2]
  isplitl [H4]
  · iexists _; isplitr
    swap; · iexact H4
    ipureintro
    rw [b0_read_store_last _ _ b0_hz2]
    simp only [b0_readAt_unread (S := S4096x128) _ _ b0_hz2, b0_readAt_unread (S := S4096x1) _ _ b0_hz2, b0_readAt_unread (S := S1x128) _ _ b0_hz2, b0_readCov_store_last (S := S1x128) _ b0_hz2]
  isplitl [H5]
  · iexists _; isplitr
    swap; · iexact H5
    ipureintro
    sl_unfold_words
    rw [b0_read_store_last _ _ b0_hz2]
    simp only [b0_readAt_unread (S := S4096x128) _ _ b0_hz2, b0_readAt_unread (S := S4096x1) _ _ b0_hz2, b0_readAt_unread (S := S1x128) _ _ b0_hz2, b0_readCov_store_last (S := S1x128) _ b0_hz2]
  iexists _; isplitr
  swap; · iexact HS
  ipureintro
  sl_unfold_words
  rw [b0_read_store_last _ _ b0_hz2]
  simp only [b0_readAt_unread (S := S4096x128) _ _ b0_hz2, b0_readAt_unread (S := S4096x1) _ _ b0_hz2, b0_readAt_unread (S := S1x128) _ _ b0_hz2, b0_readCov_store_last (S := S1x128) _ b0_hz2]

/-! ## The closed forms of the two conditions, and where the histogram window is idle -/

/-- The first conditional is taken at tile 0 only — decided over the grid. -/
theorem hcond0_0 : ∀ t : Fin cfg0.N, cond0_0 (grid0.coords t) ↔ t.val = 0 :=
  (by decide +kernel : ∀ t : Fin grid0.N, cond0_0 (grid0.coords t) ↔ t.val = 0)
/-- The second conditional is taken at tile 255 only — decided over the grid. -/
theorem hcond0_1 : ∀ t : Fin cfg0.N, cond0_1 (grid0.coords t) ↔ t.val = 255 :=
  (by decide +kernel : ∀ t : Fin grid0.N, cond0_1 (grid0.coords t) ↔ t.val = 255)

/-- Where the second conditional is not taken the histogram window is idle, -/
theorem idleAt0_5 (i : grid0.Coords) (h : ¬cond0_1 i) : cfg0.idle 5 i = true := by
  show (!(k0_cond2 i == 1#1)) = true
  rw [Bool.not_eq_true', beq_eq_false_iff_ne]; exact h
/-- and where it is taken it is live. -/
theorem liveAt0_5 (i : grid0.Coords) (h : cond0_1 i) : cfg0.idle 5 i = false := by
  show (!(k0_cond2 i == 1#1)) = false
  rw [Bool.not_eq_false', beq_iff_eq]; exact h
/-- Before the last tile the histogram window is not written back. -/
theorem noFlush0_5 (t : Fin cfg0.N) (h : t.val ≠ 255) : (cfg0.win 5).flush t = false := by
  have hN : t.val < 256 := lt_of_lt_of_eq t.isLt (show cfg0.N = 256 from N_0)
  rw [Bool.eq_false_iff]; intro hf
  have := (flush0_5 t).mp hf; omega

section Region0

variable (V : (c : Dev nD) → (b : Ref sig .tc) → Buf (Elt F) ((c : Thread nD τ).loc b))

/-! ## What the input windows hold when the body is called -/

/-- Each input's current staging buffer holds its block at every tile (fetched at every tile, never cut, never idle). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The invariant, tile by tile -/

/-- The pipeline's own invariant with the scratch row as a memref owned at some contents and the other scoped buffers
    apart. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (histAt V c n hn) ∗ rest0 (F := F) c ∗ (∃ r, prngReg c r)) := rfl

theorem PhiS0_pos (c : Dev nD) (n : ℕ) (h : n ≤ cfg0.N) (hz : n ≠ 0) :
    PhiS0 V c n h = iprop(owns (c : Thread nD τ) scM0 fullShare (histAt V c (n - 1) (by omega)) ∗ rest0 (F := F) c ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- The running histogram at the first tile, -/
theorem histAt_first (c : Dev nD) (t : Fin cfg0.N) (h0 : t.val = 0) :
    histAt V c t.val t.isLt = k0_pay1 lanes (binCol V c t) (k0_pay2 (F := F)) := by
  obtain ⟨n, hn⟩ := t
  cases n with
  | zero => rfl
  | succ n => exact absurd h0 (Nat.succ_ne_zero n)
/-- and at a later one. -/
theorem histAt_later (c : Dev nD) (t : Fin cfg0.N) (h0 : t.val ≠ 0) :
    histAt V c t.val t.isLt = k0_pay1 lanes (binCol V c t) (histAt V c (t.val - 1) (Nat.lt_of_le_of_lt (Nat.sub_le _ _) t.isLt)) := by
  obtain ⟨n, hn⟩ := t
  cases n with
  | zero => exact absurd rfl h0
  | succ n => rfl

/-! ## The body obligation at a tile -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

theorem leaves0_0 (c : Dev nD) (t : Fin cfg0.N) :
    (dat0 V c).leavesExact 0 t = owns (c : Thread nD τ) (win0_0.stage (cfg0.slots t 0)) fullShare (pblk V c t) := by
  unfold Dat.leavesExact; rw [show cfg0.idle 0 (cfg0.grid.coords t) = false from rfl, after0_0]
theorem leaves0_1 (c : Dev nD) (t : Fin cfg0.N) :
    (dat0 V c).leavesExact 1 t = owns (c : Thread nD τ) (win0_1.stage (cfg0.slots t 1)) fullShare (tblk V c t) := by
  unfold Dat.leavesExact; rw [show cfg0.idle 1 (cfg0.grid.coords t) = false from rfl, after0_1]
theorem leaves0_2 (c : Dev nD) (t : Fin cfg0.N) :
    (dat0 V c).leavesExact 2 t = owns (c : Thread nD τ) (win0_2.stage (cfg0.slots t 2)) fullShare (lblk V c t) := by
  unfold Dat.leavesExact; rw [show cfg0.idle 2 (cfg0.grid.coords t) = false from rfl, after0_2]
theorem leaves0_3 (c : Dev nD) (t : Fin cfg0.N) :
    (dat0 V c).leavesExact 3 t = owns (c : Thread nD τ) (win0_3.stage (cfg0.slots t 3)) fullShare (logpCol V c t) := by
  unfold Dat.leavesExact; rw [show cfg0.idle 3 (cfg0.grid.coords t) = false from rfl, after0_3]
theorem leaves0_4 (c : Dev nD) (t : Fin cfg0.N) :
    (dat0 V c).leavesExact 4 t = owns (c : Thread nD τ) (win0_4.stage (cfg0.slots t 4)) fullShare (binCol V c t) := by
  unfold Dat.leavesExact; rw [show cfg0.idle 4 (cfg0.grid.coords t) = false from rfl, after0_4]
/-- The histogram window at the last tile: the final histogram. -/
theorem leaves0_5_last (c : Dev nD) (t : Fin cfg0.N) (h : cond0_1 (grid0.coords t)) :
    (dat0 V c).leavesExact 5 t = owns (c : Thread nD τ) (win0_5.stage (cfg0.slots t 5)) fullShare (histAt V c t.val t.isLt) := by
  unfold Dat.leavesExact; rw [liveAt0_5 _ h, after0_5]

set_option maxHeartbeats 4000000 in
/-- The body at any tile: the inputs' buffers hold their blocks; the closed forms say which of the three cases the tile
    is in, and that case's run applies. The invariant hands the body the scratch row at what the tile before left (at
    anything, before the first tile), with the other scoped buffers and the generator register, which pass through
    untouched, and takes the row back at this tile's running histogram. Before the last tile the histogram window is
    idle and handed back as found; at the last tile it ends at the final histogram. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4]
  have hN : t.val < 256 := lt_of_lt_of_eq t.isLt (show cfg0.N = 256 from N_0)
  by_cases h0 : t.val = 0
  · have h1 : t.val ≠ 255 := by omega
    have hc0 : cond0_0 (grid0.coords t) := (hcond0_0 t).mpr h0
    have hc1 : ¬cond0_1 (grid0.coords t) := fun h => h1 ((hcond0_1 t).mp h)
    rw [Dat.leavesExact_idle (dat0 V c) 5 t (idleAt0_5 _ hc1) (noFlush0_5 t h1)]
    rw [histAt_first V c t h0]
    rw [PhiS0_castSucc V c t, PhiS0_zero V c _ _ h0, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (run0_A c (grid0.coords t) _ _ _ _ _ _ _ _ _ _ _ _ _ _ hc0 hc1 (pblk V c t) (tblk V c t) (lblk V c t) _ Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [HS]; · iexact HS
    iintro ⟨H0, H1, H2, H3, H4, H5, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 255
    · have hc0 : ¬cond0_0 (grid0.coords t) := fun h => h0 ((hcond0_0 t).mp h)
      have hc1 : cond0_1 (grid0.coords t) := (hcond0_1 t).mpr h1
      rw [leaves0_5_last V c t hc1]
      rw [histAt_later V c t h0]
      rw [PhiS0_castSucc V c t, PhiS0_pos V c _ _ h0]
      iintro ⟨⟨HS, Hrest, Hg⟩, Ho, ⟨%d0, H0⟩, ⟨%d1, H1⟩, ⟨%d2, H2⟩, ⟨%d3, H3⟩, ⟨%d4, H4⟩, ⟨%d5, H5⟩⟩
      iapply (run0_C c (grid0.coords t) _ _ _ _ _ _ _ _ _ _ _ _ _ _ hc0 hc1 (pblk V c t) (tblk V c t) (lblk V c t) _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS]; · iexact HS
      iintro ⟨H0, H1, H2, H3, H4, H5, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 5 t (idleAt0_5 _ hc1) (noFlush0_5 t h1)]
      rw [histAt_later V c t h0]
      rw [PhiS0_castSucc V c t, PhiS0_pos V c _ _ h0]
      iintro ⟨⟨HS, Hrest, Hg⟩, Ho, ⟨%d0, H0⟩, ⟨%d1, H1⟩, ⟨%d2, H2⟩, ⟨%d3, H3⟩, ⟨%d4, H4⟩, ⟨%d5, H5⟩⟩
      iapply (run0_B c (grid0.coords t) _ _ _ _ _ _ _ _ _ _ _ _ _ _ hc0 hc1 (pblk V c t) (tblk V c t) (lblk V c t) _ _ Set.univ _)
      isplitl [H0]; · iexact H0
      isplitl [H1]; · iexact H1
      isplitl [H2]; · iexact H2
      isplitl [H3]; · iexists _; iexact H3
      isplitl [H4]; · iexists _; iexact H4
      isplitl [H5]; · iexact H5
      isplitl [HS]; · iexact HS
      iintro ⟨H0, H1, H2, H3, H4, H5, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last tile the invariant gives the pipeline's own back: the accumulator's named contents are forgotten. -/
theorem hout0 (c : Dev nD) : (dat0 V c).Φ (Fin.last cfg0.N) ⊢ (Pipeline.ΦA spec0 c : sProp 𝕄) := by
  have hN : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl,
    PhiS0_pos V c _ _ hN, PhiA0_eq]
  iintro ⟨HS, Hrest, Hg⟩
  isplitl [HS Hrest]
  · isplitl [HS]; · iexists _; iexact HS
    iexact Hrest
  iexact Hg

end Region0

end Cert.Kernel.Hand

end
-- ==== Proof.K.Body1.lean ====
/-
  The body obligation of kernel region 1: at every tile the kernel body, called on the windows' current staging
  buffers holding what the pipeline rule says they hold, runs to the end and leaves them holding what the proof data
  (`dat1`) states, the region's invariant carrying the scratch accumulator from tile to tile.

  The body has two conditionals on the tile number, so three cases meet the grid: the first tile (the scratch word is
  reset, then updated), a middle tile (updated), the last tile (updated, then copied to the result's buffer). Each case's
  whole-body run is stated with explicit contents; the obligation at a tile picks the case by the closed forms of the two
  conditions.
-/
import proofs.«173433_j21406117003629_1_alg».proof.Proof.Gen.Kernel.Launch
import proofs.«173433_j21406117003629_1_alg».proof.Proof.Gen.Kernel.Skeleton
import proofs.«173433_j21406117003629_1_alg».proof.Proof.Gen.Kernel.Points
import proofs.«173433_j21406117003629_1_alg».proof.Proof.K.Dat1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, and its run in each of the three cases -/

/-- The condition of the first conditional of the body (the tile is the first one), from the grid coordinate. -/
abbrev cond1_0 (i : grid1.Coords) : Prop := (Scalar.cmpi .ne (Scalar.extui (Scalar.cmpi .eq (BitVec.ofNat 32 (i 0).val) 0#32)) 0#32) = 1#1
/-- The condition of the second conditional (the tile is the last one). -/
abbrev cond1_1 (i : grid1.Coords) : Prop := k1_cond2 i = 1#1

/-- The zero offsets of a whole-block rectangle of rank 2, as the constant function. -/
theorem b1_zeros2 : (![0, 0] : Fin 2 → Nat) = fun _ => 0 := funext fun a => by fin_cases a <;> rfl

set_option maxHeartbeats 1000000 in
/-- A middle tile (neither conditional taken): the four input blocks are loaded and left as they were, the result's buffer is
    untouched, and the scratch word `xs` becomes `k1_pay2 x1 x2 x3 x4 xs`. -/
theorem run1_B (c : Dev nD) (i : grid1.Coords)
    (arg1 : Memref sig .tc .vmem S4096x1 .f32) (harg1 : arg1.IsWhole) (arg2 : Memref sig .tc .vmem S4096x1 .i32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : ¬cond1_0 i) (hc1 : ¬cond1_1 i)
    (x1 : Vec F S4096x1 .f32) (x2 : Vec F S4096x1 .i32) (x3 : Vec F S1x128 .f32) (x4 : Vec F S1x1 .f32) (xi5 : Vec F S1x1 .f32) (xs : Vec F S1x1 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare xi5 ∗ owns (c : Thread nD τ) arg6 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare xi5
            ∗ owns (c : Thread nD τ) arg6 fullShare (k1_pay2 x1 x2 x3 x4 xs)) -∗ K ⟨⟩))
      ⊢ wp frame (wpE (defs₀ (F := F)) Variants.none c none) E (cc1_kernel_b i arg1 harg1 arg2 harg2 arg3 harg3 arg4 harg4 arg5 harg5 arg6 harg6) K := by
  simp only [cc1_kernel_b_eq_skeleton]; unfold cc1_kernel_b_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  rw [View.read_writes_eq_canon _ _ _ (fun y => ⟨_, List.mem_singleton_self _, View.mem_set_unit_zero (S := S1x1) b1_zeros2 inb_S1x1_S1x1_0_0 y⟩),
    View.canon_unit_zero b1_zeros2]
  simp only [View.readAt_eq_ld, harg1.read_unread, harg2.read_unread, harg3.read_unread, harg4.read_unread, harg6.read_unread,
    View.ld_unit_zero (S := S4096x1) b1_zeros2, View.ld_unit_zero (S := S1x128) b1_zeros2, View.ld_unit_zero (S := S1x1) b1_zeros2]

set_option maxHeartbeats 1000000 in
/-- The first tile (the first conditional taken, the second not): the scratch word, whatever it held, is set to `k1_pay1` and then
    becomes `k1_pay2 x1 x2 x3 x4 k1_pay1`; the input blocks and the result's buffer are left as they were. -/
theorem run1_A (c : Dev nD) (i : grid1.Coords)
    (arg1 : Memref sig .tc .vmem S4096x1 .f32) (harg1 : arg1.IsWhole) (arg2 : Memref sig .tc .vmem S4096x1 .i32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : cond1_0 i) (hc1 : ¬cond1_1 i)
    (x1 : Vec F S4096x1 .f32) (x2 : Vec F S4096x1 .i32) (x3 : Vec F S1x128 .f32) (x4 : Vec F S1x1 .f32) (xi5 : Vec F S1x1 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare xi5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare xi5
            ∗ owns (c : Thread nD τ) arg6 fullShare (k1_pay2 x1 x2 x3 x4 (k1_pay1 (F := F)))) -∗ K ⟨⟩))
      ⊢ wp frame (wpE (defs₀ (F := F)) Variants.none c none) E (cc1_kernel_b i arg1 harg1 arg2 harg2 arg3 harg3 arg4 harg4 arg5 harg5 arg6 harg6) K := by
  simp only [cc1_kernel_b_eq_skeleton]; unfold cc1_kernel_b_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  sl_unfold_words
  rw [View.read_writes_eq_canon _ _ _ (fun y => ⟨_, List.mem_cons_self .., View.mem_set_unit_zero (S := S1x1) b1_zeros2 inb_S1x1_S1x1_0_0 y⟩),
    View.canon_cons_unit_zero b1_zeros2]
  simp only [View.readAt_eq_ld, harg1.read_unread, harg2.read_unread, harg3.read_unread, harg4.read_unread,
    View.ld_unit_zero (S := S4096x1) b1_zeros2, View.ld_unit_zero (S := S1x128) b1_zeros2, View.ld_unit_zero (S := S1x1) b1_zeros2,
    View.readCov_unit_zero (S := S1x1) _ b1_zeros2]

set_option maxHeartbeats 1000000 in
/-- The last tile (the first conditional not taken, the second taken): the scratch word `xs` becomes `k1_pay2 x1 x2 x3 x4 xs`, and
    the result's buffer, whatever it held, receives that word. -/
theorem run1_C (c : Dev nD) (i : grid1.Coords)
    (arg1 : Memref sig .tc .vmem S4096x1 .f32) (harg1 : arg1.IsWhole) (arg2 : Memref sig .tc .vmem S4096x1 .i32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : ¬cond1_0 i) (hc1 : cond1_1 i)
    (x1 : Vec F S4096x1 .f32) (x2 : Vec F S4096x1 .i32) (x3 : Vec F S1x128 .f32) (x4 : Vec F S1x1 .f32) (xs : Vec F S1x1 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k1_pay2 x1 x2 x3 x4 xs)
            ∗ owns (c : Thread nD τ) arg6 fullShare (k1_pay2 x1 x2 x3 x4 xs)) -∗ K ⟨⟩))
      ⊢ wp frame (wpE (defs₀ (F := F)) Variants.none c none) E (cc1_kernel_b i arg1 harg1 arg2 harg2 arg3 harg3 arg4 harg4 arg5 harg5 arg6 harg6) K := by
  simp only [cc1_kernel_b_eq_skeleton]; unfold cc1_kernel_b_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf1; obtain rfl := harg2.eq_unread hf2; obtain rfl := harg3.eq_unread hf3
  obtain rfl := harg4.eq_unread hf4; obtain rfl := harg6.eq_unread hf6
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [View.read_writes_eq_canon _ _ _ (fun y => ⟨_, List.mem_singleton_self _, View.mem_set_unit_zero (S := S1x1) b1_zeros2 inb_S1x1_S1x1_0_0 y⟩),
      View.canon_unit_zero b1_zeros2]
    simp only [View.readAt_eq_ld, harg1.read_unread, harg2.read_unread, harg3.read_unread, harg4.read_unread, harg6.read_unread,
    View.ld_unit_zero (S := S4096x1) b1_zeros2, View.ld_unit_zero (S := S1x128) b1_zeros2, View.ld_unit_zero (S := S1x1) b1_zeros2,
    View.readCov_unit_zero (S := S1x1) _ b1_zeros2]
  iexists _; isplitr
  swap; · iexact H6
  ipureintro
  sl_unfold_words
  rw [View.read_writes_eq_canon _ _ _ (fun y => ⟨_, List.mem_singleton_self _, View.mem_set_unit_zero (S := S1x1) b1_zeros2 inb_S1x1_S1x1_0_0 y⟩),
    View.canon_unit_zero b1_zeros2]
  simp only [View.readAt_eq_ld, harg1.read_unread, harg2.read_unread, harg3.read_unread, harg4.read_unread, harg6.read_unread,
    View.ld_unit_zero (S := S4096x1) b1_zeros2, View.ld_unit_zero (S := S1x128) b1_zeros2, View.ld_unit_zero (S := S1x1) b1_zeros2,
    View.readCov_unit_zero (S := S1x1) _ b1_zeros2]

/-! ## The conditions and the idle points, decided over the grid -/

/-- The first conditional is taken at the first tile only. -/
theorem hcond1_0 : ∀ t : Fin cfg1.N, cond1_0 (grid1.coords t) ↔ t.val = 0 :=
  (by decide +kernel : ∀ t : Fin grid1.N, cond1_0 (grid1.coords t) ↔ t.val = 0)
/-- The second conditional is taken at the last tile only. -/
theorem hcond1_1 : ∀ t : Fin cfg1.N, cond1_1 (grid1.coords t) ↔ t.val = 255 :=
  (by decide +kernel : ∀ t : Fin grid1.N, cond1_1 (grid1.coords t) ↔ t.val = 255)

/-- The four input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last tile the result window is idle and not written back; -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- at the last tile it is live. -/
theorem liveAt1_4 : ∀ t : Fin cfg1.N, cond1_1 (grid1.coords t) → cfg1.idle 4 (grid1.coords t) = false := by decide +kernel

section Region1

variable (V : (c : Dev nD) → (b : Ref sig .tc) → Buf (Elt F) ((c : Thread nD τ).loc b))

/-! ## What the body finds in the input windows' buffers -/

/-- Each input window's current staging buffer holds its block at every tile, fetched there or not (unfetched, the block
    index has not moved). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The running loss, tile by tile -/

/-- At the first tile the running loss is the tile's update of the reset value; -/
theorem lossAt_first (c : Dev nD) (t : Fin cfg1.N) (h0 : t.val = 0) :
    lossAt V c t.val t.isLt = k1_pay2 (lpblk V c t) (bblk V c t) (wblk V c t) (nblk V c t) (k1_pay1 (F := F)) := by
  obtain ⟨n, hn⟩ := t
  cases n with
  | zero => rfl
  | succ n => exact absurd h0 (Nat.succ_ne_zero n)

/-- at a later tile, the tile's update of the running loss of the tile before. -/
theorem lossAt_next (c : Dev nD) (t : Fin cfg1.N) (h0 : t.val ≠ 0) :
    lossAt V c t.val t.isLt = k1_pay2 (lpblk V c t) (bblk V c t) (wblk V c t) (nblk V c t)
      (lossAt V c (t.val - 1) (Nat.lt_of_le_of_lt (Nat.sub_le _ _) t.isLt)) := by
  obtain ⟨n, hn⟩ := t
  cases n with
  | zero => exact absurd rfl h0
  | succ n => rfl

/-! ## The invariant -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (lossAt V c n hn) ∗ rest1 (F := F) c ∗ (∃ r, prngReg c r)) := rfl

/-- Before a tile that is not the first: the scratch word at the running loss of the tile before. -/
theorem PhiS1_pos (c : Dev nD) (n : ℕ) (h : n ≤ cfg1.N) (hz : n ≠ 0) :
    PhiS1 V c n h = iprop(owns (c : Thread nD τ) scM1 fullShare (lossAt V c (n - 1) (by omega)) ∗ rest1 (F := F) c ∗ (∃ r, prngReg c r)) := by
  cases n with
  | zero => exact absurd rfl hz
  | succ n => rfl

/-- The invariant at a tile's start, restated at the tile's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- The pipeline's own invariant gives the scratch word at some contents, the other scoped buffers and the generator
    register: the scoped rest enumerated, its last factor (the scratch) brought to the front. -/
theorem PhiA1_split (c : Dev nD) :
    (Pipeline.ΦA spec1 c : sProp 𝕄) ⊢ iprop((∃ d, owns (c : Thread nD τ) scM1 fullShare d) ∗ rest1 (F := F) c ∗ (∃ r, prngReg c r)) := by
  unfold Pipeline.ΦA rest1; rw [scopedRest1_eq]; simp only [scM1, owns_whole]
  iintro ⟨⟨R1, R2, R3, R4, R5, R6, R7, R8, R9, R10, R11, R12, HS⟩, Hg⟩
  isplitl [HS]; · iexact HS
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact R12

/-- And back. -/
theorem PhiA1_join (c : Dev nD) :
    iprop((∃ d, owns (c : Thread nD τ) scM1 fullShare d) ∗ rest1 (F := F) c ∗ (∃ r, prngReg c r)) ⊢ (Pipeline.ΦA spec1 c : sProp 𝕄) := by
  unfold Pipeline.ΦA rest1; rw [scopedRest1_eq]; simp only [scM1, owns_whole]
  iintro ⟨HS, ⟨R1, R2, R3, R4, R5, R6, R7, R8, R9, R10, R11, R12⟩, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact HS

/-- The pipeline's own invariant IS the scratch word at some contents with the other scoped buffers and the generator register. -/
theorem PhiA1_eq (c : Dev nD) :
    (Pipeline.ΦA spec1 c : sProp 𝕄) = iprop((∃ d, owns (c : Thread nD τ) scM1 fullShare d) ∗ rest1 (F := F) c ∗ (∃ r, prngReg c r)) :=
  Idealize.SL.BI.Entails.antisymm (PhiA1_split c) (PhiA1_join c)

/-! ## The body obligation, at a generic tile -/

/-- What the body is called with at tile `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any tile. The input windows' buffers hold their blocks; the closed forms of the two conditions say which case
    the tile is in; the invariant hands the run the scratch word (at anything before the first tile, at the running loss of
    the tile before afterwards) and takes it back at this tile's running loss; away from the last tile the result window is
    idle and handed back as found, at the last tile it receives the running loss. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (win1_0.stage (cfg1.slots t 0)) fullShare ((dat1 V c).after 0 t) from by
    unfold Dat.leavesExact; rw [liveAt1_0 t], after1_0]
  rw [show (dat1 V c).leavesExact 1 t = owns (c : Thread nD τ) (win1_1.stage (cfg1.slots t 1)) fullShare ((dat1 V c).after 1 t) from by
    unfold Dat.leavesExact; rw [liveAt1_1 t], after1_1]
  rw [show (dat1 V c).leavesExact 2 t = owns (c : Thread nD τ) (win1_2.stage (cfg1.slots t 2)) fullShare ((dat1 V c).after 2 t) from by
    unfold Dat.leavesExact; rw [liveAt1_2 t], after1_2]
  rw [show (dat1 V c).leavesExact 3 t = owns (c : Thread nD τ) (win1_3.stage (cfg1.slots t 3)) fullShare ((dat1 V c).after 3 t) from by
    unfold Dat.leavesExact; rw [liveAt1_3 t], after1_3]
  by_cases h0 : t.val = 0
  · have h1 : ¬t.val = 255 := by omega
    rw [Dat.leavesExact_idle (dat1 V c) 4 t (idleAt1_4 t (fun h => h1 ((hcond1_1 t).mp h))) (noFlush1_4 t (fun h => h1 ((hcond1_1 t).mp h)))]
    rw [lossAt_first V c t h0, PhiS1_castSucc V c t, PhiS1_zero V c _ _ h0, PhiA1_eq]
    iintro ⟨⟨HS, HR, Hg⟩, Ho, ⟨%d0, H0⟩, ⟨%d1, H1⟩, ⟨%d2, H2⟩, ⟨%d3, H3⟩, ⟨%d4, H4⟩⟩
    iapply (run1_A c (grid1.coords t) _ _ _ _ _ _ _ _ _ _ _ _ ((hcond1_0 t).mpr h0) (fun h => h1 ((hcond1_1 t).mp h))
      (lpblk V c t) (bblk V c t) (wblk V c t) (nblk V c t) _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexists _; iexact H4
  · rw [lossAt_next V c t h0, PhiS1_castSucc V c t, PhiS1_pos V c _ _ h0]
    by_cases h1 : t.val = 255
    · rw [show (dat1 V c).leavesExact 4 t = owns (c : Thread nD τ) (win1_4.stage (cfg1.slots t 4)) fullShare ((dat1 V c).after 4 t) from by
        unfold Dat.leavesExact; rw [liveAt1_4 t ((hcond1_1 t).mpr h1)], after1_4, lossAt_next V c t h0]
      iintro ⟨⟨HS, HR, Hg⟩, Ho, ⟨%d0, H0⟩, ⟨%d1, H1⟩, ⟨%d2, H2⟩, ⟨%d3, H3⟩, ⟨%d4, H4⟩⟩
      iapply (run1_C c (grid1.coords t) _ _ _ _ _ _ _ _ _ _ _ _ (fun h => h0 ((hcond1_0 t).mp h)) ((hcond1_1 t).mpr h1)
        (lpblk V c t) (bblk V c t) (wblk V c t) (nblk V c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t (fun h => h1 ((hcond1_1 t).mp h)))]
      iintro ⟨⟨HS, HR, Hg⟩, Ho, ⟨%d0, H0⟩, ⟨%d1, H1⟩, ⟨%d2, H2⟩, ⟨%d3, H3⟩, ⟨%d4, H4⟩⟩
      iapply (run1_B c (grid1.coords t) _ _ _ _ _ _ _ _ _ _ _ _ (fun h => h0 ((hcond1_0 t).mp h)) (fun h => h1 ((hcond1_1 t).mp h))
        (lpblk V c t) (bblk V c t) (wblk V c t) (nblk V c t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every tile. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first tile. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last tile the invariant gives the pipeline's own back: the accumulator's named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega), PhiA1_eq]
  iintro ⟨HS, HR, Hg⟩
  isplitl [HS]
  · iexists _; iexact HS
  isplitl [HR]; · iexact HR
  iexact Hg

end Region1

end Cert.Kernel.Hand

end
-- ==== Proof.K.Launch.lean ====
/-
  The launch of the whole program: @main's seven items (a host stretch, the first kernel region, three host stretches,
  the second kernel region, a host stretch) as segments of the several-regions rule, each region's record built from
  its body obligation, and the run read at the end: every weakly fair execution terminates, the result buffer holds
  what the last host stretch computes from what the second region left, and the three argument arrays are as launched.
-/
import proofs.«173433_j21406117003629_1_alg».proof.Proof.Gen.Kernel.Launch
import proofs.«173433_j21406117003629_1_alg».proof.Proof.Gen.Kernel.Skeleton
import proofs.«173433_j21406117003629_1_alg».proof.Proof.Gen.Kernel.Points
import proofs.«173433_j21406117003629_1_alg».proof.Proof.Gen.Kernel.Regions
import proofs.«173433_j21406117003629_1_alg».proof.Proof.K.Entry
import proofs.«173433_j21406117003629_1_alg».proof.Proof.K.Body0
import proofs.«173433_j21406117003629_1_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The core's buffers when the first region is left: each of the region's six arrays at what the pipeline rule
    computes from the first region's proof data (an input as the region found it, an output with its write-backs
    folded in over all tiles), every other buffer as the region found it. -/
def W2 (m : (ℓ : Loc nD τ sig) → Buf (Elt F) ℓ) (c : Dev nD) : Valuation τ sig (Elt F) :=
  Pipeline.withArrays spec0 c (Gen.V1 m c) fun w => (dat0 (E1 m) c).arrAt w cfg0.N

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w

/-- What the first region leaves, as an assignment of contents to every item number: the second region's entry
    contents are stated over it (they read it at the first region's three results only). -/
def outsA (m : (ℓ : Loc nD τ sig) → Buf (Elt F) ℓ) : Gen.Outs (F := F) := fun _ r c => W2 m c r

/-- The core's buffers when the second region is left: each of its five arrays at what the pipeline rule computes from
    the second region's proof data at its entry contents, every other buffer as that region found it. -/
def W6 (m : (ℓ : Loc nD τ sig) → Buf (Elt F) ℓ) (c : Dev nD) : Valuation τ sig (Elt F) :=
  Pipeline.withArrays spec1 c (Gen.V5 m (outsA m) c) fun w => (dat1 (E5 m (outsA m)) c).arrAt w cfg1.N

theorem W6_arr (c : Dev nD) (w : Fin cfg1.W) :
    W6 m c (Proc.devRef .tc (Pipeline.arrRef spec1 w)) = (dat1 (E5 m (outsA m)) c).arrAt w cfg1.N := by
  unfold W6; exact Pipeline.withArrays_arr spec1 launch1.win.arr_inj c _ _ w

/-- What the two regions leave in the buffers they may change: after the first region its three result arrays at what
    the pipeline rule computes from the first region's proof data at its entry contents; after the second region the
    result word likewise. -/
def outs (m : (ℓ : Loc nD τ sig) → Buf (Elt F) ℓ) : Gen.Outs (F := F) := fun J r c =>
  match J with
  | 6 => W6 m c r
  | _ => W2 m c r

/-- The second region's entry contents read what the regions leave only after the first region. -/
theorem E5_outs : E5 m (outs m) = E5 m (outsA m) := rfl

theorem outs_v1_0 (c : Dev nD) : outs m 2 main_v1_0 c = (dat0 (E1 m) c).arrAt 3 cfg0.N := W2_arr m c 3
theorem outs_v1_1 (c : Dev nD) : outs m 2 main_v1_1 c = (dat0 (E1 m) c).arrAt 4 cfg0.N := W2_arr m c 4
theorem outs_v1_2 (c : Dev nD) : outs m 2 main_v1_2 c = (dat0 (E1 m) c).arrAt 5 cfg0.N := W2_arr m c 5
theorem outs_v22 (c : Dev nD) : outs m 6 main_v22 c = (dat1 (E5 m (outs m)) c).arrAt 4 cfg1.N := by
  rw [E5_outs]; exact W6_arr m c 4

/-! ## The regions' exits among the core's buffers

At a region's exit each of its arrays holds what the pipeline rule leaves there and every other buffer what it held
at entry: an input array is never written (its contents at every tile are the entry contents), an output array is
one of the buffers the valuation after the region is updated at. -/

/-- The second valuation at the first region's three results. -/
theorem V2_v1_0 (c : Dev nD) : Gen.V2 m (outs m) c main_v1_0 = outs m 2 main_v1_0 c := by
  simp only [Gen.V2, Function.update_of_ne (StableHlo.devRef_ne_of_ne (by decide) : (Proc.devRef .tc main_v1_0 : DevRef τ sig) ≠ Proc.devRef .tc main_v1_2),
    Function.update_of_ne (StableHlo.devRef_ne_of_ne (by decide) : (Proc.devRef .tc main_v1_0 : DevRef τ sig) ≠ Proc.devRef .tc main_v1_1), Function.update_self]
theorem V2_v1_1 (c : Dev nD) : Gen.V2 m (outs m) c main_v1_1 = outs m 2 main_v1_1 c := by
  simp only [Gen.V2, Function.update_of_ne (StableHlo.devRef_ne_of_ne (by decide) : (Proc.devRef .tc main_v1_1 : DevRef τ sig) ≠ Proc.devRef .tc main_v1_2), Function.update_self]
theorem V2_v1_2 (c : Dev nD) : Gen.V2 m (outs m) c main_v1_2 = outs m 2 main_v1_2 c := by
  simp only [Gen.V2, Function.update_self]
/-- The sixth valuation at the second region's result. -/
theorem V6_v22 (c : Dev nD) : Gen.V6 m (outs m) c main_v22 = outs m 6 main_v22 c := by
  simp only [Gen.V6, Function.update_self]

theorem hF0 (c : Dev nD) : ∀ w : Fin cfg0.W, (dat0 (E1 m) c).arrAt w cfg0.N = Gen.V2 m (outs m) c (Pipeline.arrRef spec0 w)
  | ⟨0, _⟩ => (((dat0 (E1 m) c).arrAt_in 0 rfl _).trans (A_eq0 (E1 m) c 0)).trans (Gen.V2_of m (outs m) c main_arg0 (by decide)).symm
  | ⟨1, _⟩ => (((dat0 (E1 m) c).arrAt_in 1 rfl _).trans (A_eq0 (E1 m) c 1)).trans (Gen.V2_of m (outs m) c main_arg1 (by decide)).symm
  | ⟨2, _⟩ => (((dat0 (E1 m) c).arrAt_in 2 rfl _).trans (A_eq0 (E1 m) c 2)).trans (Gen.V2_of m (outs m) c main_v0 (by decide)).symm
  | ⟨3, _⟩ => ((V2_v1_0 m c).trans (outs_v1_0 m c)).symm
  | ⟨4, _⟩ => ((V2_v1_1 m c).trans (outs_v1_1 m c)).symm
  | ⟨5, _⟩ => ((V2_v1_2 m c).trans (outs_v1_2 m c)).symm

theorem hrest0 (c : Dev nD) : ∀ b, b ∉ Finset.univ.image (Pipeline.arrRef spec0) → Gen.V2 m (outs m) c b = E1 m c b :=
  fun b hb => Gen.V2_of m (outs m) c b fun hmem => by
    simp only [List.mem_cons, List.not_mem_nil, or_false] at hmem
    rcases hmem with rfl | rfl | rfl
    · exact hb (Finset.mem_image.mpr ⟨3, Finset.mem_univ _, rfl⟩)
    · exact hb (Finset.mem_image.mpr ⟨4, Finset.mem_univ _, rfl⟩)
    · exact hb (Finset.mem_image.mpr ⟨5, Finset.mem_univ _, rfl⟩)

theorem hF1 (c : Dev nD) : ∀ w : Fin cfg1.W, (dat1 (E5 m (outs m)) c).arrAt w cfg1.N = Gen.V6 m (outs m) c (Pipeline.arrRef spec1 w)
  | ⟨0, _⟩ => (((dat1 (E5 m (outs m)) c).arrAt_in 0 rfl _).trans (A_eq1 (E5 m (outs m)) c 0)).trans (Gen.V6_of m (outs m) c main_v1_0 (by decide)).symm
  | ⟨1, _⟩ => (((dat1 (E5 m (outs m)) c).arrAt_in 1 rfl _).trans (A_eq1 (E5 m (outs m)) c 1)).trans (Gen.V6_of m (outs m) c main_v1_1 (by decide)).symm
  | ⟨2, _⟩ => (((dat1 (E5 m (outs m)) c).arrAt_in 2 rfl _).trans (A_eq1 (E5 m (outs m)) c 2)).trans (Gen.V6_of m (outs m) c main_v20 (by decide)).symm
  | ⟨3, _⟩ => (((dat1 (E5 m (outs m)) c).arrAt_in 3 rfl _).trans (A_eq1 (E5 m (outs m)) c 3)).trans (Gen.V6_of m (outs m) c main_v21 (by decide)).symm
  | ⟨4, _⟩ => ((V6_v22 m c).trans (outs_v22 m c)).symm

theorem hrest1 (c : Dev nD) : ∀ b, b ∉ Finset.univ.image (Pipeline.arrRef spec1) → Gen.V6 m (outs m) c b = E5 m (outs m) c b :=
  fun b hb => Gen.V6_of m (outs m) c b fun hmem => by
    simp only [List.mem_cons, List.not_mem_nil, or_false] at hmem
    subst hmem
    exact hb (Finset.mem_image.mpr ⟨4, Finset.mem_univ _, rfl⟩)

/-! ## The proof data family and what rides beside the buffers -/

/-- Every region's proof data, each at its region's entry contents. -/
def pdats (m : (ℓ : Loc nD τ sig) → Buf (Elt F) ℓ) : (p : Fin 2) → (c : Dev nD) → Dat τ (Elt F) Unit ℕ (UR sig nD τ) ℕ (cfgs p) c
  | ⟨0, _⟩ => fun c => dat0 (E1 m) c
  | ⟨1, _⟩ => fun c => dat1 (E5 m (outs m)) c

abbrev 𝒱₀ : Variants := Variants.none
/-- No core owes another anything: no level is assigned. -/
abbrev noPairs : GSem nD τ sig → Finset Unit := fun _ => ∅
abbrev noLevels : GSem nD τ sig → Unit → ℕ := fun _ _ => 0
/-- What rides beside the buffers through every item: the core's generator register at some state (a region's
    invariant takes it in and gives it back) and the core owing nothing. -/
abbrev Ride (c : Dev nD) : sProp 𝕄 := iprop((∃ r, prngReg c r) ∗ ∃ W, owes (c : Thread nD τ) (0 : CellTallies nD τ sig Unit) W)

/-! ## The regions as segments -/

set_option backward.isDefEq.respectTransparency.types false in
/-- THE FIRST REGION over the thread state: entered from every unscoped buffer at the first valuation after the
    launch's, left at the second. Its arrays are split out of the unscoped buffers and put back at the exit contents;
    the generator register and the scoped buffers no window stages enter the region's invariant through the pipeline's
    own and come back through it; nothing is owed; the kernel has no semaphore of its own. -/
def reg0 : Pipeline.RegionSeg (pcfgs (F := F)) Gen.adm (pdats m) () defs₀ 𝒱₀ noPairs noLevels 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noPairs noLevels 0 fun _ _ => rfl
  pre c := iprop(StableHlo.held (c : Thread nD τ) (Pipeline.ucRefs τ sig) (Gen.V1 m c) ∗ Ride c)
  post c := iprop(StableHlo.held (c : Thread nD τ) (Pipeline.ucRefs τ sig) (Gen.V2 m (outs m) c) ∗ Ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (E1 m) c
    unfold Pipeline.ΦA at h
    rw [show (pdats m 0 c).Φ 0 = (dat0 (E1 m) c).Φ 0 from rfl]
    iintro ⟨Hp, -, Hr⟩
    iapply h
    isplitl [Hr]; · iexact Hr
    iexact Hp
  hout c := by
    rw [Pipeline.ownSems0_none]
    have h := hout0 (E1 m) c
    unfold Pipeline.ΦA at h
    rw [show (pdats m 0 c).Φ (Fin.last _) = (dat0 (E1 m) c).Φ (Fin.last cfg0.N) from rfl]
    iintro HF
    ihave H := h $$ HF
    icases H with ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at the fifth valuation, left at the
    sixth; otherwise as the first. -/
def reg1 : Pipeline.RegionSeg (pcfgs (F := F)) Gen.adm (pdats m) () defs₀ 𝒱₀ noPairs noLevels 1 where
  win := launch1.win.to₀
  block_pos := launch1.block_pos
  stage_whole := launch1.stage_whole
  K := PEmpty
  osem k := k.elim
  ho := Pipeline.OwnSemFacts.none _
  hbody c := (body_obligation1 (E5 m (outs m)) c).loose
  hwaits := Pipeline.hwaits_of_owed_zero _ _ _ _ noPairs noLevels 1 fun _ _ => rfl
  pre c := iprop(StableHlo.held (c : Thread nD τ) (Pipeline.ucRefs τ sig) (Gen.V5 m (outs m) c) ∗ Ride c)
  post c := iprop(StableHlo.held (c : Thread nD τ) (Pipeline.ucRefs τ sig) (Gen.V6 m (outs m) c) ∗ Ride c)
  X c := iprop(∃ r, prngReg c r)
  Y c := iprop(∃ r, prngReg c r)
  Z c := Pipeline.unscopedRest (Ix := Unit) (Name := ℕ) (U := UR sig nD τ) (Lvl := ℕ) spec1 c (E5 m (outs m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E5 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E5 m (outs m)) c
    unfold Pipeline.ΦA at h
    rw [show (pdats m 1 c).Φ 0 = (dat1 (E5 m (outs m)) c).Φ 0 from rfl]
    iintro ⟨Hp, -, Hr⟩
    iapply h
    isplitl [Hr]; · iexact Hr
    iexact Hp
  hout c := by
    rw [Pipeline.ownSems0_none]
    have h := hout1 (E5 m (outs m)) c
    unfold Pipeline.ΦA at h
    rw [show (pdats m 1 c).Φ (Fin.last _) = (dat1 (E5 m (outs m)) c).Φ (Fin.last cfg1.N) from rfl]
    iintro HF
    ihave H := h $$ HF
    icases H with ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E5 m (outs m) c) (fun b => Gen.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, at any float instance: from any memory with zero counters every weakly fair execution of @main terminates,
    nothing faulting; the result buffer ends at the last valuation's value and the argument arrays as launched. -/
theorem run_main : θ_run defs (onTc (τ := τ) (main (F := F))) ⟨m, fun _ => 0, ρ⟩ (fun r => ∀ c : Dev nD,
      r.2.mem ((c.tc : Thread nD τ).loc main_v23) = Gen.V7 m (outs m) c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm (pdats m) () cellOf_inj emb₁ defs₀ 𝒱₀ noPairs noLevels m ρ main
    (Gen.segs m (outs m) 𝒱₀ noPairs noLevels (fun _ => Ride) () (pdats m) (reg0 m) (reg1 m))
    (fun c Q => by
      rewrite [main_chain c, Pipeline.Seg.run_eq_chain,
        show (Gen.segs m (outs m) 𝒱₀ noPairs noLevels (fun _ => Ride) () (pdats m) (reg0 m) (reg1 m) c).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (Gen.V0 m c) ∗ Ride c))
    (Tₙ := fun c => StableHlo.held (c : Thread nD τ) (Pipeline.ucRefs τ sig) (Gen.V7 m (outs m) c))
    (hch := fun c => ⟨.rfl, .rfl, .rfl, .rfl, .rfl, .rfl, .rfl, sep_mono .rfl (by iintro ⟨-, HO⟩; iexact HO)⟩)
    (hinit := ?_)
    (QY := fun c s => s.mem ((c.tc : Thread nD τ).loc main_v23) = Gen.V7 m (outs m) c main_v23
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the launch element is the pipeline rule's own; no other ghost resource
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: each core holds its unscoped buffers at the launch contents, its generator register, and owes nothing
    refine Pipeline.initEach noPairs noLevels fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (Gen.V7 m (outs m) c) s') $$ [Hh HSI]
    · isplitl [Hh] <;> iassumption
    icases Hr with ⟨%h, HSI⟩
    imodintro
    isplitr
    · ipureintro
      exact ⟨h (Proc.devRef .tc main_v23) (mem_uc main_v23 (by decide)),
        (h (Proc.devRef .tc main_arg0) (mem_uc main_arg0 (by decide))).trans (Gen.V7_main_arg0 m (outs m) c),
        (h (Proc.devRef .tc main_arg1) (mem_uc main_arg1 (by decide))).trans (Gen.V7_main_arg1 m (outs m) c),
        (h (Proc.devRef .tc main_arg2) (mem_uc main_arg2 (by decide))).trans (Gen.V7_main_arg2 m (outs m) c)⟩
    · iexact HSI

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.KI.Dat0.lean ====
/-
  The first kernel region (the per-row pass over 256 tiles of 4096 rows), as data for the pipeline rule, at any
  float instance and at any contents `V` of the core's buffers when the region is entered.

  At tile `t` the body reads the tile's block of logits `p`, of targets and of labels, and leaves
  • in the log-probability window the column `(Σ_j p·onehot) − (max p + log Σ_j exp (p − max p))` of the tile (payload 4),
  • in the bin window the column `clip (⌊30 · Σ_j |σ(p) − target|·onehot⌋, 0, 29)` of the tile (payload 5),
  • in its scratch row the running histogram: the row of zeros at tile 0, then at every tile the previous row plus the
    number of the tile's rows whose bin is lane `j` (payload 1);
  the histogram window receives the scratch row at the last tile only and is idle before.
-/
import proofs.«173433_j21406117003629_1_alg».proof.Proof.Gen.KernelIdeal.Launch
import proofs.«173433_j21406117003629_1_alg».proof.Proof.Gen.KernelIdeal.Skeleton
import proofs.«173433_j21406117003629_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile's block of logits, of targets and of labels, at their literal shapes. -/
abbrev pblk (c : Dev nD) (t : Fin cfg0.N) : Vec F S4096x128 .f32 := iblk0 V c 0 t
abbrev tblk (c : Dev nD) (t : Fin cfg0.N) : Vec F S4096x128 .f32 := iblk0 V c 1 t
abbrev lblk (c : Dev nD) (t : Fin cfg0.N) : Vec F S4096x1 .i32 := iblk0 V c 2 t

/-- The lane number of every entry of a tile: what the body compares labels and bins against. -/
abbrev lanes : IVec S4096x128 32 := iota .tc S4096x128 32 [1] iota_S4096x128_d1_w32

/-- The tile's column of log-probabilities and its column of bins. -/
abbrev logpCol (c : Dev nD) (t : Fin cfg0.N) : Vec F S4096x1 .f32 := k0_pay4 (pblk V c t) (lblk V c t)
abbrev binCol (c : Dev nD) (t : Fin cfg0.N) : IVec S4096x1 32 := k0_pay5 (pblk V c t) (tblk V c t) (lblk V c t)

/-- THE RUNNING HISTOGRAM: the scratch row after tile `n` — zeros plus the lane counts of tiles 0 … n, added tile by tile. -/
def histAt (c : Dev nD) : (n : ℕ) → n < cfg0.N → Vec F S1x128 .f32
  | 0, h => k0_pay1 lanes (binCol V c ⟨0, h⟩) (k0_pay2 (F := F))
  | n + 1, h => k0_pay1 lanes (binCol V c ⟨n + 1, h⟩) (histAt c n (Nat.lt_of_succ_lt h))

theorem histAt_zero (c : Dev nD) (h : 0 < cfg0.N) :
    histAt V c 0 h = k0_pay1 lanes (binCol V c ⟨0, h⟩) (k0_pay2 (F := F)) := rfl
theorem histAt_succ (c : Dev nD) (n : ℕ) (h : n + 1 < cfg0.N) :
    histAt V c (n + 1) h = k0_pay1 lanes (binCol V c ⟨n + 1, h⟩) (histAt V c n (Nat.lt_of_succ_lt h)) := rfl

/-- The kernel's scratch row, a whole scoped buffer of its own. -/
abbrev scM0 : Memref sig .tc .vmem S1x128 .f32 := Memref.whole cc0_scratch0

/-- The core's other scoped buffers that are no staging buffer of this region (the second region's), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- The region's invariant before tile `n`: before the first tile the pipeline's own (every scoped buffer at anything);
    afterwards the scratch row at the running histogram of the tiles so far, the other scoped buffers at anything, the
    generator register at some state. -/
def PhiS0 (c : Dev nD) : (n : ℕ) → n ≤ cfg0.N → sProp 𝕄
  | 0, _ => Pipeline.ΦA spec0 c
  | n + 1, hn => iprop(owns (c : Thread nD τ) scM0 fullShare (histAt V c n hn) ∗ rest0 (F := F) c ∗ (∃ r, prngReg c r))

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => logpCol V c t
    | ⟨4, _⟩ => binCol V c t
    | ⟨5, _⟩ => histAt V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = logpCol V c t := by dsimp only [dat0]
theorem after0_4 (c : Dev nD) (t : Fin cfg0.N) : (dat0 V c).after 4 t = binCol V c t := by dsimp only [dat0]
theorem after0_5 (c : Dev nD) (t : Fin cfg0.N) : (dat0 V c).after 5 t = histAt V c t.val t.isLt := by dsimp only [dat0]

end Region0

end Cert.KernelIdeal.Hand

end
-- ==== Proof.KI.Dat1.lean ====
/-
  The second kernel region (the weighted sum over 256 tiles of 4096 rows), as data for the pipeline rule, at any float
  instance and at any contents `V` of the core's buffers when the region is entered.

  At tile `t` the body reads the tile's column of log-probabilities and of bins, the row of bin weights and the
  number of non-empty bins, and adds to its one-word scratch the tile's sum of
  `(0 − logp) · ((Σ_j [j = bin]·weight_j) / max (nonempty, 1)) / 2^20` (payload 2), from zero at tile 0 (payload 1); the
  result window receives the scratch word at the last tile only and is idle before.
-/
import proofs.«173433_j21406117003629_1_alg».proof.Proof.Gen.KernelIdeal.Launch
import proofs.«173433_j21406117003629_1_alg».proof.Proof.Gen.KernelIdeal.Skeleton
import proofs.«173433_j21406117003629_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile's column of log-probabilities and of bins, the weight row and the non-empty count, at their literal shapes. -/
abbrev lpblk (c : Dev nD) (t : Fin cfg1.N) : Vec F S4096x1 .f32 := iblk1 V c 0 t
abbrev bblk (c : Dev nD) (t : Fin cfg1.N) : Vec F S4096x1 .i32 := iblk1 V c 1 t
abbrev wblk (c : Dev nD) (t : Fin cfg1.N) : Vec F S1x128 .f32 := iblk1 V c 2 t
abbrev nblk (c : Dev nD) (t : Fin cfg1.N) : Vec F S1x1 .f32 := iblk1 V c 3 t

/-- THE RUNNING LOSS: the scratch word after tile `n` — zero plus the weighted sums of tiles 0 … n, added tile by tile. -/
def lossAt (c : Dev nD) : (n : ℕ) → n < cfg1.N → Vec F S1x1 .f32
  | 0, h => k1_pay2 (lpblk V c ⟨0, h⟩) (bblk V c ⟨0, h⟩) (wblk V c ⟨0, h⟩) (nblk V c ⟨0, h⟩) (k1_pay1 (F := F))
  | n + 1, h => k1_pay2 (lpblk V c ⟨n + 1, h⟩) (bblk V c ⟨n + 1, h⟩) (wblk V c ⟨n + 1, h⟩) (nblk V c ⟨n + 1, h⟩) (lossAt c n (Nat.lt_of_succ_lt h))

theorem lossAt_zero (c : Dev nD) (h : 0 < cfg1.N) :
    lossAt V c 0 h = k1_pay2 (lpblk V c ⟨0, h⟩) (bblk V c ⟨0, h⟩) (wblk V c ⟨0, h⟩) (nblk V c ⟨0, h⟩) (k1_pay1 (F := F)) := rfl
theorem lossAt_succ (c : Dev nD) (n : ℕ) (h : n + 1 < cfg1.N) :
    lossAt V c (n + 1) h = k1_pay2 (lpblk V c ⟨n + 1, h⟩) (bblk V c ⟨n + 1, h⟩) (wblk V c ⟨n + 1, h⟩) (nblk V c ⟨n + 1, h⟩) (lossAt V c n (Nat.lt_of_succ_lt h)) := rfl

/-- The kernel's scratch word, a whole scoped buffer of its own. -/
abbrev scM1 : Memref sig .tc .vmem S1x1 .f32 := Memref.whole cc1_scratch0

/-- The core's other scoped buffers that are no staging buffer of this region (the first region's), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_scratch0), ((c : Thread nD τ).loc cc0_scratch0) ↦{fullShare} f))

/-- The region's invariant before tile `n`: before the first tile the pipeline's own (every scoped buffer at anything);
    afterwards the scratch word at the running loss of the tiles so far, the other scoped buffers at anything, the
    generator register at some state. -/
def PhiS1 (c : Dev nD) : (n : ℕ) → n ≤ cfg1.N → sProp 𝕄
  | 0, _ => Pipeline.ΦA spec1 c
  | n + 1, hn => iprop(owns (c : Thread nD τ) scM1 fullShare (lossAt V c n hn) ∗ rest1 (F := F) c ∗ (∃ r, prngReg c r))

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => lossAt V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = lossAt V c t.val t.isLt := by dsimp only [dat1]

end Region1

end Cert.KernelIdeal.Hand

end
-- ==== Proof.KI.Entry.lean ====
/-
  The contents of the core's buffers when each kernel region is entered, read at the TensorCore's references: before
  the first region the launch contents with the label vector re-laid as a column; before the second region those with
  the first region's three results and the host operations between the regions (the bin weights and the count of
  non-empty bins) applied.
-/
import proofs.«173433_j21406117003629_1_alg».proof.Proof.Gen.KernelIdeal.Regions
import proofs.«173433_j21406117003629_1_alg».proof.Proof.KI.Dat0
import proofs.«173433_j21406117003629_1_alg».proof.Proof.KI.Dat1

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- What the first region finds in the core's buffers. -/
abbrev E1 : (c : Dev nD) → (b : Ref sig .tc) → Buf (Elt F) ((c : Thread nD τ).loc b) := fun c b => Gen.V1 m c b

/-- What the second region finds in the core's buffers, given what the regions leave (`outs`). -/
abbrev E5 (outs : Gen.Outs (F := F)) : (c : Dev nD) → (b : Ref sig .tc) → Buf (Elt F) ((c : Thread nD τ).loc b) :=
  fun c b => Gen.V5 m outs c b

end Cert.KernelIdeal.Hand

end
-- ==== Proof.KI.Body0.lean ====
/-
  The body obligation of kernel region 0: at every tile the kernel body, called on the windows' current staging
  buffers holding what the pipeline rule says they hold, runs to the end and leaves them holding what the proof data
  (`dat0`) states, the region's invariant carrying the scratch accumulator from tile to tile.

  Three cases meet the 256 tiles: the first tile (the scratch row is zeroed, then accumulated into), a middle tile
  (accumulated into), the last tile (accumulated into, then copied to the histogram window). Each case's whole-body
  run is stated over explicit contents; the obligation picks the case by the closed forms of the body's two conditions.
-/
import proofs.«173433_j21406117003629_1_alg».proof.Proof.Gen.KernelIdeal.Launch
import proofs.«173433_j21406117003629_1_alg».proof.Proof.Gen.KernelIdeal.Skeleton
import proofs.«173433_j21406117003629_1_alg».proof.Proof.Gen.KernelIdeal.Points
import proofs.«173433_j21406117003629_1_alg».proof.Proof.KI.Dat0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading whole-buffer loads and stores -/

/-- The zero offsets of a rank-2 rectangle, however spelt. -/
theorem b0_hz2 : (![0, 0] : Fin 2 → Nat) = fun _ => 0 := funext fun a => by fin_cases a <;> rfl

/-- A load through the whole-shape rectangle of a whole buffer holding `X` reads `X`. -/
theorem b0_readAt_unread {S : Shape} {e : EltTy} (m : Memref sig .tc .vmem S e) (h : m.IsWhole) {off : Fin S.rank → Nat}
    (hz : off = fun _ => 0) (inb : ∀ a, off a + S.size a ≤ S.size a) (X : S.Idx → Elt F e) :
    m.view.readAt (Elt F) (Rect.unit off S.size inb).toLoadRect (h.unread X) = X := by
  rw [View.readAt_eq_ld, h.read_unread, View.ld_unit_zero hz]

/-- A store through the whole-shape rectangle, LAST, leaves its payload, whatever the buffer held and whatever was
    stored before. -/
theorem b0_read_store_last {S : Shape} {e : EltTy} (m : Memref sig .tc .vmem S e) (f : m.view.ty.Contents (Elt F)) {off : Fin S.rank → Nat}
    (hz : off = fun _ => 0) (inb : ∀ a, off a + S.size a ≤ S.size a) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- A load through it after such a store reads the payload. -/
theorem b0_readCov_store_last {S : Shape} {e : EltTy} (m : Memref sig .tc .vmem S e) {off : Fin S.rank → Nat}
    (hz : off = fun _ => 0) (inb inb' : ∀ a, off a + S.size a ≤ S.size a) (w : S.Idx → Elt F e) (L : List (View.Piece (Elt F) S e)) :
    m.view.readCov ((⟨Rect.unit off S.size inb, w⟩ : View.Piece (Elt F) S e) :: L) (Rect.unit off S.size inb').toLoadRect = w := by
  rw [View.readCov_eq_canon_ld _ _ _ (fun y => ⟨_, List.mem_cons_self, View.mem_set_unit_zero hz inb y⟩),
    View.canon_cons_unit_zero hz, View.ld_unit_zero hz]

/-! ## The body's two conditions on the tile -/

/-- The condition of the first conditional (the tile is the first), from the grid coordinate. -/
abbrev cond0_0 (i : grid0.Coords) : Prop := (Scalar.cmpi .ne (Scalar.extui (Scalar.cmpi .eq (BitVec.ofNat 32 (i 0).val) 0#32)) 0#32) = 1#1
/-- The condition of the second conditional (the tile is the last). -/
abbrev cond0_1 (i : grid0.Coords) : Prop := k0_cond2 i = 1#1

set_option maxHeartbeats 1000000 in
/-- THE FIRST TILE (first conditional taken, second not): on whole buffers — the three inputs at `x0`, `x1`, `x2`, the two
    column outputs and the scratch row at anything, the histogram window at `xi6` — the body runs to the inputs as they were,
    the columns at their payloads, the histogram window untouched, the scratch row at the row of zeros plus the tile's
    lane counts (the zeros it stored first are what it loads back). -/
theorem run0_A (c : Dev nD) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x1 .i32) (harg3 : arg3.IsWhole) (arg4 : Memref sig .tc .vmem S4096x1 .f32) (harg4 : arg4.IsWhole)
    (arg5 : Memref sig .tc .vmem S4096x1 .i32) (harg5 : arg5.IsWhole) (arg6 : Memref sig .tc .vmem S1x128 .f32) (harg6 : arg6.IsWhole)
    (arg7 : Memref sig .tc .vmem S1x128 .f32) (harg7 : arg7.IsWhole) (hc0 : cond0_0 i) (hc1 : ¬cond0_1 i)
    (x0 : Vec F S4096x128 .f32) (x1 : Vec F S4096x128 .f32) (x2 : Vec F S4096x1 .i32) (xi6 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare xi6 ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x2) ∗ owns (c : Thread nD τ) arg5 fullShare (k0_pay5 x0 x1 x2)
            ∗ owns (c : Thread nD τ) arg6 fullShare xi6
            ∗ owns (c : Thread nD τ) arg7 fullShare (k0_pay1 lanes (k0_pay5 x0 x1 x2) (k0_pay2 (F := F)))) -∗ K ⟨⟩))
      ⊢ wp frame (wpE (defs₀ (F := F)) Variants.none c none) E (cc0_kernel_a i arg1 harg1 arg2 harg2 arg3 harg3 arg4 harg4 arg5 harg5 arg6 harg6 arg7 harg7) K := by
  simp only [cc0_kernel_a_eq_skeleton]; unfold cc0_kernel_a_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%ds, %fs, -, HS⟩, Hk⟩
  obtain rfl := harg1.eq_unread hf0; obtain rfl := harg2.eq_unread hf1; obtain rfl := harg3.eq_unread hf2
  obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [b0_read_store_last _ _ b0_hz2]
    simp only [b0_readAt_unread (S := S4096x128) _ _ b0_hz2, b0_readAt_unread (S := S4096x1) _ _ b0_hz2, b0_readAt_unread (S := S1x128) _ _ b0_hz2, b0_readCov_store_last (S := S1x128) _ b0_hz2]
  isplitl [H4]
  · iexists _; isplitr
    swap; · iexact H4
    ipureintro
    rw [b0_read_store_last _ _ b0_hz2]
    simp only [b0_readAt_unread (S := S4096x128) _ _ b0_hz2, b0_readAt_unread (S := S4096x1) _ _ b0_hz2, b0_readAt_unread (S := S1x128) _ _ b0_hz2, b0_readCov_store_last (S := S1x128) _ b0_hz2]
  isplitl [H5]
  · iexists _; isplitr; · ipureintro; exact harg6.read_unread _
    iexact H5
  iexists _; isplitr
  swap; · iexact HS
  ipureintro
  sl_unfold_words
  rw [b0_read_store_last _ _ b0_hz2]
  simp only [b0_readAt_unread (S := S4096x128) _ _ b0_hz2, b0_readAt_unread (S := S4096x1) _ _ b0_hz2, b0_readAt_unread (S := S1x128) _ _ b0_hz2, b0_readCov_store_last (S := S1x128) _ b0_hz2]

set_option maxHeartbeats 1000000 in
/-- A MIDDLE TILE (neither conditional taken): the same with the scratch row handed at `xs`, what the tile before left:
    it ends at `xs` plus the tile's lane counts. -/
theorem run0_B (c : Dev nD) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x1 .i32) (harg3 : arg3.IsWhole) (arg4 : Memref sig .tc .vmem S4096x1 .f32) (harg4 : arg4.IsWhole)
    (arg5 : Memref sig .tc .vmem S4096x1 .i32) (harg5 : arg5.IsWhole) (arg6 : Memref sig .tc .vmem S1x128 .f32) (harg6 : arg6.IsWhole)
    (arg7 : Memref sig .tc .vmem S1x128 .f32) (harg7 : arg7.IsWhole) (hc0 : ¬cond0_0 i) (hc1 : ¬cond0_1 i)
    (x0 : Vec F S4096x128 .f32) (x1 : Vec F S4096x128 .f32) (x2 : Vec F S4096x1 .i32) (xi6 : Vec F S1x128 .f32) (xs : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare xi6 ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x2) ∗ owns (c : Thread nD τ) arg5 fullShare (k0_pay5 x0 x1 x2)
            ∗ owns (c : Thread nD τ) arg6 fullShare xi6
            ∗ owns (c : Thread nD τ) arg7 fullShare (k0_pay1 lanes (k0_pay5 x0 x1 x2) xs)) -∗ K ⟨⟩))
      ⊢ wp frame (wpE (defs₀ (F := F)) Variants.none c none) E (cc0_kernel_a i arg1 harg1 arg2 harg2 arg3 harg3 arg4 harg4 arg5 harg5 arg6 harg6 arg7 harg7) K := by
  simp only [cc0_kernel_a_eq_skeleton]; unfold cc0_kernel_a_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%fs, %hfs, HS⟩, Hk⟩
  obtain rfl := harg1.eq_unread hf0; obtain rfl := harg2.eq_unread hf1; obtain rfl := harg3.eq_unread hf2
  obtain rfl := harg6.eq_unread hf5; obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [b0_read_store_last _ _ b0_hz2]
    simp only [b0_readAt_unread (S := S4096x128) _ _ b0_hz2, b0_readAt_unread (S := S4096x1) _ _ b0_hz2, b0_readAt_unread (S := S1x128) _ _ b0_hz2, b0_readCov_store_last (S := S1x128) _ b0_hz2]
  isplitl [H4]
  · iexists _; isplitr
    swap; · iexact H4
    ipureintro
    rw [b0_read_store_last _ _ b0_hz2]
    simp only [b0_readAt_unread (S := S4096x128) _ _ b0_hz2, b0_readAt_unread (S := S4096x1) _ _ b0_hz2, b0_readAt_unread (S := S1x128) _ _ b0_hz2, b0_readCov_store_last (S := S1x128) _ b0_hz2]
  isplitl [H5]
  · iexists _; isplitr; · ipureintro; exact harg6.read_unread _
    iexact H5
  iexists _; isplitr
  swap; · iexact HS
  ipureintro
  sl_unfold_words
  rw [b0_read_store_last _ _ b0_hz2]
  simp only [b0_readAt_unread (S := S4096x128) _ _ b0_hz2, b0_readAt_unread (S := S4096x1) _ _ b0_hz2, b0_readAt_unread (S := S1x128) _ _ b0_hz2, b0_readCov_store_last (S := S1x128) _ b0_hz2]

set_option maxHeartbeats 1000000 in
/-- THE LAST TILE (second conditional taken, first not): as a middle tile, and the histogram window, handed at anything,
    ends at the scratch row's final contents (the body loads the row back and stores it there). -/
theorem run0_C (c : Dev nD) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x1 .i32) (harg3 : arg3.IsWhole) (arg4 : Memref sig .tc .vmem S4096x1 .f32) (harg4 : arg4.IsWhole)
    (arg5 : Memref sig .tc .vmem S4096x1 .i32) (harg5 : arg5.IsWhole) (arg6 : Memref sig .tc .vmem S1x128 .f32) (harg6 : arg6.IsWhole)
    (arg7 : Memref sig .tc .vmem S1x128 .f32) (harg7 : arg7.IsWhole) (hc0 : ¬cond0_0 i) (hc1 : cond0_1 i)
    (x0 : Vec F S4096x128 .f32) (x1 : Vec F S4096x128 .f32) (x2 : Vec F S4096x1 .i32) (xs : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay4 x0 x2) ∗ owns (c : Thread nD τ) arg5 fullShare (k0_pay5 x0 x1 x2)
            ∗ owns (c : Thread nD τ) arg6 fullShare (k0_pay1 lanes (k0_pay5 x0 x1 x2) xs)
            ∗ owns (c : Thread nD τ) arg7 fullShare (k0_pay1 lanes (k0_pay5 x0 x1 x2) xs)) -∗ K ⟨⟩))
      ⊢ wp frame (wpE (defs₀ (F := F)) Variants.none c none) E (cc0_kernel_a i arg1 harg1 arg2 harg2 arg3 harg3 arg4 harg4 arg5 harg5 arg6 harg6 arg7 harg7) K := by
  simp only [cc0_kernel_a_eq_skeleton]; unfold cc0_kernel_a_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs, %hfs, HS⟩, Hk⟩
  obtain rfl := harg1.eq_unread hf0; obtain rfl := harg2.eq_unread hf1; obtain rfl := harg3.eq_unread hf2
  obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [b0_read_store_last _ _ b0_hz2]
    simp only [b0_readAt_unread (S := S4096x128) _ _ b0_hz2, b0_readAt_unread (S := S4096x1) _ _ b0_hz2, b0_readAt_unread (S := S1x128) _ _ b0_hz2, b0_readCov_store_last (S := S1x128) _ b0_hz2]
  isplitl [H4]
  · iexists _; isplitr
    swap; · iexact H4
    ipureintro
    rw [b0_read_store_last _ _ b0_hz2]
    simp only [b0_readAt_unread (S := S4096x128) _ _ b0_hz2, b0_readAt_unread (S := S4096x1) _ _ b0_hz2, b0_readAt_unread (S := S1x128) _ _ b0_hz2, b0_readCov_store_last (S := S1x128) _ b0_hz2]
  isplitl [H5]
  · iexists _; isplitr
    swap; · iexact H5
    ipureintro
    sl_unfold_words
    rw [b0_read_store_last _ _ b0_hz2]
    simp only [b0_readAt_unread (S := S4096x128) _ _ b0_hz2, b0_readAt_unread (S := S4096x1) _ _ b0_hz2, b0_readAt_unread (S := S1x128) _ _ b0_hz2, b0_readCov_store_last (S := S1x128) _ b0_hz2]
  iexists _; isplitr
  swap; · iexact HS
  ipureintro
  sl_unfold_words
  rw [b0_read_store_last _ _ b0_hz2]
  simp only [b0_readAt_unread (S := S4096x128) _ _ b0_hz2, b0_readAt_unread (S := S4096x1) _ _ b0_hz2, b0_readAt_unread (S := S1x128) _ _ b0_hz2, b0_readCov_store_last (S := S1x128) _ b0_hz2]

/-! ## The closed forms of the two conditions, and where the histogram window is idle -/

/-- The first conditional is taken at tile 0 only — decided over the grid. -/
theorem hcond0_0 : ∀ t : Fin cfg0.N, cond0_0 (grid0.coords t) ↔ t.val = 0 :=
  (by decide +kernel : ∀ t : Fin grid0.N, cond0_0 (grid0.coords t) ↔ t.val = 0)
/-- The second conditional is taken at tile 255 only — decided over the grid. -/
theorem hcond0_1 : ∀ t : Fin cfg0.N, cond0_1 (grid0.coords t) ↔ t.val = 255 :=
  (by decide +kernel : ∀ t : Fin grid0.N, cond0_1 (grid0.coords t) ↔ t.val = 255)

/-- Where the second conditional is not taken the histogram window is idle, -/
theorem idleAt0_5 (i : grid0.Coords) (h : ¬cond0_1 i) : cfg0.idle 5 i = true := by
  show (!(k0_cond2 i == 1#1)) = true
  rw [Bool.not_eq_true', beq_eq_false_iff_ne]; exact h
/-- and where it is taken it is live. -/
theorem liveAt0_5 (i : grid0.Coords) (h : cond0_1 i) : cfg0.idle 5 i = false := by
  show (!(k0_cond2 i == 1#1)) = false
  rw [Bool.not_eq_false', beq_iff_eq]; exact h
/-- Before the last tile the histogram window is not written back. -/
theorem noFlush0_5 (t : Fin cfg0.N) (h : t.val ≠ 255) : (cfg0.win 5).flush t = false := by
  have hN : t.val < 256 := lt_of_lt_of_eq t.isLt (show cfg0.N = 256 from N_0)
  rw [Bool.eq_false_iff]; intro hf
  have := (flush0_5 t).mp hf; omega

section Region0

variable (V : (c : Dev nD) → (b : Ref sig .tc) → Buf (Elt F) ((c : Thread nD τ).loc b))

/-! ## What the input windows hold when the body is called -/

/-- Each input's current staging buffer holds its block at every tile (fetched at every tile, never cut, never idle). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The invariant, tile by tile -/

/-- The pipeline's own invariant with the scratch row as a memref owned at some contents and the other scoped buffers
    apart. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (histAt V c n hn) ∗ rest0 (F := F) c ∗ (∃ r, prngReg c r)) := rfl

theorem PhiS0_pos (c : Dev nD) (n : ℕ) (h : n ≤ cfg0.N) (hz : n ≠ 0) :
    PhiS0 V c n h = iprop(owns (c : Thread nD τ) scM0 fullShare (histAt V c (n - 1) (by omega)) ∗ rest0 (F := F) c ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- The running histogram at the first tile, -/
theorem histAt_first (c : Dev nD) (t : Fin cfg0.N) (h0 : t.val = 0) :
    histAt V c t.val t.isLt = k0_pay1 lanes (binCol V c t) (k0_pay2 (F := F)) := by
  obtain ⟨n, hn⟩ := t
  cases n with
  | zero => rfl
  | succ n => exact absurd h0 (Nat.succ_ne_zero n)
/-- and at a later one. -/
theorem histAt_later (c : Dev nD) (t : Fin cfg0.N) (h0 : t.val ≠ 0) :
    histAt V c t.val t.isLt = k0_pay1 lanes (binCol V c t) (histAt V c (t.val - 1) (Nat.lt_of_le_of_lt (Nat.sub_le _ _) t.isLt)) := by
  obtain ⟨n, hn⟩ := t
  cases n with
  | zero => exact absurd rfl h0
  | succ n => rfl

/-! ## The body obligation at a tile -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

theorem leaves0_0 (c : Dev nD) (t : Fin cfg0.N) :
    (dat0 V c).leavesExact 0 t = owns (c : Thread nD τ) (win0_0.stage (cfg0.slots t 0)) fullShare (pblk V c t) := by
  unfold Dat.leavesExact; rw [show cfg0.idle 0 (cfg0.grid.coords t) = false from rfl, after0_0]
theorem leaves0_1 (c : Dev nD) (t : Fin cfg0.N) :
    (dat0 V c).leavesExact 1 t = owns (c : Thread nD τ) (win0_1.stage (cfg0.slots t 1)) fullShare (tblk V c t) := by
  unfold Dat.leavesExact; rw [show cfg0.idle 1 (cfg0.grid.coords t) = false from rfl, after0_1]
theorem leaves0_2 (c : Dev nD) (t : Fin cfg0.N) :
    (dat0 V c).leavesExact 2 t = owns (c : Thread nD τ) (win0_2.stage (cfg0.slots t 2)) fullShare (lblk V c t) := by
  unfold Dat.leavesExact; rw [show cfg0.idle 2 (cfg0.grid.coords t) = false from rfl, after0_2]
theorem leaves0_3 (c : Dev nD) (t : Fin cfg0.N) :
    (dat0 V c).leavesExact 3 t = owns (c : Thread nD τ) (win0_3.stage (cfg0.slots t 3)) fullShare (logpCol V c t) := by
  unfold Dat.leavesExact; rw [show cfg0.idle 3 (cfg0.grid.coords t) = false from rfl, after0_3]
theorem leaves0_4 (c : Dev nD) (t : Fin cfg0.N) :
    (dat0 V c).leavesExact 4 t = owns (c : Thread nD τ) (win0_4.stage (cfg0.slots t 4)) fullShare (binCol V c t) := by
  unfold Dat.leavesExact; rw [show cfg0.idle 4 (cfg0.grid.coords t) = false from rfl, after0_4]
/-- The histogram window at the last tile: the final histogram. -/
theorem leaves0_5_last (c : Dev nD) (t : Fin cfg0.N) (h : cond0_1 (grid0.coords t)) :
    (dat0 V c).leavesExact 5 t = owns (c : Thread nD τ) (win0_5.stage (cfg0.slots t 5)) fullShare (histAt V c t.val t.isLt) := by
  unfold Dat.leavesExact; rw [liveAt0_5 _ h, after0_5]

set_option maxHeartbeats 4000000 in
/-- The body at any tile: the inputs' buffers hold their blocks; the closed forms say which of the three cases the tile
    is in, and that case's run applies. The invariant hands the body the scratch row at what the tile before left (at
    anything, before the first tile), with the other scoped buffers and the generator register, which pass through
    untouched, and takes the row back at this tile's running histogram. Before the last tile the histogram window is
    idle and handed back as found; at the last tile it ends at the final histogram. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4]
  have hN : t.val < 256 := lt_of_lt_of_eq t.isLt (show cfg0.N = 256 from N_0)
  by_cases h0 : t.val = 0
  · have h1 : t.val ≠ 255 := by omega
    have hc0 : cond0_0 (grid0.coords t) := (hcond0_0 t).mpr h0
    have hc1 : ¬cond0_1 (grid0.coords t) := fun h => h1 ((hcond0_1 t).mp h)
    rw [Dat.leavesExact_idle (dat0 V c) 5 t (idleAt0_5 _ hc1) (noFlush0_5 t h1)]
    rw [histAt_first V c t h0]
    rw [PhiS0_castSucc V c t, PhiS0_zero V c _ _ h0, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (run0_A c (grid0.coords t) _ _ _ _ _ _ _ _ _ _ _ _ _ _ hc0 hc1 (pblk V c t) (tblk V c t) (lblk V c t) _ Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [HS]; · iexact HS
    iintro ⟨H0, H1, H2, H3, H4, H5, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 255
    · have hc0 : ¬cond0_0 (grid0.coords t) := fun h => h0 ((hcond0_0 t).mp h)
      have hc1 : cond0_1 (grid0.coords t) := (hcond0_1 t).mpr h1
      rw [leaves0_5_last V c t hc1]
      rw [histAt_later V c t h0]
      rw [PhiS0_castSucc V c t, PhiS0_pos V c _ _ h0]
      iintro ⟨⟨HS, Hrest, Hg⟩, Ho, ⟨%d0, H0⟩, ⟨%d1, H1⟩, ⟨%d2, H2⟩, ⟨%d3, H3⟩, ⟨%d4, H4⟩, ⟨%d5, H5⟩⟩
      iapply (run0_C c (grid0.coords t) _ _ _ _ _ _ _ _ _ _ _ _ _ _ hc0 hc1 (pblk V c t) (tblk V c t) (lblk V c t) _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS]; · iexact HS
      iintro ⟨H0, H1, H2, H3, H4, H5, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 5 t (idleAt0_5 _ hc1) (noFlush0_5 t h1)]
      rw [histAt_later V c t h0]
      rw [PhiS0_castSucc V c t, PhiS0_pos V c _ _ h0]
      iintro ⟨⟨HS, Hrest, Hg⟩, Ho, ⟨%d0, H0⟩, ⟨%d1, H1⟩, ⟨%d2, H2⟩, ⟨%d3, H3⟩, ⟨%d4, H4⟩, ⟨%d5, H5⟩⟩
      iapply (run0_B c (grid0.coords t) _ _ _ _ _ _ _ _ _ _ _ _ _ _ hc0 hc1 (pblk V c t) (tblk V c t) (lblk V c t) _ _ Set.univ _)
      isplitl [H0]; · iexact H0
      isplitl [H1]; · iexact H1
      isplitl [H2]; · iexact H2
      isplitl [H3]; · iexists _; iexact H3
      isplitl [H4]; · iexists _; iexact H4
      isplitl [H5]; · iexact H5
      isplitl [HS]; · iexact HS
      iintro ⟨H0, H1, H2, H3, H4, H5, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last tile the invariant gives the pipeline's own back: the accumulator's named contents are forgotten. -/
theorem hout0 (c : Dev nD) : (dat0 V c).Φ (Fin.last cfg0.N) ⊢ (Pipeline.ΦA spec0 c : sProp 𝕄) := by
  have hN : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl,
    PhiS0_pos V c _ _ hN, PhiA0_eq]
  iintro ⟨HS, Hrest, Hg⟩
  isplitl [HS Hrest]
  · isplitl [HS]; · iexists _; iexact HS
    iexact Hrest
  iexact Hg

end Region0

end Cert.KernelIdeal.Hand

end
-- ==== Proof.KI.Body1.lean ====
/-
  The body obligation of kernel region 1: at every tile the kernel body, called on the windows' current staging
  buffers holding what the pipeline rule says they hold, runs to the end and leaves them holding what the proof data
  (`dat1`) states, the region's invariant carrying the scratch accumulator from tile to tile.

  The body has two conditionals on the tile number, so three cases meet the grid: the first tile (the scratch word is
  reset, then updated), a middle tile (updated), the last tile (updated, then copied to the result's buffer). Each case's
  whole-body run is stated with explicit contents; the obligation at a tile picks the case by the closed forms of the two
  conditions.
-/
import proofs.«173433_j21406117003629_1_alg».proof.Proof.Gen.KernelIdeal.Launch
import proofs.«173433_j21406117003629_1_alg».proof.Proof.Gen.KernelIdeal.Skeleton
import proofs.«173433_j21406117003629_1_alg».proof.Proof.Gen.KernelIdeal.Points
import proofs.«173433_j21406117003629_1_alg».proof.Proof.KI.Dat1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, and its run in each of the three cases -/

/-- The condition of the first conditional of the body (the tile is the first one), from the grid coordinate. -/
abbrev cond1_0 (i : grid1.Coords) : Prop := (Scalar.cmpi .ne (Scalar.extui (Scalar.cmpi .eq (BitVec.ofNat 32 (i 0).val) 0#32)) 0#32) = 1#1
/-- The condition of the second conditional (the tile is the last one). -/
abbrev cond1_1 (i : grid1.Coords) : Prop := k1_cond2 i = 1#1

/-- The zero offsets of a whole-block rectangle of rank 2, as the constant function. -/
theorem b1_zeros2 : (![0, 0] : Fin 2 → Nat) = fun _ => 0 := funext fun a => by fin_cases a <;> rfl

set_option maxHeartbeats 1000000 in
/-- A middle tile (neither conditional taken): the four input blocks are loaded and left as they were, the result's buffer is
    untouched, and the scratch word `xs` becomes `k1_pay2 x1 x2 x3 x4 xs`. -/
theorem run1_B (c : Dev nD) (i : grid1.Coords)
    (arg1 : Memref sig .tc .vmem S4096x1 .f32) (harg1 : arg1.IsWhole) (arg2 : Memref sig .tc .vmem S4096x1 .i32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : ¬cond1_0 i) (hc1 : ¬cond1_1 i)
    (x1 : Vec F S4096x1 .f32) (x2 : Vec F S4096x1 .i32) (x3 : Vec F S1x128 .f32) (x4 : Vec F S1x1 .f32) (xi5 : Vec F S1x1 .f32) (xs : Vec F S1x1 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare xi5 ∗ owns (c : Thread nD τ) arg6 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare xi5
            ∗ owns (c : Thread nD τ) arg6 fullShare (k1_pay2 x1 x2 x3 x4 xs)) -∗ K ⟨⟩))
      ⊢ wp frame (wpE (defs₀ (F := F)) Variants.none c none) E (cc1_kernel_b i arg1 harg1 arg2 harg2 arg3 harg3 arg4 harg4 arg5 harg5 arg6 harg6) K := by
  simp only [cc1_kernel_b_eq_skeleton]; unfold cc1_kernel_b_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  rw [View.read_writes_eq_canon _ _ _ (fun y => ⟨_, List.mem_singleton_self _, View.mem_set_unit_zero (S := S1x1) b1_zeros2 inb_S1x1_S1x1_0_0 y⟩),
    View.canon_unit_zero b1_zeros2]
  simp only [View.readAt_eq_ld, harg1.read_unread, harg2.read_unread, harg3.read_unread, harg4.read_unread, harg6.read_unread,
    View.ld_unit_zero (S := S4096x1) b1_zeros2, View.ld_unit_zero (S := S1x128) b1_zeros2, View.ld_unit_zero (S := S1x1) b1_zeros2]

set_option maxHeartbeats 1000000 in
/-- The first tile (the first conditional taken, the second not): the scratch word, whatever it held, is set to `k1_pay1` and then
    becomes `k1_pay2 x1 x2 x3 x4 k1_pay1`; the input blocks and the result's buffer are left as they were. -/
theorem run1_A (c : Dev nD) (i : grid1.Coords)
    (arg1 : Memref sig .tc .vmem S4096x1 .f32) (harg1 : arg1.IsWhole) (arg2 : Memref sig .tc .vmem S4096x1 .i32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : cond1_0 i) (hc1 : ¬cond1_1 i)
    (x1 : Vec F S4096x1 .f32) (x2 : Vec F S4096x1 .i32) (x3 : Vec F S1x128 .f32) (x4 : Vec F S1x1 .f32) (xi5 : Vec F S1x1 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare xi5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare xi5
            ∗ owns (c : Thread nD τ) arg6 fullShare (k1_pay2 x1 x2 x3 x4 (k1_pay1 (F := F)))) -∗ K ⟨⟩))
      ⊢ wp frame (wpE (defs₀ (F := F)) Variants.none c none) E (cc1_kernel_b i arg1 harg1 arg2 harg2 arg3 harg3 arg4 harg4 arg5 harg5 arg6 harg6) K := by
  simp only [cc1_kernel_b_eq_skeleton]; unfold cc1_kernel_b_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  sl_unfold_words
  rw [View.read_writes_eq_canon _ _ _ (fun y => ⟨_, List.mem_cons_self .., View.mem_set_unit_zero (S := S1x1) b1_zeros2 inb_S1x1_S1x1_0_0 y⟩),
    View.canon_cons_unit_zero b1_zeros2]
  simp only [View.readAt_eq_ld, harg1.read_unread, harg2.read_unread, harg3.read_unread, harg4.read_unread,
    View.ld_unit_zero (S := S4096x1) b1_zeros2, View.ld_unit_zero (S := S1x128) b1_zeros2, View.ld_unit_zero (S := S1x1) b1_zeros2,
    View.readCov_unit_zero (S := S1x1) _ b1_zeros2]

set_option maxHeartbeats 1000000 in
/-- The last tile (the first conditional not taken, the second taken): the scratch word `xs` becomes `k1_pay2 x1 x2 x3 x4 xs`, and
    the result's buffer, whatever it held, receives that word. -/
theorem run1_C (c : Dev nD) (i : grid1.Coords)
    (arg1 : Memref sig .tc .vmem S4096x1 .f32) (harg1 : arg1.IsWhole) (arg2 : Memref sig .tc .vmem S4096x1 .i32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : ¬cond1_0 i) (hc1 : cond1_1 i)
    (x1 : Vec F S4096x1 .f32) (x2 : Vec F S4096x1 .i32) (x3 : Vec F S1x128 .f32) (x4 : Vec F S1x1 .f32) (xs : Vec F S1x1 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k1_pay2 x1 x2 x3 x4 xs)
            ∗ owns (c : Thread nD τ) arg6 fullShare (k1_pay2 x1 x2 x3 x4 xs)) -∗ K ⟨⟩))
      ⊢ wp frame (wpE (defs₀ (F := F)) Variants.none c none) E (cc1_kernel_b i arg1 harg1 arg2 harg2 arg3 harg3 arg4 harg4 arg5 harg5 arg6 harg6) K := by
  simp only [cc1_kernel_b_eq_skeleton]; unfold cc1_kernel_b_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf1; obtain rfl := harg2.eq_unread hf2; obtain rfl := harg3.eq_unread hf3
  obtain rfl := harg4.eq_unread hf4; obtain rfl := harg6.eq_unread hf6
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [View.read_writes_eq_canon _ _ _ (fun y => ⟨_, List.mem_singleton_self _, View.mem_set_unit_zero (S := S1x1) b1_zeros2 inb_S1x1_S1x1_0_0 y⟩),
      View.canon_unit_zero b1_zeros2]
    simp only [View.readAt_eq_ld, harg1.read_unread, harg2.read_unread, harg3.read_unread, harg4.read_unread, harg6.read_unread,
    View.ld_unit_zero (S := S4096x1) b1_zeros2, View.ld_unit_zero (S := S1x128) b1_zeros2, View.ld_unit_zero (S := S1x1) b1_zeros2,
    View.readCov_unit_zero (S := S1x1) _ b1_zeros2]
  iexists _; isplitr
  swap; · iexact H6
  ipureintro
  sl_unfold_words
  rw [View.read_writes_eq_canon _ _ _ (fun y => ⟨_, List.mem_singleton_self _, View.mem_set_unit_zero (S := S1x1) b1_zeros2 inb_S1x1_S1x1_0_0 y⟩),
    View.canon_unit_zero b1_zeros2]
  simp only [View.readAt_eq_ld, harg1.read_unread, harg2.read_unread, harg3.read_unread, harg4.read_unread, harg6.read_unread,
    View.ld_unit_zero (S := S4096x1) b1_zeros2, View.ld_unit_zero (S := S1x128) b1_zeros2, View.ld_unit_zero (S := S1x1) b1_zeros2,
    View.readCov_unit_zero (S := S1x1) _ b1_zeros2]

/-! ## The conditions and the idle points, decided over the grid -/

/-- The first conditional is taken at the first tile only. -/
theorem hcond1_0 : ∀ t : Fin cfg1.N, cond1_0 (grid1.coords t) ↔ t.val = 0 :=
  (by decide +kernel : ∀ t : Fin grid1.N, cond1_0 (grid1.coords t) ↔ t.val = 0)
/-- The second conditional is taken at the last tile only. -/
theorem hcond1_1 : ∀ t : Fin cfg1.N, cond1_1 (grid1.coords t) ↔ t.val = 255 :=
  (by decide +kernel : ∀ t : Fin grid1.N, cond1_1 (grid1.coords t) ↔ t.val = 255)

/-- The four input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last tile the result window is idle and not written back; -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- at the last tile it is live. -/
theorem liveAt1_4 : ∀ t : Fin cfg1.N, cond1_1 (grid1.coords t) → cfg1.idle 4 (grid1.coords t) = false := by decide +kernel

section Region1

variable (V : (c : Dev nD) → (b : Ref sig .tc) → Buf (Elt F) ((c : Thread nD τ).loc b))

/-! ## What the body finds in the input windows' buffers -/

/-- Each input window's current staging buffer holds its block at every tile, fetched there or not (unfetched, the block
    index has not moved). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The running loss, tile by tile -/

/-- At the first tile the running loss is the tile's update of the reset value; -/
theorem lossAt_first (c : Dev nD) (t : Fin cfg1.N) (h0 : t.val = 0) :
    lossAt V c t.val t.isLt = k1_pay2 (lpblk V c t) (bblk V c t) (wblk V c t) (nblk V c t) (k1_pay1 (F := F)) := by
  obtain ⟨n, hn⟩ := t
  cases n with
  | zero => rfl
  | succ n => exact absurd h0 (Nat.succ_ne_zero n)

/-- at a later tile, the tile's update of the running loss of the tile before. -/
theorem lossAt_next (c : Dev nD) (t : Fin cfg1.N) (h0 : t.val ≠ 0) :
    lossAt V c t.val t.isLt = k1_pay2 (lpblk V c t) (bblk V c t) (wblk V c t) (nblk V c t)
      (lossAt V c (t.val - 1) (Nat.lt_of_le_of_lt (Nat.sub_le _ _) t.isLt)) := by
  obtain ⟨n, hn⟩ := t
  cases n with
  | zero => exact absurd rfl h0
  | succ n => rfl

/-! ## The invariant -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (lossAt V c n hn) ∗ rest1 (F := F) c ∗ (∃ r, prngReg c r)) := rfl

/-- Before a tile that is not the first: the scratch word at the running loss of the tile before. -/
theorem PhiS1_pos (c : Dev nD) (n : ℕ) (h : n ≤ cfg1.N) (hz : n ≠ 0) :
    PhiS1 V c n h = iprop(owns (c : Thread nD τ) scM1 fullShare (lossAt V c (n - 1) (by omega)) ∗ rest1 (F := F) c ∗ (∃ r, prngReg c r)) := by
  cases n with
  | zero => exact absurd rfl hz
  | succ n => rfl

/-- The invariant at a tile's start, restated at the tile's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- The pipeline's own invariant gives the scratch word at some contents, the other scoped buffers and the generator
    register: the scoped rest enumerated, its last factor (the scratch) brought to the front. -/
theorem PhiA1_split (c : Dev nD) :
    (Pipeline.ΦA spec1 c : sProp 𝕄) ⊢ iprop((∃ d, owns (c : Thread nD τ) scM1 fullShare d) ∗ rest1 (F := F) c ∗ (∃ r, prngReg c r)) := by
  unfold Pipeline.ΦA rest1; rw [scopedRest1_eq]; simp only [scM1, owns_whole]
  iintro ⟨⟨R1, R2, R3, R4, R5, R6, R7, R8, R9, R10, R11, R12, HS⟩, Hg⟩
  isplitl [HS]; · iexact HS
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact R12

/-- And back. -/
theorem PhiA1_join (c : Dev nD) :
    iprop((∃ d, owns (c : Thread nD τ) scM1 fullShare d) ∗ rest1 (F := F) c ∗ (∃ r, prngReg c r)) ⊢ (Pipeline.ΦA spec1 c : sProp 𝕄) := by
  unfold Pipeline.ΦA rest1; rw [scopedRest1_eq]; simp only [scM1, owns_whole]
  iintro ⟨HS, ⟨R1, R2, R3, R4, R5, R6, R7, R8, R9, R10, R11, R12⟩, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact HS

/-- The pipeline's own invariant IS the scratch word at some contents with the other scoped buffers and the generator register. -/
theorem PhiA1_eq (c : Dev nD) :
    (Pipeline.ΦA spec1 c : sProp 𝕄) = iprop((∃ d, owns (c : Thread nD τ) scM1 fullShare d) ∗ rest1 (F := F) c ∗ (∃ r, prngReg c r)) :=
  Idealize.SL.BI.Entails.antisymm (PhiA1_split c) (PhiA1_join c)

/-! ## The body obligation, at a generic tile -/

/-- What the body is called with at tile `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any tile. The input windows' buffers hold their blocks; the closed forms of the two conditions say which case
    the tile is in; the invariant hands the run the scratch word (at anything before the first tile, at the running loss of
    the tile before afterwards) and takes it back at this tile's running loss; away from the last tile the result window is
    idle and handed back as found, at the last tile it receives the running loss. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (win1_0.stage (cfg1.slots t 0)) fullShare ((dat1 V c).after 0 t) from by
    unfold Dat.leavesExact; rw [liveAt1_0 t], after1_0]
  rw [show (dat1 V c).leavesExact 1 t = owns (c : Thread nD τ) (win1_1.stage (cfg1.slots t 1)) fullShare ((dat1 V c).after 1 t) from by
    unfold Dat.leavesExact; rw [liveAt1_1 t], after1_1]
  rw [show (dat1 V c).leavesExact 2 t = owns (c : Thread nD τ) (win1_2.stage (cfg1.slots t 2)) fullShare ((dat1 V c).after 2 t) from by
    unfold Dat.leavesExact; rw [liveAt1_2 t], after1_2]
  rw [show (dat1 V c).leavesExact 3 t = owns (c : Thread nD τ) (win1_3.stage (cfg1.slots t 3)) fullShare ((dat1 V c).after 3 t) from by
    unfold Dat.leavesExact; rw [liveAt1_3 t], after1_3]
  by_cases h0 : t.val = 0
  · have h1 : ¬t.val = 255 := by omega
    rw [Dat.leavesExact_idle (dat1 V c) 4 t (idleAt1_4 t (fun h => h1 ((hcond1_1 t).mp h))) (noFlush1_4 t (fun h => h1 ((hcond1_1 t).mp h)))]
    rw [lossAt_first V c t h0, PhiS1_castSucc V c t, PhiS1_zero V c _ _ h0, PhiA1_eq]
    iintro ⟨⟨HS, HR, Hg⟩, Ho, ⟨%d0, H0⟩, ⟨%d1, H1⟩, ⟨%d2, H2⟩, ⟨%d3, H3⟩, ⟨%d4, H4⟩⟩
    iapply (run1_A c (grid1.coords t) _ _ _ _ _ _ _ _ _ _ _ _ ((hcond1_0 t).mpr h0) (fun h => h1 ((hcond1_1 t).mp h))
      (lpblk V c t) (bblk V c t) (wblk V c t) (nblk V c t) _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexists _; iexact H4
  · rw [lossAt_next V c t h0, PhiS1_castSucc V c t, PhiS1_pos V c _ _ h0]
    by_cases h1 : t.val = 255
    · rw [show (dat1 V c).leavesExact 4 t = owns (c : Thread nD τ) (win1_4.stage (cfg1.slots t 4)) fullShare ((dat1 V c).after 4 t) from by
        unfold Dat.leavesExact; rw [liveAt1_4 t ((hcond1_1 t).mpr h1)], after1_4, lossAt_next V c t h0]
      iintro ⟨⟨HS, HR, Hg⟩, Ho, ⟨%d0, H0⟩, ⟨%d1, H1⟩, ⟨%d2, H2⟩, ⟨%d3, H3⟩, ⟨%d4, H4⟩⟩
      iapply (run1_C c (grid1.coords t) _ _ _ _ _ _ _ _ _ _ _ _ (fun h => h0 ((hcond1_0 t).mp h)) ((hcond1_1 t).mpr h1)
        (lpblk V c t) (bblk V c t) (wblk V c t) (nblk V c t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t (fun h => h1 ((hcond1_1 t).mp h)))]
      iintro ⟨⟨HS, HR, Hg⟩, Ho, ⟨%d0, H0⟩, ⟨%d1, H1⟩, ⟨%d2, H2⟩, ⟨%d3, H3⟩, ⟨%d4, H4⟩⟩
      iapply (run1_B c (grid1.coords t) _ _ _ _ _ _ _ _ _ _ _ _ (fun h => h0 ((hcond1_0 t).mp h)) (fun h => h1 ((hcond1_1 t).mp h))
        (lpblk V c t) (bblk V c t) (wblk V c t) (nblk V c t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every tile. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first tile. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last tile the invariant gives the pipeline's own back: the accumulator's named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega), PhiA1_eq]
  iintro ⟨HS, HR, Hg⟩
  isplitl [HS]
  · iexists _; iexact HS
  isplitl [HR]; · iexact HR
  iexact Hg

end Region1

end Cert.KernelIdeal.Hand

end
-- ==== Proof.KI.Launch.lean ====
/-
  The launch of the whole program: @main's seven items (a host stretch, the first kernel region, three host stretches,
  the second kernel region, a host stretch) as segments of the several-regions rule, each region's record built from
  its body obligation, and the run read at the end: every weakly fair execution terminates, the result buffer holds
  what the last host stretch computes from what the second region left, and the three argument arrays are as launched.
-/
import proofs.«173433_j21406117003629_1_alg».proof.Proof.Gen.KernelIdeal.Launch
import proofs.«173433_j21406117003629_1_alg».proof.Proof.Gen.KernelIdeal.Skeleton
import proofs.«173433_j21406117003629_1_alg».proof.Proof.Gen.KernelIdeal.Points
import proofs.«173433_j21406117003629_1_alg».proof.Proof.Gen.KernelIdeal.Regions
import proofs.«173433_j21406117003629_1_alg».proof.Proof.KI.Entry
import proofs.«173433_j21406117003629_1_alg».proof.Proof.KI.Body0
import proofs.«173433_j21406117003629_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The core's buffers when the first region is left: each of the region's six arrays at what the pipeline rule
    computes from the first region's proof data (an input as the region found it, an output with its write-backs
    folded in over all tiles), every other buffer as the region found it. -/
def W2 (m : (ℓ : Loc nD τ sig) → Buf (Elt F) ℓ) (c : Dev nD) : Valuation τ sig (Elt F) :=
  Pipeline.withArrays spec0 c (Gen.V1 m c) fun w => (dat0 (E1 m) c).arrAt w cfg0.N

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w

/-- What the first region leaves, as an assignment of contents to every item number: the second region's entry
    contents are stated over it (they read it at the first region's three results only). -/
def outsA (m : (ℓ : Loc nD τ sig) → Buf (Elt F) ℓ) : Gen.Outs (F := F) := fun _ r c => W2 m c r

/-- The core's buffers when the second region is left: each of its five arrays at what the pipeline rule computes from
    the second region's proof data at its entry contents, every other buffer as that region found it. -/
def W6 (m : (ℓ : Loc nD τ sig) → Buf (Elt F) ℓ) (c : Dev nD) : Valuation τ sig (Elt F) :=
  Pipeline.withArrays spec1 c (Gen.V5 m (outsA m) c) fun w => (dat1 (E5 m (outsA m)) c).arrAt w cfg1.N

theorem W6_arr (c : Dev nD) (w : Fin cfg1.W) :
    W6 m c (Proc.devRef .tc (Pipeline.arrRef spec1 w)) = (dat1 (E5 m (outsA m)) c).arrAt w cfg1.N := by
  unfold W6; exact Pipeline.withArrays_arr spec1 launch1.win.arr_inj c _ _ w

/-- What the two regions leave in the buffers they may change: after the first region its three result arrays at what
    the pipeline rule computes from the first region's proof data at its entry contents; after the second region the
    result word likewise. -/
def outs (m : (ℓ : Loc nD τ sig) → Buf (Elt F) ℓ) : Gen.Outs (F := F) := fun J r c =>
  match J with
  | 6 => W6 m c r
  | _ => W2 m c r

/-- The second region's entry contents read what the regions leave only after the first region. -/
theorem E5_outs : E5 m (outs m) = E5 m (outsA m) := rfl

theorem outs_v1_0 (c : Dev nD) : outs m 2 main_v1_0 c = (dat0 (E1 m) c).arrAt 3 cfg0.N := W2_arr m c 3
theorem outs_v1_1 (c : Dev nD) : outs m 2 main_v1_1 c = (dat0 (E1 m) c).arrAt 4 cfg0.N := W2_arr m c 4
theorem outs_v1_2 (c : Dev nD) : outs m 2 main_v1_2 c = (dat0 (E1 m) c).arrAt 5 cfg0.N := W2_arr m c 5
theorem outs_v22 (c : Dev nD) : outs m 6 main_v22 c = (dat1 (E5 m (outs m)) c).arrAt 4 cfg1.N := by
  rw [E5_outs]; exact W6_arr m c 4

/-! ## The regions' exits among the core's buffers

At a region's exit each of its arrays holds what the pipeline rule leaves there and every other buffer what it held
at entry: an input array is never written (its contents at every tile are the entry contents), an output array is
one of the buffers the valuation after the region is updated at. -/

/-- The second valuation at the first region's three results. -/
theorem V2_v1_0 (c : Dev nD) : Gen.V2 m (outs m) c main_v1_0 = outs m 2 main_v1_0 c := by
  simp only [Gen.V2, Function.update_of_ne (StableHlo.devRef_ne_of_ne (by decide) : (Proc.devRef .tc main_v1_0 : DevRef τ sig) ≠ Proc.devRef .tc main_v1_2),
    Function.update_of_ne (StableHlo.devRef_ne_of_ne (by decide) : (Proc.devRef .tc main_v1_0 : DevRef τ sig) ≠ Proc.devRef .tc main_v1_1), Function.update_self]
theorem V2_v1_1 (c : Dev nD) : Gen.V2 m (outs m) c main_v1_1 = outs m 2 main_v1_1 c := by
  simp only [Gen.V2, Function.update_of_ne (StableHlo.devRef_ne_of_ne (by decide) : (Proc.devRef .tc main_v1_1 : DevRef τ sig) ≠ Proc.devRef .tc main_v1_2), Function.update_self]
theorem V2_v1_2 (c : Dev nD) : Gen.V2 m (outs m) c main_v1_2 = outs m 2 main_v1_2 c := by
  simp only [Gen.V2, Function.update_self]
/-- The sixth valuation at the second region's result. -/
theorem V6_v22 (c : Dev nD) : Gen.V6 m (outs m) c main_v22 = outs m 6 main_v22 c := by
  simp only [Gen.V6, Function.update_self]

theorem hF0 (c : Dev nD) : ∀ w : Fin cfg0.W, (dat0 (E1 m) c).arrAt w cfg0.N = Gen.V2 m (outs m) c (Pipeline.arrRef spec0 w)
  | ⟨0, _⟩ => (((dat0 (E1 m) c).arrAt_in 0 rfl _).trans (A_eq0 (E1 m) c 0)).trans (Gen.V2_of m (outs m) c main_arg0 (by decide)).symm
  | ⟨1, _⟩ => (((dat0 (E1 m) c).arrAt_in 1 rfl _).trans (A_eq0 (E1 m) c 1)).trans (Gen.V2_of m (outs m) c main_arg1 (by decide)).symm
  | ⟨2, _⟩ => (((dat0 (E1 m) c).arrAt_in 2 rfl _).trans (A_eq0 (E1 m) c 2)).trans (Gen.V2_of m (outs m) c main_v0 (by decide)).symm
  | ⟨3, _⟩ => ((V2_v1_0 m c).trans (outs_v1_0 m c)).symm
  | ⟨4, _⟩ => ((V2_v1_1 m c).trans (outs_v1_1 m c)).symm
  | ⟨5, _⟩ => ((V2_v1_2 m c).trans (outs_v1_2 m c)).symm

theorem hrest0 (c : Dev nD) : ∀ b, b ∉ Finset.univ.image (Pipeline.arrRef spec0) → Gen.V2 m (outs m) c b = E1 m c b :=
  fun b hb => Gen.V2_of m (outs m) c b fun hmem => by
    simp only [List.mem_cons, List.not_mem_nil, or_false] at hmem
    rcases hmem with rfl | rfl | rfl
    · exact hb (Finset.mem_image.mpr ⟨3, Finset.mem_univ _, rfl⟩)
    · exact hb (Finset.mem_image.mpr ⟨4, Finset.mem_univ _, rfl⟩)
    · exact hb (Finset.mem_image.mpr ⟨5, Finset.mem_univ _, rfl⟩)

theorem hF1 (c : Dev nD) : ∀ w : Fin cfg1.W, (dat1 (E5 m (outs m)) c).arrAt w cfg1.N = Gen.V6 m (outs m) c (Pipeline.arrRef spec1 w)
  | ⟨0, _⟩ => (((dat1 (E5 m (outs m)) c).arrAt_in 0 rfl _).trans (A_eq1 (E5 m (outs m)) c 0)).trans (Gen.V6_of m (outs m) c main_v1_0 (by decide)).symm
  | ⟨1, _⟩ => (((dat1 (E5 m (outs m)) c).arrAt_in 1 rfl _).trans (A_eq1 (E5 m (outs m)) c 1)).trans (Gen.V6_of m (outs m) c main_v1_1 (by decide)).symm
  | ⟨2, _⟩ => (((dat1 (E5 m (outs m)) c).arrAt_in 2 rfl _).trans (A_eq1 (E5 m (outs m)) c 2)).trans (Gen.V6_of m (outs m) c main_v20 (by decide)).symm
  | ⟨3, _⟩ => (((dat1 (E5 m (outs m)) c).arrAt_in 3 rfl _).trans (A_eq1 (E5 m (outs m)) c 3)).trans (Gen.V6_of m (outs m) c main_v21 (by decide)).symm
  | ⟨4, _⟩ => ((V6_v22 m c).trans (outs_v22 m c)).symm

theorem hrest1 (c : Dev nD) : ∀ b, b ∉ Finset.univ.image (Pipeline.arrRef spec1) → Gen.V6 m (outs m) c b = E5 m (outs m) c b :=
  fun b hb => Gen.V6_of m (outs m) c b fun hmem => by
    simp only [List.mem_cons, List.not_mem_nil, or_false] at hmem
    subst hmem
    exact hb (Finset.mem_image.mpr ⟨4, Finset.mem_univ _, rfl⟩)

/-! ## The proof data family and what rides beside the buffers -/

/-- Every region's proof data, each at its region's entry contents. -/
def pdats (m : (ℓ : Loc nD τ sig) → Buf (Elt F) ℓ) : (p : Fin 2) → (c : Dev nD) → Dat τ (Elt F) Unit ℕ (UR sig nD τ) ℕ (cfgs p) c
  | ⟨0, _⟩ => fun c => dat0 (E1 m) c
  | ⟨1, _⟩ => fun c => dat1 (E5 m (outs m)) c

abbrev 𝒱₀ : Variants := Variants.none
/-- No core owes another anything: no level is assigned. -/
abbrev noPairs : GSem nD τ sig → Finset Unit := fun _ => ∅
abbrev noLevels : GSem nD τ sig → Unit → ℕ := fun _ _ => 0
/-- What rides beside the buffers through every item: the core's generator register at some state (a region's
    invariant takes it in and gives it back) and the core owing nothing. -/
abbrev Ride (c : Dev nD) : sProp 𝕄 := iprop((∃ r, prngReg c r) ∗ ∃ W, owes (c : Thread nD τ) (0 : CellTallies nD τ sig Unit) W)

/-! ## The regions as segments -/

set_option backward.isDefEq.respectTransparency.types false in
/-- THE FIRST REGION over the thread state: entered from every unscoped buffer at the first valuation after the
    launch's, left at the second. Its arrays are split out of the unscoped buffers and put back at the exit contents;
    the generator register and the scoped buffers no window stages enter the region's invariant through the pipeline's
    own and come back through it; nothing is owed; the kernel has no semaphore of its own. -/
def reg0 : Pipeline.RegionSeg (pcfgs (F := F)) Gen.adm (pdats m) () defs₀ 𝒱₀ noPairs noLevels 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noPairs noLevels 0 fun _ _ => rfl
  pre c := iprop(StableHlo.held (c : Thread nD τ) (Pipeline.ucRefs τ sig) (Gen.V1 m c) ∗ Ride c)
  post c := iprop(StableHlo.held (c : Thread nD τ) (Pipeline.ucRefs τ sig) (Gen.V2 m (outs m) c) ∗ Ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (E1 m) c
    unfold Pipeline.ΦA at h
    rw [show (pdats m 0 c).Φ 0 = (dat0 (E1 m) c).Φ 0 from rfl]
    iintro ⟨Hp, -, Hr⟩
    iapply h
    isplitl [Hr]; · iexact Hr
    iexact Hp
  hout c := by
    rw [Pipeline.ownSems0_none]
    have h := hout0 (E1 m) c
    unfold Pipeline.ΦA at h
    rw [show (pdats m 0 c).Φ (Fin.last _) = (dat0 (E1 m) c).Φ (Fin.last cfg0.N) from rfl]
    iintro HF
    ihave H := h $$ HF
    icases H with ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at the fifth valuation, left at the
    sixth; otherwise as the first. -/
def reg1 : Pipeline.RegionSeg (pcfgs (F := F)) Gen.adm (pdats m) () defs₀ 𝒱₀ noPairs noLevels 1 where
  win := launch1.win.to₀
  block_pos := launch1.block_pos
  stage_whole := launch1.stage_whole
  K := PEmpty
  osem k := k.elim
  ho := Pipeline.OwnSemFacts.none _
  hbody c := (body_obligation1 (E5 m (outs m)) c).loose
  hwaits := Pipeline.hwaits_of_owed_zero _ _ _ _ noPairs noLevels 1 fun _ _ => rfl
  pre c := iprop(StableHlo.held (c : Thread nD τ) (Pipeline.ucRefs τ sig) (Gen.V5 m (outs m) c) ∗ Ride c)
  post c := iprop(StableHlo.held (c : Thread nD τ) (Pipeline.ucRefs τ sig) (Gen.V6 m (outs m) c) ∗ Ride c)
  X c := iprop(∃ r, prngReg c r)
  Y c := iprop(∃ r, prngReg c r)
  Z c := Pipeline.unscopedRest (Ix := Unit) (Name := ℕ) (U := UR sig nD τ) (Lvl := ℕ) spec1 c (E5 m (outs m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E5 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E5 m (outs m)) c
    unfold Pipeline.ΦA at h
    rw [show (pdats m 1 c).Φ 0 = (dat1 (E5 m (outs m)) c).Φ 0 from rfl]
    iintro ⟨Hp, -, Hr⟩
    iapply h
    isplitl [Hr]; · iexact Hr
    iexact Hp
  hout c := by
    rw [Pipeline.ownSems0_none]
    have h := hout1 (E5 m (outs m)) c
    unfold Pipeline.ΦA at h
    rw [show (pdats m 1 c).Φ (Fin.last _) = (dat1 (E5 m (outs m)) c).Φ (Fin.last cfg1.N) from rfl]
    iintro HF
    ihave H := h $$ HF
    icases H with ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E5 m (outs m) c) (fun b => Gen.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, at any float instance: from any memory with zero counters every weakly fair execution of @main terminates,
    nothing faulting; the result buffer ends at the last valuation's value and the argument arrays as launched. -/
theorem run_main : θ_run defs (onTc (τ := τ) (main (F := F))) ⟨m, fun _ => 0, ρ⟩ (fun r => ∀ c : Dev nD,
      r.2.mem ((c.tc : Thread nD τ).loc main_v23) = Gen.V7 m (outs m) c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm (pdats m) () cellOf_inj emb₁ defs₀ 𝒱₀ noPairs noLevels m ρ main
    (Gen.segs m (outs m) 𝒱₀ noPairs noLevels (fun _ => Ride) () (pdats m) (reg0 m) (reg1 m))
    (fun c Q => by
      rewrite [main_chain c, Pipeline.Seg.run_eq_chain,
        show (Gen.segs m (outs m) 𝒱₀ noPairs noLevels (fun _ => Ride) () (pdats m) (reg0 m) (reg1 m) c).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (Gen.V0 m c) ∗ Ride c))
    (Tₙ := fun c => StableHlo.held (c : Thread nD τ) (Pipeline.ucRefs τ sig) (Gen.V7 m (outs m) c))
    (hch := fun c => ⟨.rfl, .rfl, .rfl, .rfl, .rfl, .rfl, .rfl, sep_mono .rfl (by iintro ⟨-, HO⟩; iexact HO)⟩)
    (hinit := ?_)
    (QY := fun c s => s.mem ((c.tc : Thread nD τ).loc main_v23) = Gen.V7 m (outs m) c main_v23
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the launch element is the pipeline rule's own; no other ghost resource
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: each core holds its unscoped buffers at the launch contents, its generator register, and owes nothing
    refine Pipeline.initEach noPairs noLevels fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (Gen.V7 m (outs m) c) s') $$ [Hh HSI]
    · isplitl [Hh] <;> iassumption
    icases Hr with ⟨%h, HSI⟩
    imodintro
    isplitr
    · ipureintro
      exact ⟨h (Proc.devRef .tc main_v23) (mem_uc main_v23 (by decide)),
        (h (Proc.devRef .tc main_arg0) (mem_uc main_arg0 (by decide))).trans (Gen.V7_main_arg0 m (outs m) c),
        (h (Proc.devRef .tc main_arg1) (mem_uc main_arg1 (by decide))).trans (Gen.V7_main_arg1 m (outs m) c),
        (h (Proc.devRef .tc main_arg2) (mem_uc main_arg2 (by decide))).trans (Gen.V7_main_arg2 m (outs m) c)⟩
    · iexact HSI

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.Bridge.Basic.lean ====
/-
  The two facts the precondition gives about the inputs, as the later stages use them.
-/
import Idealize.ShloMosaic.PureOps.Ideal
import Mathlib.Data.EReal.Basic

namespace Cert.Bridge

open Idealize.ShloMosaic

/-- Every entry of a float array is a real number. -/
abbrev Finite {s : Shape} (x : s.Idx → EReal) : Prop := ∀ i, ∃ r : ℝ, x i = (r : EReal)
/-- Every label is a class number: between 0 and 127 as a signed word. -/
abbrev InRange (L : (⟨1, ![1048576]⟩ : Shape).Idx → BitVec 32) : Prop := ∀ i, 0 ≤ (L i).toInt ∧ (L i).toInt < 128

end Cert.Bridge
-- ==== Proof.Bridge.PreDecode.lean ====
/-
  What the precondition says, decoded: on every core the logits and the targets are arrays of real numbers, and every
  label is a class number.
-/
import proofs.«173433_j21406117003629_1_alg».proof.Defs
import proofs.«173433_j21406117003629_1_alg».proof.Proof.Gen.Pre_finite_inputs
import proofs.«173433_j21406117003629_1_alg».proof.Proof.Gen.KernelIdeal
import proofs.«173433_j21406117003629_1_alg».proof.Proof.Bridge.Basic
import Idealize.ShloMosaic.Lib.ReduceAll
import Idealize.ShloMosaic.Lib.StableHlo.Predicate
import Idealize.ShloMosaic.Lib.ValueIdx

noncomputable section

namespace Cert.Bridge

open Idealize.ShloMosaic Idealize.ShloMosaic.TcCoe Idealize.SL.Sem

/-- The scalar shape has exactly one index. -/
instance : Subsingleton Cert.Pre_finite_inputs.S_.Idx := ⟨fun a b => funext fun d => d.elim0⟩

/-- The 32-bit pattern with all exponent bits set and a zero significand denotes +∞. -/
theorem ofBits_inf : Ideal.ofBits .f32 0x7F800000#32 = (⊤ : EReal) := by
  simp [Ideal.ofBits, Ideal.ieee]

/-- An extended real whose absolute value max(x, −x) lies strictly below +∞ is a real number: at −∞ and at +∞ the
    absolute value is +∞ itself. -/
theorem real_of_abs_lt_top (x : EReal) (h : max x (-x) < ⊤) : ∃ r : ℝ, x = (r : EReal) := by
  induction x using EReal.rec with
  | bot => simp at h
  | coe r => exact ⟨r, rfl⟩
  | top => simp at h

/-- The element test of the two float conjuncts, |x| < +∞ as an ordered comparison, read back: x is a real number. -/
theorem real_of_test (x : EReal)
    (h : Ideal.cmp .olt (max x (-x)) (Ideal.ofBits .f32 0x7F800000#32) = 1#1) : ∃ r : ℝ, x = (r : EReal) := by
  rw [ofBits_inf] at h
  refine real_of_abs_lt_top x ?_
  simpa [Ideal.cmp, StableHlo.Predicate.ofBool_eq_one_iff] using h

/-- The two element tests of the label conjuncts, 0 ≤ w and w < 128 as signed comparisons against the constants, read
    back: the word w, read signed, lies in [0, 128). -/
theorem range_of_tests (w : BitVec 32) (h0 : IntOp.cmpi .sge w 0#32 = 1#1) (h1 : IntOp.cmpi .slt w 128#32 = 1#1) :
    0 ≤ w.toInt ∧ w.toInt < 128 := by
  have a := IntOp.cmpi_sge.1 h0
  have b := IntOp.cmpi_slt.1 h1
  rw [show (0#32 : BitVec 32).toInt = 0 from by decide] at a
  rw [show (128#32 : BitVec 32).toInt = 128 from by decide] at b
  exact ⟨a, b⟩

theorem pre_decode (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Finite (m ((c.tc : Thread Cert.KernelIdeal.nD Cert.KernelIdeal.τ).loc Cert.KernelIdeal.main_arg0) : Cert.KernelIdeal.S1048576x128.Idx → EReal)
    ∧ Finite (m ((c.tc : Thread Cert.KernelIdeal.nD Cert.KernelIdeal.τ).loc Cert.KernelIdeal.main_arg1) : Cert.KernelIdeal.S1048576x128.Idx → EReal)
    ∧ InRange (m ((c.tc : Thread Cert.KernelIdeal.nD Cert.KernelIdeal.τ).loc Cert.KernelIdeal.main_arg2) : Cert.KernelIdeal.S1048576.Idx → BitVec 32) := by
  -- the predicate's one result word, with its twenty-six operations in view
  have e := congrFun (h c) ValueIdx.ix0
  dsimp only [Cert.Pre_finite_inputs.fn, Cert.Pre_finite_inputs.fn_part1] at e
  -- a conjunction of four: ((all |logits| < ∞ ∧ all |targets| < ∞) ∧ all labels ≥ 0) ∧ all labels < 128
  obtain ⟨e', eHi⟩ := IntOp.andi_eq_one.1 e
  obtain ⟨e'', eLo⟩ := IntOp.andi_eq_one.1 e'
  obtain ⟨eP, eT⟩ := IntOp.andi_eq_one.1 e''
  -- each conjunct is an and-reduction over every axis that came out 1: so every element of the reduced mask is 1
  refine ⟨fun i => ?_, fun i => ?_, fun i => ?_⟩
  · exact real_of_test _ (Host.reduce_andi_all _ _ _ _ _ eP i)
  · exact real_of_test _ (Host.reduce_andi_all _ _ _ _ _ eT i)
  · exact range_of_tests _ (Host.reduce_andi_all _ _ _ _ _ eLo i) (Host.reduce_andi_all _ _ _ _ _ eHi i)

end Cert.Bridge

end
-- ==== Proof.KI.Blocks0.lean ====
/-
  From blocks to arrays, first region: a tile's block of an argument array read at an index is the array at the
  tile's row; the log-probability and bin arrays after the region hold, at row n, what tile n / 4096 left at row
  n % 4096 of its column; the histogram array holds the running histogram after the last tile.
-/
import proofs.«173433_j21406117003629_1_alg».proof.Proof.Gen.KernelIdeal.Launch
import proofs.«173433_j21406117003629_1_alg».proof.Proof.Gen.KernelIdeal.Skeleton
import proofs.«173433_j21406117003629_1_alg».proof.Proof.Gen.KernelIdeal.Points
import proofs.«173433_j21406117003629_1_alg».proof.Proof.KI.Dat0
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Region0

variable (V : (c : Dev nD) → (b : Ref sig .tc) → Buf (Elt F) ((c : Thread nD τ).loc b))

/-- The tile that holds row `n`, and the row's place in it. -/
abbrev tileOf (n : Fin 1048576) : Fin cfg0.N := ⟨n.val / 4096, by have := n.isLt; have : cfg0.N = 256 := N_0; omega⟩
abbrev rowOf (n : Fin 1048576) : Fin 4096 := ⟨n.val % 4096, Nat.mod_lt _ (by decide)⟩
/-- Row `r` of tile `t` as a row of the array. -/
abbrev rowAt (t : Fin cfg0.N) (r : Fin 4096) : Fin 1048576 := ⟨4096 * t.val + r.val, by have := t.isLt; have : cfg0.N = 256 := N_0; have := r.isLt; omega⟩

/-- The last tile. -/
abbrev lastTile0 : Fin cfg0.N := ⟨255, by have : cfg0.N = 256 := N_0; omega⟩

/-- The block index of every window at every tile: the five row-blocked windows sit at block (t, 0), the histogram
    window at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

theorem pblk_apply (c : Dev nD) (t : Fin cfg0.N) (r : Fin 4096) (j : Fin 128) :
    pblk V c t (ix2 r j) = (V c main_arg0 : S1048576x128.Idx → F .f32) (ix2 (rowAt t r) j) := by
  obtain ⟨e0, e1, -⟩ := idx_facts0 t
  show iblk0 V c 0 t (ix2 r j) = _
  unfold iblk0
  rw [View.read_apply]
  show (V c main_arg0 : S1048576x128.Idx → F .f32) _ = (V c main_arg0 : S1048576x128.Idx → F .f32) _
  congr 1
  funext a
  apply Fin.ext
  match a with
  | ⟨0, _⟩ => show win0_0.index t (0 : Fin 2) * 4096 + 1 * r.val = 4096 * t.val + r.val; rw [e0]; omega
  | ⟨1, _⟩ => show win0_0.index t (1 : Fin 2) * 128 + 1 * j.val = j.val; rw [e1]; omega
theorem tblk_apply (c : Dev nD) (t : Fin cfg0.N) (r : Fin 4096) (j : Fin 128) :
    tblk V c t (ix2 r j) = (V c main_arg1 : S1048576x128.Idx → F .f32) (ix2 (rowAt t r) j) := by
  obtain ⟨-, -, e0, e1, -⟩ := idx_facts0 t
  show iblk0 V c 1 t (ix2 r j) = _
  unfold iblk0
  rw [View.read_apply]
  show (V c main_arg1 : S1048576x128.Idx → F .f32) _ = (V c main_arg1 : S1048576x128.Idx → F .f32) _
  congr 1
  funext a
  apply Fin.ext
  match a with
  | ⟨0, _⟩ => show win0_1.index t (0 : Fin 2) * 4096 + 1 * r.val = 4096 * t.val + r.val; rw [e0]; omega
  | ⟨1, _⟩ => show win0_1.index t (1 : Fin 2) * 128 + 1 * j.val = j.val; rw [e1]; omega
theorem lblk_apply (c : Dev nD) (t : Fin cfg0.N) (r : Fin 4096) (u : Fin 1) :
    lblk V c t (ix2 r u) = (V c main_v0 : S1048576x1.Idx → BitVec 32) (ix2 (rowAt t r) u) := by
  obtain ⟨-, -, -, -, e0, e1, -⟩ := idx_facts0 t
  show iblk0 V c 2 t (ix2 r u) = _
  unfold iblk0
  rw [View.read_apply]
  show (V c main_v0 : S1048576x1.Idx → BitVec 32) _ = (V c main_v0 : S1048576x1.Idx → BitVec 32) _
  congr 1
  funext a
  apply Fin.ext
  match a with
  | ⟨0, _⟩ => show win0_2.index t (0 : Fin 2) * 4096 + 1 * r.val = 4096 * t.val + r.val; rw [e0]; omega
  | ⟨1, _⟩ => show win0_2.index t (1 : Fin 2) * 1 + 1 * u.val = u.val; rw [e1]; omega

/-- What the array of window 3 holds after the region, as one function of the row: the tile's column at the row's place. -/
abbrev G0_3 (c : Dev nD) : S1048576x1.Idx → F .f32 := fun i => logpCol V c (tileOf (i 0)) (ix2 (rowOf (i 0)) (i 1))

theorem logpCol_congr (c : Dev nD) {t t' : Fin cfg0.N} {y y' : S4096x1.Idx} (ht : t = t') (hy : y = y') :
    logpCol V c t y = logpCol V c t' y' := by subst ht; subst hy; rfl

/-- An index of the array is in tile `t`'s block iff each coordinate is in the block's range on its axis. -/
theorem mem_blk0_3 (t : Fin cfg0.N) (i : S1048576x1.Idx) :
    i ∈ ((cfg0.win 3).blk t).view.set ↔ ∀ a : Fin 2, win0_3.index t a * S4096x1.size a ≤ (i a).val ∧ (i a).val < win0_3.index t a * S4096x1.size a + S4096x1.size a := by
  show i ∈ ((View.whole main_v1_0).slice (win0_3.rect t)).set ↔ _
  rw [View.set_slice_whole, Rect.mem_set_unit]
  exact Iff.rfl

/-- What tile `t` writes back is block `t` of that function. -/
theorem flushed0_3_eq (c : Dev nD) (t : Fin cfg0.N) :
    (dat0 V c).flushed 3 t = ((cfg0.win 3).blk t).view.read (Elt F) (G0_3 V c) := by
  show (cfg0.win 3).cut (grid0.coords t) ((dat0 V c).after 3 t) = _
  rw [after0_3]
  obtain ⟨-, -, -, -, -, -, e0, e1, -⟩ := idx_facts0 t
  refine funext fun (y : S4096x1.Idx) => ?_
  rw [View.read_apply]
  show logpCol V c t y = G0_3 V c (((cfg0.win 3).blk t).view.emb y)
  have hy0 : (y 0).val < 4096 := (y 0).isLt
  have hy1 : (y 1).val < 1 := (y 1).isLt
  have h0 : (((((cfg0.win 3).blk t).view.emb y : S1048576x1.Idx) 0 : Fin 1048576) : Nat) = 4096 * t.val + (y 0).val := by
    show win0_3.index t (0 : Fin 2) * 4096 + 1 * (y 0).val = _; rw [e0]; omega
  have h1 : (((((cfg0.win 3).blk t).view.emb y : S1048576x1.Idx) 1 : Fin 1) : Nat) = (y 1).val := by
    show win0_3.index t (1 : Fin 2) * 1 + 1 * (y 1).val = _; rw [e1]; omega
  refine logpCol_congr V c (Fin.ext ?_) (funext fun a => Fin.ext ?_)
  · show t.val = ((((cfg0.win 3).blk t).view.emb y : S1048576x1.Idx) 0 : Fin 1048576).val / 4096
    rw [h0]; omega
  · match a with
    | ⟨0, _⟩ => show (y 0).val = ((((cfg0.win 3).blk t).view.emb y : S1048576x1.Idx) 0 : Fin 1048576).val % 4096; rw [h0]; omega
    | ⟨1, _⟩ => show (y 1).val = ((((cfg0.win 3).blk t).view.emb y : S1048576x1.Idx) 1 : Fin 1).val; rw [h1]

/-- Every row is in the block of the tile that holds it. -/
theorem cover0_3 (i : S1048576x1.Idx) :
    ∃ t : Fin cfg0.N, (cfg0.win 3).flush t = true ∧ i ∈ ((cfg0.win 3).blk t).view.set := by
  refine ⟨tileOf (i 0), flush0_3 _, ?_⟩
  rw [mem_blk0_3]
  obtain ⟨-, -, -, -, -, -, e0, e1, -⟩ := idx_facts0 (tileOf (i 0))
  have hi1 : (i 1).val < 1 := (i 1).isLt
  intro a
  match a with
  | ⟨0, _⟩ =>
    show win0_3.index (tileOf (i 0)) (0 : Fin 2) * 4096 ≤ (i 0).val ∧ (i 0).val < win0_3.index (tileOf (i 0)) (0 : Fin 2) * 4096 + 4096
    rw [e0]; show (i 0).val / 4096 * 4096 ≤ (i 0).val ∧ (i 0).val < (i 0).val / 4096 * 4096 + 4096; omega
  | ⟨1, _⟩ =>
    show win0_3.index (tileOf (i 0)) (1 : Fin 2) * 1 ≤ (i 1).val ∧ (i 1).val < win0_3.index (tileOf (i 0)) (1 : Fin 2) * 1 + 1
    rw [e1]; omega

/-- The array after the region is that function. -/
theorem final0_3 (c : Dev nD) : (dat0 V c).arrAt 3 cfg0.N = G0_3 V c :=
  (dat0 V c).arrAt_eq_of_cover 3 (G0_3 V c) (fun t _ => flushed0_3_eq V c t) cover0_3

/-- What the array of window 4 holds after the region, as one function of the row: the tile's column at the row's place. -/
abbrev G0_4 (c : Dev nD) : S1048576x1.Idx → BitVec 32 := fun i => binCol V c (tileOf (i 0)) (ix2 (rowOf (i 0)) (i 1))

theorem binCol_congr (c : Dev nD) {t t' : Fin cfg0.N} {y y' : S4096x1.Idx} (ht : t = t') (hy : y = y') :
    binCol V c t y = binCol V c t' y' := by subst ht; subst hy; rfl

/-- An index of the array is in tile `t`'s block iff each coordinate is in the block's range on its axis. -/
theorem mem_blk0_4 (t : Fin cfg0.N) (i : S1048576x1.Idx) :
    i ∈ ((cfg0.win 4).blk t).view.set ↔ ∀ a : Fin 2, win0_4.index t a * S4096x1.size a ≤ (i a).val ∧ (i a).val < win0_4.index t a * S4096x1.size a + S4096x1.size a := by
  show i ∈ ((View.whole main_v1_1).slice (win0_4.rect t)).set ↔ _
  rw [View.set_slice_whole, Rect.mem_set_unit]
  exact Iff.rfl

/-- What tile `t` writes back is block `t` of that function. -/
theorem flushed0_4_eq (c : Dev nD) (t : Fin cfg0.N) :
    (dat0 V c).flushed 4 t = ((cfg0.win 4).blk t).view.read (Elt F) (G0_4 V c) := by
  show (cfg0.win 4).cut (grid0.coords t) ((dat0 V c).after 4 t) = _
  rw [after0_4]
  obtain ⟨-, -, -, -, -, -, -, -, e0, e1, -⟩ := idx_facts0 t
  refine funext fun (y : S4096x1.Idx) => ?_
  rw [View.read_apply]
  show binCol V c t y = G0_4 V c (((cfg0.win 4).blk t).view.emb y)
  have hy0 : (y 0).val < 4096 := (y 0).isLt
  have hy1 : (y 1).val < 1 := (y 1).isLt
  have h0 : (((((cfg0.win 4).blk t).view.emb y : S1048576x1.Idx) 0 : Fin 1048576) : Nat) = 4096 * t.val + (y 0).val := by
    show win0_4.index t (0 : Fin 2) * 4096 + 1 * (y 0).val = _; rw [e0]; omega
  have h1 : (((((cfg0.win 4).blk t).view.emb y : S1048576x1.Idx) 1 : Fin 1) : Nat) = (y 1).val := by
    show win0_4.index t (1 : Fin 2) * 1 + 1 * (y 1).val = _; rw [e1]; omega
  refine binCol_congr V c (Fin.ext ?_) (funext fun a => Fin.ext ?_)
  · show t.val = ((((cfg0.win 4).blk t).view.emb y : S1048576x1.Idx) 0 : Fin 1048576).val / 4096
    rw [h0]; omega
  · match a with
    | ⟨0, _⟩ => show (y 0).val = ((((cfg0.win 4).blk t).view.emb y : S1048576x1.Idx) 0 : Fin 1048576).val % 4096; rw [h0]; omega
    | ⟨1, _⟩ => show (y 1).val = ((((cfg0.win 4).blk t).view.emb y : S1048576x1.Idx) 1 : Fin 1).val; rw [h1]

/-- Every row is in the block of the tile that holds it. -/
theorem cover0_4 (i : S1048576x1.Idx) :
    ∃ t : Fin cfg0.N, (cfg0.win 4).flush t = true ∧ i ∈ ((cfg0.win 4).blk t).view.set := by
  refine ⟨tileOf (i 0), flush0_4 _, ?_⟩
  rw [mem_blk0_4]
  obtain ⟨-, -, -, -, -, -, -, -, e0, e1, -⟩ := idx_facts0 (tileOf (i 0))
  have hi1 : (i 1).val < 1 := (i 1).isLt
  intro a
  match a with
  | ⟨0, _⟩ =>
    show win0_4.index (tileOf (i 0)) (0 : Fin 2) * 4096 ≤ (i 0).val ∧ (i 0).val < win0_4.index (tileOf (i 0)) (0 : Fin 2) * 4096 + 4096
    rw [e0]; show (i 0).val / 4096 * 4096 ≤ (i 0).val ∧ (i 0).val < (i 0).val / 4096 * 4096 + 4096; omega
  | ⟨1, _⟩ =>
    show win0_4.index (tileOf (i 0)) (1 : Fin 2) * 1 ≤ (i 1).val ∧ (i 1).val < win0_4.index (tileOf (i 0)) (1 : Fin 2) * 1 + 1
    rw [e1]; omega

/-- The array after the region is that function. -/
theorem final0_4 (c : Dev nD) : (dat0 V c).arrAt 4 cfg0.N = G0_4 V c :=
  (dat0 V c).arrAt_eq_of_cover 4 (G0_4 V c) (fun t _ => flushed0_4_eq V c t) cover0_4

theorem histAt_congr (c : Dev nD) {n n' : ℕ} (h : n < cfg0.N) (h' : n' < cfg0.N) (e : n = n') :
    histAt V c n h = histAt V c n' h' := by subst e; rfl

/-- The histogram window's one block is the whole array: its block index is (0, 0) at every tile. -/
theorem off0_5 (t : Fin cfg0.N) : (fun a => win0_5.index t a * main_v1_2.ty.shape.size a) = fun _ => 0 := by
  obtain ⟨-, -, -, -, -, -, -, -, -, -, e0, e1⟩ := idx_facts0 t
  funext a
  match a with
  | ⟨0, _⟩ => show win0_5.index t (0 : Fin 2) * 1 = 0; rw [e0]
  | ⟨1, _⟩ => show win0_5.index t (1 : Fin 2) * 128 = 0; rw [e1]

/-- The one write-back, at the last tile, writes the running histogram after the last tile. -/
theorem flushed0_5_eq (c : Dev nD) (t : Fin cfg0.N) (hf : (cfg0.win 5).flush t = true) :
    (dat0 V c).flushed 5 t = ((cfg0.win 5).blk t).view.read (Elt F) (histAt V c 255 (by have : cfg0.N = 256 := N_0; omega)) := by
  have hN : cfg0.N = 256 := N_0
  have h1 : t.val = 255 := by have := (flush0_5 t).mp hf; have := t.isLt; omega
  show (cfg0.win 5).cut (grid0.coords t) ((dat0 V c).after 5 t) = _
  rw [after0_5, histAt_congr V c t.isLt (by omega) h1]
  exact (Memref.read_access_unit_zero (Elt F) main_v1_2 (off0_5 t) (fun a => by rw [congrFun (off0_5 t) a]; simp) _).symm

/-- The log-probability array after the region, at row `n`. -/
theorem arrAt0_3_apply (c : Dev nD) (n : Fin 1048576) (u : Fin 1) :
    ((dat0 V c).arrAt 3 cfg0.N : S1048576x1.Idx → F .f32) (ix2 n u) = logpCol V c (tileOf n) (ix2 (rowOf n) u) :=
  congrFun (final0_3 V c) (ix2 n u)
/-- The bin array after the region, at row `n`. -/
theorem arrAt0_4_apply (c : Dev nD) (n : Fin 1048576) (u : Fin 1) :
    ((dat0 V c).arrAt 4 cfg0.N : S1048576x1.Idx → BitVec 32) (ix2 n u) = binCol V c (tileOf n) (ix2 (rowOf n) u) :=
  congrFun (final0_4 V c) (ix2 n u)
/-- The histogram array after the region: the running histogram after the last tile. -/
theorem arrAt0_5_eq (c : Dev nD) :
    ((dat0 V c).arrAt 5 cfg0.N : S1x128.Idx → F .f32) = histAt V c 255 (by have : cfg0.N = 256 := N_0; omega) := by
  refine (dat0 V c).arrAt_eq_of_cover 5 _ (flushed0_5_eq V c) fun i => ⟨lastTile0, (flush0_5 _).mpr rfl, ?_⟩
  show i ∈ ((View.whole main_v1_2).slice (win0_5.rect lastTile0)).set
  rw [View.set_slice_whole, Rect.mem_set_unit]
  obtain ⟨-, -, -, -, -, -, -, -, -, -, e0, e1⟩ := idx_facts0 lastTile0
  have hi0 : (i 0).val < 1 := (i 0).isLt
  have hi1 : (i 1).val < 128 := (i 1).isLt
  intro a
  match a with
  | ⟨0, _⟩ =>
    show win0_5.index lastTile0 (0 : Fin 2) * 1 ≤ (i 0).val ∧ (i 0).val < win0_5.index lastTile0 (0 : Fin 2) * 1 + 1
    rw [e0]; omega
  | ⟨1, _⟩ =>
    show win0_5.index lastTile0 (1 : Fin 2) * 128 ≤ (i 1).val ∧ (i 1).val < win0_5.index lastTile0 (1 : Fin 2) * 128 + 128
    rw [e1]; omega
/-- The argument arrays the region only reads end as it found them. -/
theorem arrAt0_in (c : Dev nD) (w : Fin cfg0.W) (hw : w.val < 3) : (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨n + 3, _⟩, h => exact absurd h (by simp)
  rw [(dat0 V c).arrAt_in w hin cfg0.N, A_eq0]

end Region0

end Cert.KernelIdeal.Hand

end
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.Bridge.Logp.lean ====
/-
  Stage 1, the log-probability of the labelled class, row by row. The kernel leaves at row n
  `(Σ_j p_j·[j = label]) − (max_j p_j + log Σ_j exp (p_j − max))`; the reference computes
  `Σ_j ((p_j − max) − log Σ_j exp (p_j − max))·[j = label]`. For a row of real numbers and a label that is a class
  number exactly one lane is selected, and both are `p_label − max − log Σ_j exp (p_j − max)`.
-/
import proofs.«173433_j21406117003629_1_alg».proof.Proof.RefRead
import proofs.«173433_j21406117003629_1_alg».proof.Proof.Bridge.Basic
import proofs.«173433_j21406117003629_1_alg».proof.Proof.KI.Blocks0
import proofs.«173433_j21406117003629_1_alg».proof.Proof.LibKeepdims
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

set_option maxRecDepth 16384

noncomputable section

namespace Cert.Bridge

open Idealize.ShloMosaic Idealize.ShloMosaic.TcCoe Idealize.ShloMosaic.ValueIdx
open scoped BigOperators

namespace Logp

/-- A one-bit comparison word of two 32-bit words, read as a number, is the indicator of their equality. -/
theorem cmpi_eq_toNat (a b : BitVec 32) : (((IntOp.cmpi .eq a b).toNat : ℝ) : EReal) = if a = b then 1 else 0 := by
  by_cases h : a = b
  · subst h; simp [IntOp.cmpi]
  · simp [IntOp.cmpi, h]

/-- The f32 word of −∞ is the bottom of the extended reals. -/
theorem ofBits_neg_inf : Ideal.ofBits .f32 0xFF800000#32 = ⊥ := by simp [Ideal.ofBits, Ideal.ieee]

/-! ## One row: the two closed forms and their equality -/

/-- The lane mask both programs build for a label word: 1 on the lane whose number is the word, 0 elsewhere. -/
def laneMask (l : BitVec 32) (j : Fin 128) : EReal := if BitVec.ofNat 32 j.val = l then 1 else 0

/-- The maximum of a row, taken from −∞. -/
def rowMax (p : Fin 128 → EReal) : EReal := (Finset.univ : Finset (Fin 128)).fold max ⊥ p

/-- What the kernel leaves for a row `p` with label word `l`. -/
def kerRow (p : Fin 128 → EReal) (l : BitVec 32) : EReal :=
  (∑ j, p j * laneMask l j) - (rowMax p + Ideal.log (∑ j, Ideal.exp (p j - rowMax p)))

/-- What the reference computes for the same row. -/
def refRow (p : Fin 128 → EReal) (l : BitVec 32) : EReal :=
  0 + ∑ j, ((p j - max ⊥ (rowMax p)) - Ideal.log (0 + ∑ k, Ideal.exp (p k - max ⊥ (rowMax p)))) * laneMask l j

/-- A finite sum of real numbers, taken among the extended reals, is the real sum. -/
theorem coe_sum_real {ι : Type} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- The maximum from −∞ of a nonempty family of real numbers is a real number. -/
theorem fold_max_real {ι : Type} (s : Finset ι) (hs : s.Nonempty) (f : ι → ℝ) :
    ∃ M : ℝ, s.fold max (⊥ : EReal) (fun j => (f j : EReal)) = M := by
  induction hs using Finset.Nonempty.cons_induction with
  | singleton a => exact ⟨f a, by rw [Finset.fold_singleton]; exact max_eq_left bot_le⟩
  | cons a s ha hs ih =>
    obtain ⟨M, hM⟩ := ih
    refine ⟨max (f a) M, ?_⟩
    rw [Finset.fold_cons, hM]
    exact (EReal.coe_strictMono.monotone.map_max).symm

/-- A label word that is a class number names one lane, and the mask is that lane's indicator. -/
theorem laneMask_eq (l : BitVec 32) (hl : 0 ≤ l.toInt ∧ l.toInt < 128) :
    ∃ j₀ : Fin 128, ∀ j, laneMask l j = if j = j₀ then 1 else 0 := by
  have hlt : l.toNat < 128 := by
    have := l.isLt
    rw [BitVec.toInt_eq_toNat_cond] at hl
    split at hl <;> omega
  refine ⟨⟨l.toNat, hlt⟩, fun j => ?_⟩
  unfold laneMask
  have hiff : BitVec.ofNat 32 j.val = l ↔ j = ⟨l.toNat, hlt⟩ := by
    constructor
    · intro h
      have := congrArg BitVec.toNat h
      rw [BitVec.toNat_ofNat] at this
      have hj := j.isLt
      exact Fin.ext (by simp only; omega)
    · rintro rfl
      exact BitVec.eq_of_toNat_eq (by rw [BitVec.toNat_ofNat]; simp only; omega)
  by_cases h : j = ⟨l.toNat, hlt⟩
  · rw [if_pos (hiff.2 h), if_pos h]
  · rw [if_neg (fun h' => h (hiff.1 h')), if_neg h]

/-- Against an indicator mask a lane sum keeps the selected lane's term. -/
theorem sum_mul_mask (f μ : Fin 128 → EReal) (j₀ : Fin 128) (hμ : ∀ j, μ j = if j = j₀ then 1 else 0) :
    ∑ j, f j * μ j = f j₀ := by
  rw [Finset.sum_eq_single j₀ (fun j _ hj => by rw [hμ j, if_neg hj, mul_zero]) (fun h => absurd (Finset.mem_univ _) h),
    hμ j₀, if_pos rfl, mul_one]

/-- For a row of real numbers and a label that is a class number the two closed forms agree: both are
    `p_label − max − log Σ_j exp (p_j − max)`, computed among the reals. -/
theorem kerRow_eq_refRow_real (q : Fin 128 → ℝ) (l : BitVec 32) (hl : 0 ≤ l.toInt ∧ l.toInt < 128) :
    kerRow (fun j => (q j : EReal)) l = refRow (fun j => (q j : EReal)) l := by
  obtain ⟨M, hM⟩ := fold_max_real Finset.univ Finset.univ_nonempty q
  obtain ⟨j₀, hmask⟩ := laneMask_eq l hl
  have hs : (0 : ℝ) < ∑ j : Fin 128, Real.exp (q j - M) :=
    Finset.sum_pos (fun j _ => Real.exp_pos _) Finset.univ_nonempty
  have hexp : ∑ j : Fin 128, Ideal.exp ((q j : EReal) - (M : EReal)) = ((∑ j : Fin 128, Real.exp (q j - M) : ℝ) : EReal) := by
    rw [← coe_sum_real]
    exact Finset.sum_congr rfl fun j _ => by rw [← EReal.coe_sub, Ideal.exp_coe]
  have hlog : Ideal.log ((∑ j : Fin 128, Real.exp (q j - M) : ℝ) : EReal) = ((Real.log (∑ j : Fin 128, Real.exp (q j - M)) : ℝ) : EReal) := by
    rw [Ideal.log_coe, if_neg (not_le.2 hs)]
  unfold kerRow refRow rowMax
  rw [hM, max_eq_right (bot_le : (⊥ : EReal) ≤ (M : EReal)), zero_add, zero_add, hexp, hlog,
    sum_mul_mask (fun j => (q j : EReal)) _ j₀ hmask,
    sum_mul_mask (fun j => (q j : EReal) - (M : EReal) - ((Real.log (∑ j : Fin 128, Real.exp (q j - M)) : ℝ) : EReal)) _ j₀ hmask,
    ← EReal.coe_add, ← EReal.coe_sub, ← EReal.coe_sub, ← EReal.coe_sub]
  exact congrArg _ (by ring)

theorem kerRow_eq_refRow (p : Fin 128 → EReal) (l : BitVec 32) (hp : ∀ j, ∃ r : ℝ, p j = r)
    (hl : 0 ≤ l.toInt ∧ l.toInt < 128) : kerRow p l = refRow p l := by
  choose q hq using hp
  obtain rfl : p = fun j => (q j : EReal) := funext hq
  exact kerRow_eq_refRow_real q l hl

/-! ## The reference's stage at a row -/

section ReferenceSide
open Cert.ReferenceIdeal Cert.ReferenceIdeal.Gen Cert.ReferenceIdeal.ReadP Idealize.ShloMosaic.StableHlo

theorem i_v3 (n : Fin 1048576) (k : Fin 128) : idx_main_v3 (ix1 n) k = ix2 n k :=
  funext fun a => Fin.ext (by match a with | ⟨0, _⟩ => rfl | ⟨1, _⟩ => rfl)
theorem i_c1v7 (n : Fin 1048576) (k : Fin 128) : idx_main_call1_v7 (ix1 n) k = ix2 n k :=
  funext fun a => Fin.ext (by match a with | ⟨0, _⟩ => rfl | ⟨1, _⟩ => rfl)
theorem i_c1v4 (n : Fin 1048576) (k : Fin 128) : idx_main_call1_v4 (ix2 n k) = ix2 n (0 : Fin 1) :=
  funext fun a => Fin.ext (by match a with | ⟨0, _⟩ => rfl | ⟨1, _⟩ => rfl)
theorem i_c1v10 (n : Fin 1048576) (k : Fin 128) : idx_main_call1_v10 (ix2 n k) = ix2 n (0 : Fin 1) :=
  funext fun a => Fin.ext (by match a with | ⟨0, _⟩ => rfl | ⟨1, _⟩ => rfl)
theorem i_c0v2 (n : Fin 1048576) (k : Fin 128) : idx_main_call0_v2 (ix2 n k) = ix2 n (0 : Fin 1) :=
  funext fun a => Fin.ext (by match a with | ⟨0, _⟩ => rfl | ⟨1, _⟩ => rfl)
theorem i_c0v3 (n : Fin 1048576) (k : Fin 128) : idx_main_call0_v3 (ix2 n k) = ix2 (0 : Fin 1) k :=
  funext fun a => Fin.ext (by match a with | ⟨0, _⟩ => rfl | ⟨1, _⟩ => rfl)
theorem i_c1v3 (n : Fin 1048576) (u : Fin 1) : idx_main_call1_v3 (ix2 n u) = ix1 n :=
  funext fun a => Fin.ext (by match a with | ⟨0, _⟩ => rfl)
theorem i_c1v8 (n : Fin 1048576) (u : Fin 1) : idx_main_call1_v8 (ix2 n u) = ix1 n :=
  funext fun a => Fin.ext (by match a with | ⟨0, _⟩ => rfl)
theorem i_c0v0 (n : Fin 1048576) (u : Fin 1) : idx_main_call0_v0 (ix2 n u) = ix1 n :=
  funext fun a => Fin.ext (by match a with | ⟨0, _⟩ => rfl)

/-- The reference's row maximum (a fold of `max` over axis 1 from −∞) at row n. -/
theorem ref_rowMax (P : (⟨2, ![1048576, 128]⟩ : Shape).Idx → EReal) (n : Fin 1048576) :
    val_main_call1_v0 (F := Ideal) P (ix1 n) = rowMax (fun j => P (ix2 n j)) := by
  unfold val_main_call1_v0 rowMax
  refine (Host.reduce_eq_fold_single (FloatOps.maximumf (F := Ideal) (φ := .f32)) P (val_main_call1_cst (F := Ideal))
    reducesTo_S1048576x128_S1048576_d1 (by decide) h_S_ (ix1 n)).trans ?_
  rw [val_main_call1_cst_apply]
  show Finset.fold max (Ideal.ofBits .f32 0xFF800000#32) _ _ = _
  rw [ofBits_neg_inf]
  exact congrArg (fun f => Finset.fold max ⊥ f Finset.univ) (funext fun k => congrArg P (funext fun ax => Fin.ext (by
    match ax with
    | ⟨0, _⟩ => rfl
    | ⟨1, _⟩ => rfl)))

/-- The reference's one-hot at (n, k): the indicator that k is the label word of row n. -/
theorem ref_mask (L : (⟨1, ![1048576]⟩ : Shape).Idx → BitVec 32) (n : Fin 1048576) (k : Fin 128) :
    val_main_v0 (F := Ideal) L (ix2 n k) = laneMask (L (ix1 n)) k := by
  rw [val_main_v0_apply, val_main_call0_v4_apply, val_main_call0_v2_apply, val_main_call0_v0_apply, val_main_call0_v3_apply,
    val_main_call0_v1_apply, i_c0v2, i_c0v0, i_c0v3]
  show (((IntOp.cmpi .eq (L (ix1 n)) (BitVec.ofNat 32 k.val)).toNat : ℝ) : EReal) = _
  rw [cmpi_eq_toNat]
  unfold laneMask
  simp only [eq_comm]

/-- The shifted logit `p − max(−∞, row max)` at (n, k). -/
theorem ref_shift (P : (⟨2, ![1048576, 128]⟩ : Shape).Idx → EReal) (n : Fin 1048576) (k : Fin 128) :
    val_main_call1_v5 (F := Ideal) P (ix2 n k) = P (ix2 n k) - max ⊥ (rowMax (fun j => P (ix2 n j))) := by
  rw [val_main_call1_v5_apply, val_main_call1_v4_apply, i_c1v4, val_main_call1_v3_apply, i_c1v3, val_main_call1_v2_apply,
    val_main_call1_v1_apply, val_main_call1_cst_0_apply, ref_rowMax]
  show P (ix2 n k) - max (Ideal.ofBits .f32 0xFF800000#32) _ = _
  rw [ofBits_neg_inf]

/-- The log of the row's sum of exponentials, broadcast back to (n, k). -/
theorem ref_lse (P : (⟨2, ![1048576, 128]⟩ : Shape).Idx → EReal) (n : Fin 1048576) (k : Fin 128) :
    val_main_call1_v10 (F := Ideal) P (ix2 n k)
      = Ideal.log (0 + ∑ k' : Fin 128, Ideal.exp (P (ix2 n k') - max ⊥ (rowMax (fun j => P (ix2 n j))))) := by
  rw [val_main_call1_v10_apply, i_c1v10, val_main_call1_v9_apply, val_main_call1_v8_apply, i_c1v8, val_main_call1_v7_apply,
    val_main_call1_cst_1_apply]
  simp only [i_c1v7, val_main_call1_v6_apply, ref_shift]
  show Ideal.log (Ideal.ofBits .f32 0x00000000#32 + _) = _
  rw [Ideal.ofBits_zero_f32]
  rfl

/-- The reference's log-probability of the labelled class at row n: its closed form of the row. -/
theorem ref_apply (P : (⟨2, ![1048576, 128]⟩ : Shape).Idx → EReal) (L : (⟨1, ![1048576]⟩ : Shape).Idx → BitVec 32) (n : Fin 1048576) :
    val_main_v3 (F := Ideal) P L (ix1 n) = refRow (fun j => P (ix2 n j)) (L (ix1 n)) := by
  rw [val_main_v3_apply, val_main_cst_apply]
  simp only [i_v3, val_main_v2_apply, val_main_v1_apply, ref_shift, ref_lse, ref_mask]
  show Ideal.ofBits .f32 0x00000000#32 + _ = _
  rw [Ideal.ofBits_zero_f32]
  rfl

end ReferenceSide

/-! ## The kernel's column at a row -/

section KernelSide
open Idealize.SL Idealize.SL.Sem
open Cert.KernelIdeal Cert.KernelIdeal.Gen Cert.KernelIdeal.Hand

/-- The row maximum as a fold over the lanes: the kernel's `multi_reduction <maximumf>` over axis 1 at row `p`. -/
theorem multiReduction_max_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => Finset.fold max (Ideal.ofBits φ acc) f Finset.univ) (funext fun k => congrArg v (funext fun ax => Fin.ext (by
      match ax with
      | ⟨0, _⟩ => rfl
      | ⟨1, _⟩ => rfl))))

/-- The mask payload at (r, j): the indicator that lane j is the row's label word. -/
theorem pay3_apply (v5 : Vec Ideal S4096x1 .i32) (r : Fin 4096) (j : Fin 128) :
    k0_pay3 (F := Ideal) v5 (ix2 r j) = laneMask (v5 (ix2 r (0 : Fin 1))) j := by
  unfold k0_pay3
  show ((((IntOp.cmpi .eq (iota .tc S4096x128 32 [1] iota_S4096x128_d1_w32 (ix2 r j)) (broadcastTo S4096x128 (shapeCast S4096x1 v5 shapeCasts_S4096x1_S4096x1) broadcasts_S4096x1_S4096x128 (ix2 r j))).setWidth 32).toInt : ℝ) : EReal) = _
  rw [iota_single_apply, broadcastTo_a1_ab_apply, shapeCast_self, toInt_setWidth_bit, Int.cast_natCast, cmpi_eq_toNat]
  rfl

theorem exp_apply' {s : Shape} {φ : FTy} (x : FVec Ideal s φ) (i : s.Idx) : exp x i = Ideal.exp (x i) := rfl
theorem log_apply' {s : Shape} {φ : FTy} (x : FVec Ideal s φ) (i : s.Idx) : log x i = Ideal.log (x i) := rfl

/-- The log-probability payload at row r: the kernel's closed form of the row. -/
theorem pay4_apply (v3 : Vec Ideal S4096x128 .f32) (v5 : Vec Ideal S4096x1 .i32) (r : Fin 4096) :
    k0_pay4 (F := Ideal) v3 v5 (ix2 r (0 : Fin 1)) = kerRow (fun j => v3 (ix2 r j)) (v5 (ix2 r (0 : Fin 1))) := by
  have hB := multiReduction_max_rows (φ := .f32) v3 0xFF800000#32 reduces_S4096x128_S4096 (.inl rfl) rfl r
  have hA := multiReduction_add_rows (φ := .f32) (mulf v3 (k0_pay3 v5)) 0x00000000#32 reduces_S4096x128_S4096 (.inl rfl) rfl r
  have hC := multiReduction_add_rows (φ := .f32) (exp (subf v3 (broadcastTo S4096x128 (shapeCast S4096x1 (multiReduction .maximumf [1] S4096 v3 0xFF800000#32 reduces_S4096x128_S4096 (.inl rfl) rfl) shapeCasts_S4096_S4096x1) broadcasts_S4096x1_S4096x128))) 0x00000000#32 reduces_S4096x128_S4096 (.inl rfl) rfl r
  unfold k0_pay4 kerRow rowMax
  simp only [subf_apply, addf_apply, log_apply', shapeCast_a_a1_apply]
  rw [hA, hB, hC]
  simp only [mulf_apply, exp_apply', subf_apply, broadcastTo_a1_ab_apply, shapeCast_a_a1_apply, pay3_apply, hB, ofBits_neg_inf]

end KernelSide

end Logp

section Bridge
open Idealize.SL Idealize.SL.Sem
open Cert.KernelIdeal Cert.KernelIdeal.Gen Cert.KernelIdeal.Hand
open Logp

/-- At row n the first region's log-probability array is the reference's log-probability of the labelled class. -/
theorem logp_bridge (V : (c : Dev nD) → (b : Ref sig .tc) → Buf (Elt Ideal) ((c : Thread nD τ).loc b)) (c : Dev nD) (P T : (⟨2, ![1048576, 128]⟩ : Shape).Idx → EReal) (L : (⟨1, ![1048576]⟩ : Shape).Idx → BitVec 32)
    (hVP : (V c main_arg0 : S1048576x128.Idx → EReal) = P) (hVL : ∀ n : Fin 1048576, (V c main_v0 : S1048576x1.Idx → BitVec 32) (ix2 n (0 : Fin 1)) = L (ix1 n)) (hP : Finite P) (hL : InRange L) (n : Fin 1048576) :
    ((dat0 V c).arrAt 3 cfg0.N : S1048576x1.Idx → EReal) (ix2 n (0 : Fin 1)) = Cert.ReferenceIdeal.ReadP.val_main_v3 (F := Ideal) P L (ix1 n) := by
  have hrow : rowAt (tileOf n) (rowOf n) = n := Fin.ext (Nat.div_add_mod n.val 4096)
  rw [arrAt0_3_apply, ref_apply]
  refine (pay4_apply (pblk V c (tileOf n)) (lblk V c (tileOf n)) (rowOf n)).trans ?_
  have hp : (fun j : Fin 128 => pblk V c (tileOf n) (ix2 (rowOf n) j)) = fun j => P (ix2 n j) :=
    funext fun j => (pblk_apply V c (tileOf n) (rowOf n) j).trans (by rw [hrow]; exact congrFun hVP _)
  have hl : lblk V c (tileOf n) (ix2 (rowOf n) (0 : Fin 1)) = L (ix1 n) :=
    (lblk_apply V c (tileOf n) (rowOf n) 0).trans (by rw [hrow]; exact hVL n)
  rw [hp, hl]
  exact kerRow_eq_refRow _ _ (fun j => hP _) (hL _)

end Bridge

end Cert.Bridge

end
-- ==== Proof.Bridge.Bin.lean ====
/-
  Stage 2, the bin of every row. Kernel and reference compute the same thing, lane by lane and row by row:
  `clip (⌊30 · Σ_j |1 / (1 + exp (−p_j)) − target_j|·[j = label]⌋ as an integer, 0, 29)`; the kernel's logistic is that
  quotient at the ideal values, and a lane sum is the host's sum of the row.
-/
import proofs.«173433_j21406117003629_1_alg».proof.Proof.RefRead
import proofs.«173433_j21406117003629_1_alg».proof.Proof.Bridge.Basic
import proofs.«173433_j21406117003629_1_alg».proof.Proof.KI.Blocks0
import proofs.«173433_j21406117003629_1_alg».proof.Proof.LibKeepdims
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

set_option maxRecDepth 16384

noncomputable section

namespace Cert.Bridge

open Idealize.ShloMosaic Idealize.ShloMosaic.TcCoe Idealize.ShloMosaic.ValueIdx
open Idealize.SL Idealize.SL.Sem
open Cert.KernelIdeal Cert.KernelIdeal.Gen Cert.KernelIdeal.Hand
open scoped BigOperators

namespace Bin

/-! ## The common form: a row's bin from its weighted error sum -/

/-- The bin of a row whose weighted error sum is `s`: `⌊30 · s⌋` as a signed word, kept within `0 … 29`. -/
def binOf (s : EReal) : BitVec 32 :=
  IntOp.minsi 29#32 (IntOp.maxsi 0#32 (Ideal.fptosi 32 (Ideal.liftRound Int.floor (s * Ideal.ofBits .f32 0x41F00000#32))))

/-- The weight of lane `j` for a row labelled `lbl`: one on the label's lane, zero elsewhere (the unsigned reading of
    the bit `[lbl = j]`). -/
def hot (lbl : BitVec 32) (j : Fin 128) : EReal := (((IntOp.cmpi .eq lbl (BitVec.ofNat 32 j.val)).toNat : ℝ) : EReal)

/-- The error of one lane: `|1 / (1 + exp (−p)) − t|`. -/
def err (p t : EReal) : EReal := max (Ideal.logistic p - t) (-(Ideal.logistic p - t))

/-- A compare bit, zero-extended to a word and read signed, is the bit read unsigned; and the compare for equality does
    not mind the order of its operands. -/
theorem hot_of_signed (x y : BitVec 32) :
    ((((IntOp.cmpi .eq x y).setWidth 32).toInt : ℝ) : EReal) = (((IntOp.cmpi .eq y x).toNat : ℝ) : EReal) := by
  have hb : ∀ b : Bool, ((BitVec.ofBool b).setWidth 32).toInt = ((BitVec.ofBool b).toNat : ℤ) := by decide
  have hxy : IntOp.cmpi .eq x y = IntOp.cmpi .eq y x := by
    show BitVec.ofBool (x == y) = BitVec.ofBool (y == x)
    rw [Bool.beq_comm]
  rw [hxy]
  show ((((BitVec.ofBool (y == x)).setWidth 32).toInt : ℝ) : EReal) = (((BitVec.ofBool (y == x)).toNat : ℝ) : EReal)
  rw [hb]
  norm_cast

/-- Whatever the sum, its bin is one of 0 … 29: the larger of 0 and a word is not negative, and the smaller of 29 and that
    is at most 29. -/
theorem binOf_range (s : EReal) : 0 ≤ (binOf s).toInt ∧ (binOf s).toInt < 30 := by
  unfold binOf
  generalize Ideal.fptosi 32 _ = w
  have h0 : (0#32 : BitVec 32).toInt = 0 := by decide
  have h29 : (29#32 : BitVec 32).toInt = 29 := by decide
  unfold IntOp.minsi IntOp.maxsi
  simp only [BitVec.slt, decide_eq_true_eq]
  split_ifs with h1 h2 h2
  all_goals (simp only [h0, h29] at *; omega)

/-! ## The kernel's column at a row -/

/-- The kernel's one-hot weights (the lane number compared with the row's label, as a float) at row `r`, lane `j`. -/
theorem k0_pay3_apply (l : Vec Ideal S4096x1 .i32) (r : Fin 4096) (j : Fin 128) :
    k0_pay3 (F := Ideal) l (ix2 r j) = hot (l (ix2 r (0 : Fin 1))) j := by
  unfold k0_pay3
  show ((((IntOp.cmpi .eq (iota .tc S4096x128 32 [1] iota_S4096x128_d1_w32 (ix2 r j))
      (broadcastTo S4096x128 (shapeCast S4096x1 l shapeCasts_S4096x1_S4096x1) broadcasts_S4096x1_S4096x128 (ix2 r j))).setWidth 32).toInt : ℝ) : EReal) = _
  rw [shapeCast_self, broadcastTo_a1_ab_apply, iota_single_apply, hot_of_signed]
  rfl

/-- The kernel's bin column at row `r` of a tile: the bin of the row's weighted error sum. -/
theorem k0_pay5_apply (p t : Vec Ideal S4096x128 .f32) (l : Vec Ideal S4096x1 .i32) (r : Fin 4096) (u : Fin 1) :
    k0_pay5 p t l (ix2 r u) = binOf (∑ j : Fin 128, err (p (ix2 r j)) (t (ix2 r j)) * hot (l (ix2 r (0 : Fin 1))) j) := by
  unfold k0_pay5
  show binOf (shapeCast S4096x1 (multiReduction (F := Ideal) .add [1] S4096 (mulf (absf (subf (logistic p) t)) (k0_pay3 (F := Ideal) l)) 0x00000000#32 reduces_S4096x128_S4096 (.inl rfl) rfl) shapeCasts_S4096_S4096x1 (ix2 r u)) = _
  rw [shapeCast_a_a1_apply]
  refine congrArg binOf ((multiReduction_add_rows _ _ _ _ _ r).trans (Finset.sum_congr rfl fun j _ => ?_))
  rw [mulf_apply, k0_pay3_apply]
  rfl

/-! ## The reference's bin at a row -/

/-- The reference's bin at row `n`: the bin of the row's weighted error sum. -/
theorem ref_bin_apply (P T : (⟨2, ![1048576, 128]⟩ : Shape).Idx → EReal) (L : (⟨1, ![1048576]⟩ : Shape).Idx → BitVec 32) (n : Fin 1048576) :
    Cert.ReferenceIdeal.ReadP.val_main_v18 (F := Ideal) P T L (ix1 n)
      = binOf (∑ j : Fin 128, err (P (ix2 n j)) (T (ix2 n j)) * hot (L (ix1 n)) j) := by
  have hterm : ∀ j : Fin 128, Cert.ReferenceIdeal.ReadP.val_main_v12 (F := Ideal) P T L (Cert.ReferenceIdeal.ReadP.idx_main_v13 (ix1 n) j)
      = err (P (ix2 n j)) (T (ix2 n j)) * hot (L (ix1 n)) j := by
    intro j
    have hidx : Cert.ReferenceIdeal.ReadP.idx_main_v13 (ix1 n) j = ix2 n j :=
      funext fun a => Fin.ext (by match a with | ⟨0, _⟩ => rfl | ⟨1, _⟩ => rfl)
    rw [hidx]
    open Cert.ReferenceIdeal.ReadP in
    rw [val_main_v12_apply, val_main_v11_apply, val_main_v10_apply, val_main_v9_apply, val_main_v8_apply,
      val_main_cst_1_apply, val_main_v7_apply, val_main_v6_apply, val_main_cst_0_apply, val_main_v5_apply,
      val_main_v4_apply, val_main_v0_apply, val_main_call0_v4_apply, val_main_call0_v2_apply, val_main_call0_v0_apply,
      val_main_call0_v3_apply, val_main_call0_v1_apply]
    have hL : Cert.ReferenceIdeal.ReadP.idx_main_call0_v0 (Cert.ReferenceIdeal.ReadP.idx_main_call0_v2 (ix2 n j)) = ix1 n :=
      funext fun a => Fin.ext (by match a with | ⟨0, _⟩ => rfl)
    rw [hL]
    simp only [Ideal.ofBits_def, Ideal.ofBits_one_f32]
    rfl
  open Cert.ReferenceIdeal.ReadP in
  rw [val_main_v18_apply, val_main_call2_v4_apply, val_main_call2_v3_apply, val_main_c_4_apply,
    val_main_call2_v2_apply, val_main_call2_v1_apply, val_main_call2_v0_apply, val_main_c_apply,
    val_main_v17_apply, val_main_v16_apply, val_main_v15_apply, val_main_v13_apply, val_main_v14_apply,
    val_main_cst_3_apply, val_main_cst_2_apply]
  simp only [hterm, Ideal.ofBits_def, Ideal.ofBits_zero_f32, zero_add]
  rfl

end Bin

open Bin

/-- The column a tile leaves (what the histogram is counted from), read at row `n`'s place in its tile, is the reference's
    bin of row `n`: both are the bin of the same weighted error sum, the tile's blocks being the arrays' rows. -/
theorem binCol_bridge (V : (c : Dev nD) → (b : Ref sig .tc) → Buf (Elt Ideal) ((c : Thread nD τ).loc b)) (c : Dev nD) (P T : (⟨2, ![1048576, 128]⟩ : Shape).Idx → EReal) (L : (⟨1, ![1048576]⟩ : Shape).Idx → BitVec 32)
    (hVP : (V c main_arg0 : S1048576x128.Idx → EReal) = P) (hVT : (V c main_arg1 : S1048576x128.Idx → EReal) = T) (hVL : ∀ n : Fin 1048576, (V c main_v0 : S1048576x1.Idx → BitVec 32) (ix2 n (0 : Fin 1)) = L (ix1 n)) (n : Fin 1048576) :
    binCol V c (tileOf n) (ix2 (rowOf n) (0 : Fin 1)) = Cert.ReferenceIdeal.ReadP.val_main_v18 (F := Ideal) P T L (ix1 n) := by
  have hrow : rowAt (tileOf n) (rowOf n) = n := Fin.ext (Nat.div_add_mod n.val 4096)
  refine (k0_pay5_apply (pblk V c (tileOf n)) (tblk V c (tileOf n)) (lblk V c (tileOf n)) (rowOf n) (0 : Fin 1)).trans ?_
  refine ((ref_bin_apply P T L n).trans (congrArg binOf (Finset.sum_congr rfl fun j _ => ?_))).symm
  rw [pblk_apply, tblk_apply, lblk_apply, hrow, hVP, hVT, hVL]

/-- So the first region's bin array, which holds at row `n` what the row's tile left there, is the reference's bin of that
    row. -/
theorem bin_bridge (V : (c : Dev nD) → (b : Ref sig .tc) → Buf (Elt Ideal) ((c : Thread nD τ).loc b)) (c : Dev nD) (P T : (⟨2, ![1048576, 128]⟩ : Shape).Idx → EReal) (L : (⟨1, ![1048576]⟩ : Shape).Idx → BitVec 32)
    (hVP : (V c main_arg0 : S1048576x128.Idx → EReal) = P) (hVT : (V c main_arg1 : S1048576x128.Idx → EReal) = T) (hVL : ∀ n : Fin 1048576, (V c main_v0 : S1048576x1.Idx → BitVec 32) (ix2 n (0 : Fin 1)) = L (ix1 n)) (n : Fin 1048576) :
    ((dat0 V c).arrAt 4 cfg0.N : S1048576x1.Idx → BitVec 32) (ix2 n (0 : Fin 1)) = Cert.ReferenceIdeal.ReadP.val_main_v18 (F := Ideal) P T L (ix1 n) :=
  (arrAt0_4_apply V c n (0 : Fin 1)).trans (binCol_bridge V c P T L hVP hVT hVL n)

/-- Every bin is one of 0 … 29. -/
theorem bin_range (P T : (⟨2, ![1048576, 128]⟩ : Shape).Idx → EReal) (L : (⟨1, ![1048576]⟩ : Shape).Idx → BitVec 32) (i : (⟨1, ![1048576]⟩ : Shape).Idx) :
    0 ≤ (Cert.ReferenceIdeal.ReadP.val_main_v18 (F := Ideal) P T L i).toInt ∧ (Cert.ReferenceIdeal.ReadP.val_main_v18 (F := Ideal) P T L i).toInt < 30 := by
  obtain ⟨n, rfl⟩ : ∃ n : Fin 1048576, i = ix1 n := ⟨i 0, eq_ix1 i⟩
  rw [ref_bin_apply]
  exact binOf_range _

end Cert.Bridge

end
-- ==== Proof.Bridge.Counts.lean ====
/-
  Stage 3, the histogram of bins. The kernel adds, tile by tile from zero, the number of the tile's rows whose bin is
  lane b; the reference scatters a one per row onto its bin. Both are the number of rows whose bin is b.
-/
import proofs.«173433_j21406117003629_1_alg».proof.Proof.RefRead
import proofs.«173433_j21406117003629_1_alg».proof.Proof.Bridge.Basic
import proofs.«173433_j21406117003629_1_alg».proof.Proof.KI.Blocks0
import proofs.«173433_j21406117003629_1_alg».proof.Proof.LibKeepdims
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.Bridge

open Idealize.ShloMosaic Idealize.ShloMosaic.TcCoe Idealize.ShloMosaic.ValueIdx
open Idealize.SL Idealize.SL.Sem
open Cert.KernelIdeal Cert.KernelIdeal.Gen Cert.KernelIdeal.Hand
open scoped BigOperators

namespace Counts

/-! ### Rows numbered by tile and place in the tile -/

/-- Row `4096·t + r` of the array is row `r` of tile `t`: the rows are the pairs (tile, place). -/
def tileRowEquiv : Fin 256 × Fin 4096 ≃ Fin 1048576 where
  toFun x := ⟨4096 * x.1.val + x.2.val, by have := x.1.isLt; have := x.2.isLt; omega⟩
  invFun n := (⟨n.val / 4096, by have := n.isLt; omega⟩, ⟨n.val % 4096, Nat.mod_lt _ (by decide)⟩)
  left_inv x := by
    rcases x with ⟨t, r⟩
    refine Prod.ext (Fin.ext ?_) (Fin.ext ?_)
    · show (4096 * t.val + r.val) / 4096 = t.val
      have := r.isLt; omega
    · show (4096 * t.val + r.val) % 4096 = r.val
      have := r.isLt; omega
  right_inv n := Fin.ext (by show 4096 * (n.val / 4096) + n.val % 4096 = n.val; omega)

/-- A sum over all rows is the sum over the tiles of the sums over each tile's rows. -/
theorem sum_rows_eq_sum_tiles {M : Type*} [AddCommMonoid M] (f : Fin 1048576 → M) :
    ∑ n : Fin 1048576, f n = ∑ t : Fin 256, ∑ r : Fin 4096, f (tileRowEquiv (t, r)) :=
  (Equiv.sum_comp tileRowEquiv f).symm.trans (Fintype.sum_prod_type _)

/-! ### The float words zero and one -/

/-- The f32 word of one is the extended real `1`. -/
theorem ofBits_one_f32 : Ideal.ofBits .f32 0x3F800000#32 = 1 := by
  simp [Ideal.ofBits, Ideal.ieee]
  rw [← EReal.coe_mul]
  norm_num

/-- A one-bit comparison of two words, widened and read as a float: one when the words are equal, zero otherwise. -/
theorem eq_indicator (a w : BitVec 32) :
    (FloatOps.sitofp (F := Ideal) .f32 ((IntOp.cmpi .eq a w).setWidth 32) : EReal) = if a = w then 1 else 0 := by
  show ((((BitVec.ofBool (a == w)).setWidth 32).toInt : ℝ) : EReal) = _
  by_cases h : a = w
  · have hb : (a == w) = true := beq_iff_eq.mpr h
    have h1 : ((BitVec.ofBool true).setWidth 32).toInt = 1 := by decide
    rw [hb, if_pos h, h1]; simp
  · have hb : (a == w) = false := beq_eq_false_iff_ne.mpr h
    have h0 : ((BitVec.ofBool false).setWidth 32).toInt = 0 := by decide
    rw [hb, if_neg h, h0]; simp

/-! ### The kernel's side: one tile's step at a lane -/

/-- At the ideal values a sum of an `[a, b]` vector over its FIRST axis, read at lane `q`, is the sum of the lane's column. -/
theorem multiReduction_add_cols {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun ax => Fin.ext (by
      match ax with
      | ⟨0, _⟩ => rfl
      | ⟨1, _⟩ => rfl)))

/-- One tile's step of the histogram at lane `j`: the previous row's lane plus the number of the tile's rows whose bin
    word is the lane's number. -/
theorem pay1_apply (col : IVec S4096x1 32) (prev : FVec Ideal S1x128 .f32) (j : Fin 128) :
    k0_pay1 (F := Ideal) lanes col prev (ix2 (0 : Fin 1) j)
      = prev (ix2 (0 : Fin 1) j) + ∑ r : Fin 4096, (if BitVec.ofNat 32 j.val = col (ix2 r (0 : Fin 1)) then (1 : EReal) else 0) := by
  unfold k0_pay1
  rw [shapeCast_self, addf_apply, shapeCast_a_1a_apply]
  refine congrArg (prev (ix2 (0 : Fin 1) j) + ·) ?_
  refine (multiReduction_add_cols _ _ _ _ _ j).trans ?_
  refine Finset.sum_congr rfl fun r _ => ?_
  rw [sitofp_apply, extui_apply]
  show FloatOps.sitofp (F := Ideal) .f32 ((IntOp.cmpi .eq (lanes (ix2 r j)) (broadcastTo S4096x128 col broadcasts_S4096x1_S4096x128 (ix2 r j))).setWidth 32) = _
  have hl : lanes (ix2 r j) = BitVec.ofNat 32 j.val := iota_single_apply _ _ _ _ _ _
  rw [broadcastTo_a1_ab_apply, hl]
  exact eq_indicator _ _

/-- The starting row is zero at every lane. -/
theorem pay2_apply (i : S1x128.Idx) : k0_pay2 (F := Ideal) i = 0 := by
  unfold k0_pay2
  rw [shapeCast_self, broadcast_apply]
  exact Ideal.ofBits_zero_f32

/-! ### The kernel's side: the running histogram at a lane -/

/-- One when the word of lane number `j` is the bin word `w`, zero otherwise. -/
abbrev hit (j : ℕ) (w : BitVec 32) : EReal := if BitVec.ofNat 32 j = w then 1 else 0

section Kernel

variable (V : (c : Dev nD) → (b : Ref sig .tc) → Buf (Elt Ideal) ((c : Thread nD τ).loc b)) (c : Dev nD)

/-- After tile `n` lane `j` of the running histogram is the number of rows of tiles 0 … n whose bin word is `j`. -/
theorem histAt_apply (j : Fin 128) : ∀ (n : ℕ) (h : n < cfg0.N),
    (histAt V c n h : S1x128.Idx → EReal) (ix2 (0 : Fin 1) j)
      = ∑ t : Fin (n + 1), ∑ r : Fin 4096, hit j.val (binCol V c ⟨t.val, by have := t.isLt; omega⟩ (ix2 r (0 : Fin 1)))
  | 0, h => by
    rw [histAt_zero]
    refine (pay1_apply (binCol V c ⟨0, h⟩) (k0_pay2 (F := Ideal)) j).trans ?_
    rw [pay2_apply, zero_add, Fin.sum_univ_one]
    rfl
  | n + 1, h => by
    rw [histAt_succ]
    refine (pay1_apply (binCol V c ⟨n + 1, h⟩) (histAt V c n (Nat.lt_of_succ_lt h)) j).trans ?_
    rw [histAt_apply j n (Nat.lt_of_succ_lt h)]
    exact (Fin.sum_univ_castSucc (fun t : Fin (n + 1 + 1) =>
      ∑ r : Fin 4096, hit j.val (binCol V c ⟨t.val, by have := t.isLt; omega⟩ (ix2 r (0 : Fin 1))))).symm

end Kernel

/-! ### The reference's side: the scatter-add at a bin -/

/-- The rows of a one-axis array are its indices. -/
def rowIdxEquiv : Fin 1048576 ≃ (⟨1, ![1048576]⟩ : Shape).Idx where
  toFun := ix1
  invFun i := i 0
  left_inv n := rfl
  right_inv i := (eq_ix1 i).symm

/-- The scatter's dimension numbers: one index word per row, inserted on the bins' only axis. -/
abbrev SD : ScatterDims Cert.ReferenceIdeal.S30 Cert.ReferenceIdeal.S1048576x1 Cert.ReferenceIdeal.S1048576 :=
  Cert.ReferenceIdeal.scatter_S30_S1048576x1_S1048576_n_0_0_1

/-- Row `n`'s update starts at the row's index word, read signed. -/
theorem scatter_start (idx : IVec Cert.ReferenceIdeal.S1048576x1 32) (n : Fin 1048576) (a : Fin 1) :
    SD.start (ix1 n) idx a = (idx (ix2 n (0 : Fin 1))).toInt := by
  obtain rfl : a = 0 := Subsingleton.elim _ _
  unfold ScatterDims.start
  rw [dif_pos (show (0 : Fin 1) ∈ SD.scatterDimsToOperandDims from List.mem_singleton.mpr rfl)]
  refine congrArg (fun k => (idx k).toInt) (funext fun bx => Fin.ext ?_)
  match bx with
  | ⟨0, _⟩ => rfl
  | ⟨1, _⟩ => rfl

/-- The update is one element: no window coordinate. -/
theorem scatter_window (j : Cert.ReferenceIdeal.S1048576.Idx) (a : Fin 1) : SD.window j a = 0 := by
  obtain rfl : a = 0 := Subsingleton.elim _ _
  unfold ScatterDims.window
  exact dif_neg (by decide)

/-- Row `n`'s update lands on bin `b` exactly when the row's index word, which lies in [0, 30), is `b`. -/
theorem scatter_lands_iff (idx : IVec Cert.ReferenceIdeal.S1048576x1 32) (n : Fin 1048576) (b : Fin 30)
    (h0 : 0 ≤ (idx (ix2 n (0 : Fin 1))).toInt) (h1 : (idx (ix2 n (0 : Fin 1))).toInt < 30) :
    SD.resultIdx? (ix1 n) idx = some (ix1 b) ↔ (idx (ix2 n (0 : Fin 1))).toInt = (b.val : ℤ) := by
  unfold ScatterDims.resultIdx?
  split
  · rename_i h
    constructor
    · intro he
      have h2 := congrArg (fun i : Cert.ReferenceIdeal.S30.Idx => (i 0).val) (Option.some.inj he)
      have h3 : (SD.start (ix1 n) idx 0 + (SD.window (ix1 n) 0 : ℤ)).toNat = b.val := h2
      rw [scatter_start, scatter_window] at h3
      omega
    · intro he
      refine congrArg some (funext fun a => Fin.ext ?_)
      obtain rfl : a = 0 := Subsingleton.elim _ _
      show (SD.start (ix1 n) idx 0 + (SD.window (ix1 n) 0 : ℤ)).toNat = b.val
      rw [scatter_start, scatter_window]
      omega
  · rename_i h
    exfalso
    refine h fun a => ?_
    obtain rfl : a = 0 := Subsingleton.elim _ _
    rw [scatter_start, scatter_window]
    have : Cert.ReferenceIdeal.S30.size 0 = 30 := rfl
    rw [this]
    omega

/-- The word of a lane number below 30 is a given word exactly when that word, read signed, is the number. -/
theorem lane_word_iff (b : ℕ) (hb : b < 30) (w : BitVec 32) :
    BitVec.ofNat 32 b = w ↔ w.toInt = (b : ℤ) := by
  have hw := BitVec.toInt_eq_toNat_cond w
  have hlt : w.toNat < 2 ^ 32 := w.isLt
  constructor
  · intro h
    have hn : w.toNat = b := by rw [← h, BitVec.toNat_ofNat]; omega
    rw [hw, hn]; split <;> omega
  · intro h
    apply BitVec.eq_of_toNat_eq
    rw [BitVec.toNat_ofNat]
    rw [hw] at h
    split at h <;> omega

/-- The host's accumulating scatter at the ideal values, read at an element: the operand's element plus the sum of the
    update elements that land on it. -/
theorem scatterAdd_apply {s si su : Shape} (d : ScatterDims s si su) {w : ℕ} (x : FVec Ideal s .f32) (idx : IVec si w)
    (upd : FVec Ideal su .f32) (i : s.Idx) :
    Host.scatterAdd (F := Ideal) d x idx upd i = Ideal.hostScatterAdd d x idx upd i := rfl
/-- The reference's histogram at bin `b`: zero plus a one for every row whose bin word, read signed, is `b`. -/
theorem v22_apply (P T : (⟨2, ![1048576, 128]⟩ : Shape).Idx → EReal) (L : (⟨1, ![1048576]⟩ : Shape).Idx → BitVec 32)
    (hR : ∀ i, 0 ≤ (Cert.ReferenceIdeal.ReadP.val_main_v18 (F := Ideal) P T L i).toInt ∧ (Cert.ReferenceIdeal.ReadP.val_main_v18 (F := Ideal) P T L i).toInt < 30)
    (b : Fin 30) :
    Cert.ReferenceIdeal.ReadP.val_main_v22 (F := Ideal) P T L (ix1 b)
      = ∑ n : Fin 1048576, (if (Cert.ReferenceIdeal.ReadP.val_main_v18 (F := Ideal) P T L (ix1 n)).toInt = (b.val : ℤ) then (1 : EReal) else 0) := by
  unfold Cert.ReferenceIdeal.ReadP.val_main_v22
  rw [scatterAdd_apply]
  unfold Ideal.hostScatterAdd
  rw [Cert.ReferenceIdeal.ReadP.val_main_v20_apply, Cert.ReferenceIdeal.ReadP.val_main_cst_6_apply, Ideal.ofBits_def,
    Ideal.ofBits_zero_f32, zero_add, Finset.sum_filter]
  refine (Equiv.sum_comp rowIdxEquiv _).symm.trans ?_
  refine Finset.sum_congr rfl fun n _ => ?_
  beta_reduce
  rw [show rowIdxEquiv n = ix1 n from rfl]
  have h21 : Cert.ReferenceIdeal.ReadP.val_main_v21 (F := Ideal) P T L (ix2 n (0 : Fin 1))
      = Cert.ReferenceIdeal.ReadP.val_main_v18 (F := Ideal) P T L (ix1 n) := by
    rw [Cert.ReferenceIdeal.ReadP.val_main_v21_apply]
    exact congrArg _ (funext fun a => match a with | ⟨0, _⟩ => rfl)
  have h19 : Cert.ReferenceIdeal.ReadP.val_main_v19 (F := Ideal) (ix1 n) = 1 := by
    rw [Cert.ReferenceIdeal.ReadP.val_main_v19_apply, Cert.ReferenceIdeal.ReadP.val_main_cst_5_apply, Ideal.ofBits_def]
    exact ofBits_one_f32
  have hiff := scatter_lands_iff (Cert.ReferenceIdeal.ReadP.val_main_v21 (F := Ideal) P T L) n b
    (by rw [h21]; exact (hR _).1) (by rw [h21]; exact (hR _).2)
  rw [h21] at hiff
  rw [h19]
  exact if_congr hiff rfl rfl

end Counts

open Counts

theorem counts_bridge (V : (c : Dev nD) → (b : Ref sig .tc) → Buf (Elt Ideal) ((c : Thread nD τ).loc b)) (c : Dev nD) (P T : (⟨2, ![1048576, 128]⟩ : Shape).Idx → EReal) (L : (⟨1, ![1048576]⟩ : Shape).Idx → BitVec 32)
    (hB : ∀ n : Fin 1048576, binCol V c (tileOf n) (ix2 (rowOf n) (0 : Fin 1)) = Cert.ReferenceIdeal.ReadP.val_main_v18 (F := Ideal) P T L (ix1 n))
    (hR : ∀ i, 0 ≤ (Cert.ReferenceIdeal.ReadP.val_main_v18 (F := Ideal) P T L i).toInt ∧ (Cert.ReferenceIdeal.ReadP.val_main_v18 (F := Ideal) P T L i).toInt < 30)
    (b : Fin 30) :
    ((dat0 V c).arrAt 5 cfg0.N : S1x128.Idx → EReal) (ix2 (0 : Fin 1) (⟨b.val, by have := b.isLt; omega⟩ : Fin 128))
      = Cert.ReferenceIdeal.ReadP.val_main_v22 (F := Ideal) P T L (ix1 b) := by
  refine (congrFun (arrAt0_5_eq (F := Ideal) V c) _).trans ?_
  refine (histAt_apply V c ⟨b.val, by have := b.isLt; omega⟩ 255 (by have : cfg0.N = 256 := N_0; omega)).trans ?_
  rw [v22_apply P T L hR b, sum_rows_eq_sum_tiles]
  refine Finset.sum_congr rfl fun t _ => Finset.sum_congr rfl fun r _ => ?_
  have hb := hB (tileRowEquiv (t, r))
  have ht : tileOf (tileRowEquiv (t, r)) = ⟨t.val, by have := t.isLt; have : cfg0.N = 256 := N_0; omega⟩ :=
    Fin.ext (by show (4096 * t.val + r.val) / 4096 = t.val; have := r.isLt; omega)
  have hr : rowOf (tileRowEquiv (t, r)) = r :=
    Fin.ext (by show (4096 * t.val + r.val) % 4096 = r.val; have := r.isLt; omega)
  rw [ht, hr] at hb
  rw [hb]
  exact if_congr (lane_word_iff b.val b.isLt _) rfl rfl

end Cert.Bridge

end
-- ==== Proof.Bridge.Glue.lean ====
/-
  Stage 4, the host operations between the two regions, and what the second region finds. From the histogram the
  kernel's program computes the number of non-empty bins and the weight of every bin (the row count over the bin's
  count where the bin is non-empty, else zero) with the operations the reference applies to its own histogram, pads the
  weights with zeros to 128 lanes and re-lays the count as a 1×1 word; the first region's log-probabilities and bins
  pass through unchanged; and the first region finds the argument arrays as launched, the labels re-laid as a column.
-/
import proofs.«173433_j21406117003629_1_alg».proof.Proof.RefRead
import proofs.«173433_j21406117003629_1_alg».proof.Proof.Bridge.Basic
import proofs.«173433_j21406117003629_1_alg».proof.Proof.KI.Entry
import proofs.«173433_j21406117003629_1_alg».proof.Proof.LibKeepdims
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.Bridge

open Idealize.ShloMosaic Idealize.ShloMosaic.TcCoe Idealize.ShloMosaic.ValueIdx
open Idealize.SL Idealize.SL.Sem
open Cert.KernelIdeal Cert.KernelIdeal.Gen Cert.KernelIdeal.Hand
open scoped BigOperators

variable (m : (ℓ : Loc nD τ sig) → Buf (Elt Ideal) ℓ) (outs : Gen.Outs (F := Ideal)) (c : Dev nD)

/-- What the first region finds: the logits and targets as launched, the labels as a column. -/
theorem entry1_arg0 : E1 m c main_arg0 = m ((c : Thread nD τ).loc main_arg0) :=
  (Gen.V1_of m c main_arg0 (by decide)).trans rfl
theorem entry1_arg1 : E1 m c main_arg1 = m ((c : Thread nD τ).loc main_arg1) :=
  (Gen.V1_of m c main_arg1 (by decide)).trans rfl

/-- The one host operation before the first region re-lays the label vector as a column. -/
theorem V1_v0 : (Gen.V1 m c main_v0 : S1048576x1.Idx → BitVec 32)
    = shapeCast S1048576x1 (m ((c : Thread nD τ).loc main_arg2) : S1048576.Idx → BitVec 32) shapeCasts_S1048576_S1048576x1 := by
  dsimp only [Gen.V1, Gen.V0, Gen.hostOps0]
  after_results
  rfl

theorem entry1_labels (n : Fin 1048576) :
    (E1 m c main_v0 : S1048576x1.Idx → BitVec 32) (ix2 n (0 : Fin 1)) = (m ((c : Thread nD τ).loc main_arg2) : S1048576.Idx → BitVec 32) (ix1 n) := by
  show (Gen.V1 m c main_v0 : S1048576x1.Idx → BitVec 32) (ix2 n (0 : Fin 1)) = _
  rw [V1_v0]
  exact shapeCast_a_a1_apply _ _ n 0

/-- After the first region its three result arrays hold what the region left. -/
theorem V2_v1_0 : Gen.V2 m outs c main_v1_0 = outs 2 main_v1_0 c := by
  show Function.update (Function.update (Function.update (Gen.V1 m c) main_v1_0 (outs 2 main_v1_0 c)) main_v1_1 (outs 2 main_v1_1 c)) main_v1_2 (outs 2 main_v1_2 c) main_v1_0 = _
  rw [Function.update_of_ne (StableHlo.devRef_ne_of_ne (by decide)), Function.update_of_ne (StableHlo.devRef_ne_of_ne (by decide)), Function.update_self]
theorem V2_v1_1 : Gen.V2 m outs c main_v1_1 = outs 2 main_v1_1 c := by
  show Function.update (Function.update (Function.update (Gen.V1 m c) main_v1_0 (outs 2 main_v1_0 c)) main_v1_1 (outs 2 main_v1_1 c)) main_v1_2 (outs 2 main_v1_2 c) main_v1_1 = _
  rw [Function.update_of_ne (StableHlo.devRef_ne_of_ne (by decide)), Function.update_self]
theorem V2_v1_2 : Gen.V2 m outs c main_v1_2 = outs 2 main_v1_2 c := by
  show Function.update (Function.update (Function.update (Gen.V1 m c) main_v1_0 (outs 2 main_v1_0 c)) main_v1_1 (outs 2 main_v1_1 c)) main_v1_2 (outs 2 main_v1_2 c) main_v1_2 = _
  rw [Function.update_self]

/-- What the second region finds: the first region's log-probabilities and bins, -/
theorem entry5_logp : E5 m outs c main_v1_0 = outs 2 main_v1_0 c :=
  (Gen.V5_of m outs c main_v1_0 (by decide)).trans <| (Gen.V4_of m outs c main_v1_0 (by decide)).trans <|
    (Gen.V3_of m outs c main_v1_0 (by decide)).trans (V2_v1_0 m outs c)
theorem entry5_bin : E5 m outs c main_v1_1 = outs 2 main_v1_1 c :=
  (Gen.V5_of m outs c main_v1_1 (by decide)).trans <| (Gen.V4_of m outs c main_v1_1 (by decide)).trans <|
    (Gen.V3_of m outs c main_v1_1 (by decide)).trans (V2_v1_1 m outs c)

/-! ## The host chain between the regions, as functions of the 30 bin counts -/

/-- The first 30 lanes of a 1×128 row, as a vector of 30. -/
def lanes30 (h : FVec Ideal S1x128 .f32) : FVec Ideal S30 .f32 :=
  shapeCast S30 (extractStridedSlice S1x30 ![0, 0] h slices_S1x128_S1x30_0_0) shapeCasts_S1x30_S30

/-- The bin weights from the bin counts: the row count over the count where the count is positive, else zero. -/
def weights (h : FVec Ideal S30 .f32) : FVec Ideal S30 .f32 :=
  select (cmpf (F := Ideal) .ogt h (broadcastInDim S30 ![] bcast_S_S30 (constant (F := Ideal) S_ .f32 0x00000000#32)))
    (Host.divf (F := Ideal) (broadcastInDim S30 ![] bcast_S_S30 (constant (F := Ideal) S_ .f32 0x49800000#32))
      (maximumf (F := Ideal) h (broadcastInDim S30 ![] bcast_S_S30 (constant (F := Ideal) S_ .f32 0x3F800000#32))))
    (broadcastInDim S30 ![] bcast_S_S30 (id (constant (F := Ideal) S_ .f32 0x00000000#32)))

/-- The number of bins whose count is positive, as a float word. -/
def nonempty (h : FVec Ideal S30 .f32) : FVec Ideal S_ .f32 :=
  sitofp (F := Ideal) .f32
    (Host.reduce IntOp.addi
      (extui 32 (cmpf (F := Ideal) .ogt h (broadcastInDim S30 ![] bcast_S_S30 (constant (F := Ideal) S_ .f32 0x00000000#32))) natLt_1_32)
      (constantI S_ 32 0#32) reducesTo_S30_S_d0 h_S_)

/-- The reference computes its weights and its non-empty count from its histogram by these same functions. -/
theorem ref_weights (P T : (⟨2, ![1048576, 128]⟩ : Shape).Idx → EReal) (L : (⟨1, ![1048576]⟩ : Shape).Idx → BitVec 32) :
    Cert.ReferenceIdeal.ReadP.val_main_v34 (F := Ideal) P T L = weights (Cert.ReferenceIdeal.ReadP.val_main_v22 (F := Ideal) P T L) := rfl
theorem ref_nonempty (P T : (⟨2, ![1048576, 128]⟩ : Shape).Idx → EReal) (L : (⟨1, ![1048576]⟩ : Shape).Idx → BitVec 32) :
    Cert.ReferenceIdeal.ReadP.val_main_v27 (F := Ideal) P T L = nonempty (Cert.ReferenceIdeal.ReadP.val_main_v22 (F := Ideal) P T L) := rfl

/-- The kernel program's padded weight row: the weights of the histogram's first 30 lanes written over a zero row. -/
theorem V5_v20 : (Gen.V5 m outs c main_v20 : S1x128.Idx → EReal)
    = Host.scatter scatter_S1x128_S2_S30_0_0_01_0 (fun _ b => b)
        (broadcastInDim S1x128 ![] bcast_S_S1x128 (constant (F := Ideal) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        (weights (lanes30 (outs 2 main_v1_2 c))) := by
  dsimp only [Gen.V5, Gen.hostOps1_2]
  after_results
  simp only [StableHlo.TRef.ofBuf, StableHlo.TRef.toBuf, cast_eq]
  rw [V2_v1_2]
  rfl

/-- The kernel program's count word: the non-empty count of the histogram's first 30 lanes, re-laid 1×1. -/
theorem V5_v21 : (Gen.V5 m outs c main_v21 : S1x1.Idx → EReal)
    = shapeCast S1x1 (nonempty (lanes30 (outs 2 main_v1_2 c))) shapeCasts_S_S1x1 := by
  dsimp only [Gen.V5, Gen.hostOps1_2]
  after_results
  rw [V2_v1_2]
  rfl

/-! ## Writing a vector of 30 over the first lanes of a row -/

/-- Setting, in list order, entry `g k` of a function to `v k`: an entry no listed `k` names is unchanged. -/
theorem foldl_set_of_forall_ne {ι κ α : Type} [DecidableEq ι] (g : κ → ι) (v : κ → α) (i : ι) :
    ∀ (l : List κ) (x : ι → α), (∀ k ∈ l, g k ≠ i) →
      (l.foldl (fun r k => fun i' => if i' = g k then v k else r i') x) i = x i := by
  intro l
  induction l with
  | nil => intro x _; rfl
  | cons a t ih =>
    intro x h
    rw [List.foldl_cons, ih _ (fun k hk => h k (List.mem_cons_of_mem a hk))]
    exact if_neg (fun e => h a List.mem_cons_self e.symm)

/-- Setting, in list order, entry `g k` of a function to `v k`, for an injective `g` and a list without repeats:
    the entry a listed `n` names ends at `v n`. -/
theorem foldl_set_of_mem {ι κ α : Type} [DecidableEq ι] (g : κ → ι) (hg : Function.Injective g) (v : κ → α) (n : κ) :
    ∀ (l : List κ) (x : ι → α), n ∈ l → l.Nodup →
      (l.foldl (fun r k => fun i' => if i' = g k then v k else r i') x) (g n) = v n := by
  intro l
  induction l with
  | nil => intro x h; exact absurd h List.not_mem_nil
  | cons a t ih =>
    intro x hn hnd
    rw [List.foldl_cons]
    rcases List.mem_cons.mp hn with rfl | hn'
    · rw [foldl_set_of_forall_ne g v (g n) t _ (fun k hk e => (List.nodup_cons.mp hnd).1 (hg e ▸ hk))]
      exact if_pos rfl
    · exact ih _ hn' (List.nodup_cons.mp hnd).2

/-- Lane `n` of row 0, for `n` below 30. -/
abbrev padIdx (n : Fin S30.numel) : S1x128.Idx :=
  ix2 (0 : Fin 1) (⟨n.val, lt_of_lt_of_le n.isLt (by decide : S30.numel ≤ 128)⟩ : Fin 128)

theorem padIdx_injective : Function.Injective padIdx := by
  intro a b h
  have := congrArg (fun i : S1x128.Idx => (i 1).val) h
  exact Fin.ext this

/-- With both start indices zero, the `n`-th update lands on lane `n` of row 0. -/
theorem pad_resultIdx (idx : IVec S2 32) (hidx : ∀ k, idx k = 0#32) (n : Fin S30.numel) :
    scatter_S1x128_S2_S30_0_0_01_0.resultIdx? (S30.rowMajor.symm n) idx = some (padIdx n) := by
  have hstart : ∀ a, scatter_S1x128_S2_S30_0_0_01_0.start (S30.rowMajor.symm n) idx a = 0 := by
    intro a; unfold ScatterDims.start; split
    · rw [hidx]; rfl
    · rfl
  have hn : ((S30.rowMajor.symm n) 0).val = n.val := by
    have := Shape.rowMajor_val_one (S30.rowMajor.symm n)
    rw [Equiv.apply_symm_apply] at this
    exact this.symm
  have hwin : ∀ a, scatter_S1x128_S2_S30_0_0_01_0.window (S30.rowMajor.symm n) a = (padIdx n a).val := by
    intro a
    match a with
    | ⟨0, _⟩ =>
      show scatter_S1x128_S2_S30_0_0_01_0.window (S30.rowMajor.symm n) 0 = 0
      unfold ScatterDims.window
      rw [dif_neg (by decide)]
    | ⟨1, _⟩ =>
      show scatter_S1x128_S2_S30_0_0_01_0.window (S30.rowMajor.symm n) 1 = n.val
      unfold ScatterDims.window
      rw [dif_pos (by decide)]
      exact hn
  unfold ScatterDims.resultIdx?
  split
  · congr 1; funext a; apply Fin.ext
    show (scatter_S1x128_S2_S30_0_0_01_0.start (S30.rowMajor.symm n) idx a + (scatter_S1x128_S2_S30_0_0_01_0.window (S30.rowMajor.symm n) a : ℤ)).toNat = (padIdx n a).val
    rw [hstart, hwin]; simp
  · rename_i h
    exfalso; apply h; intro a
    rw [hstart, hwin]
    have := (padIdx n a).isLt
    constructor
    · simp
    · simpa using this

/-- A vector of 30 written at start `(0, 0)` over a 1×128 row: lane `q` holds the vector's entry `q` below 30 and the
    row's own entry from 30 on. -/
theorem scatter_pad_apply {α : Type} (x : S1x128.Idx → α) (idx : IVec S2 32) (hidx : ∀ k, idx k = 0#32) (upd : S30.Idx → α) (q : Fin 128) :
    Host.scatter scatter_S1x128_S2_S30_0_0_01_0 (fun _ b => b) x idx upd (ix2 (0 : Fin 1) q)
      = if h : q.val < 30 then upd (ix1 (⟨q.val, h⟩ : Fin 30)) else x (ix2 (0 : Fin 1) q) := by
  unfold Host.scatter
  simp only [pad_resultIdx idx hidx]
  by_cases h : q.val < 30
  · rw [dif_pos h]
    have e : ix2 (0 : Fin 1) q = padIdx (⟨q.val, h⟩ : Fin S30.numel) := rfl
    rw [e, foldl_set_of_mem padIdx padIdx_injective _ _ _ _ (List.mem_finRange _) (List.nodup_finRange _)]
    refine congrArg upd ?_
    rw [Equiv.symm_apply_eq]
    apply Fin.ext
    show q.val = ((⟨1, ![30]⟩ : Shape).rowMajor (ix1 (⟨q.val, h⟩ : Fin 30))).val
    rw [Shape.rowMajor_val_one]
  · rw [dif_neg h]
    refine foldl_set_of_forall_ne padIdx _ _ _ _ (fun k _ e => h ?_)
    have := congrArg (fun i : S1x128.Idx => (i 1).val) e
    have hk : k.val < 30 := k.isLt
    exact (show q.val = k.val from this.symm) ▸ hk

/-! ## The second region's weights and count -/

/-- Lane `b` of the first 30 lanes of a row is the row's lane `b`. -/
theorem lanes30_apply (h : FVec Ideal S1x128 .f32) (b : Fin 30) :
    lanes30 h (ix1 b) = h (ix2 (0 : Fin 1) (⟨b.val, by have := b.isLt; omega⟩ : Fin 128)) := by
  unfold lanes30
  refine (shapeCast_apply _ shapeCasts_S1x30_S30 (ix1 b) (ix2 (0 : Fin 1) b) ?_).trans ?_
  · rw [Shape.rowMajor_val_two, Shape.rowMajor_val_one]
    show 0 * 30 + b.val = b.val
    rw [Nat.zero_mul, Nat.zero_add]
  · exact extractStridedSlice_apply _ _ _ _ _ (fun ax => by
      match ax with
      | ⟨0, _⟩ => rfl
      | ⟨1, _⟩ => exact (Nat.zero_add _).symm)

/-- The two start indices of the padding write are zero. -/
theorem pad_start_zero (k : S2.Idx) :
    (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) k = 0#32 := by
  have h2 : (k 0).val < 2 := (k 0).isLt
  by_cases hk : (k 0).val = 0
  · exact concatenate_pair_apply_left (0 : Fin S2.rank) _ _ concatenates_S1_S1_S2_d0 k rfl (ix1 (0 : Fin 1))
      (fun b => by match b with | ⟨0, _⟩ => exact hk.symm)
  · have hk1 : (k 0).val = 1 := by omega
    exact concatenate_pair_apply_right (0 : Fin S2.rank) _ _ concatenates_S1_S1_S2_d0 k rfl rfl (ix1 (0 : Fin 1))
      (fun b hb => by match b with | ⟨0, _⟩ => exact absurd rfl hb)
      (by show 0 + 1 = (k 0).val; rw [hk1])

/-- the padded weight row and the non-empty count, computed from the histogram as the reference computes its own. -/
theorem entry5_weights (P T : (⟨2, ![1048576, 128]⟩ : Shape).Idx → EReal) (L : (⟨1, ![1048576]⟩ : Shape).Idx → BitVec 32)
    (hC : ∀ b : Fin 30, (outs 2 main_v1_2 c : S1x128.Idx → EReal) (ix2 (0 : Fin 1) (⟨b.val, by have := b.isLt; omega⟩ : Fin 128)) = Cert.ReferenceIdeal.ReadP.val_main_v22 (F := Ideal) P T L (ix1 b))
    (j : Fin 128) :
    (E5 m outs c main_v20 : S1x128.Idx → EReal) (ix2 (0 : Fin 1) j)
      = if h : j.val < 30 then Cert.ReferenceIdeal.ReadP.val_main_v34 (F := Ideal) P T L (ix1 (⟨j.val, h⟩ : Fin 30)) else (0 : EReal) := by
  have hv : lanes30 (outs 2 main_v1_2 c) = Cert.ReferenceIdeal.ReadP.val_main_v22 (F := Ideal) P T L := by
    funext i
    rw [eq_ix1 i]
    exact (lanes30_apply _ _).trans (hC (i 0))
  show (Gen.V5 m outs c main_v20 : S1x128.Idx → EReal) (ix2 (0 : Fin 1) j) = _
  rw [V5_v20, scatter_pad_apply _ _ pad_start_zero, hv, ← ref_weights]
  by_cases h : j.val < 30
  · rw [dif_pos h, dif_pos h]
  · rw [dif_neg h, dif_neg h]
    show Ideal.ofBits .f32 0x00000000#32 = 0
    exact Ideal.ofBits_zero_f32
theorem entry5_nonempty (P T : (⟨2, ![1048576, 128]⟩ : Shape).Idx → EReal) (L : (⟨1, ![1048576]⟩ : Shape).Idx → BitVec 32)
    (hC : ∀ b : Fin 30, (outs 2 main_v1_2 c : S1x128.Idx → EReal) (ix2 (0 : Fin 1) (⟨b.val, by have := b.isLt; omega⟩ : Fin 128)) = Cert.ReferenceIdeal.ReadP.val_main_v22 (F := Ideal) P T L (ix1 b)) :
    (E5 m outs c main_v21 : S1x1.Idx → EReal) (ix2 (0 : Fin 1) (0 : Fin 1)) = Cert.ReferenceIdeal.ReadP.val_main_v27 (F := Ideal) P T L ix0 := by
  have hv : lanes30 (outs 2 main_v1_2 c) = Cert.ReferenceIdeal.ReadP.val_main_v22 (F := Ideal) P T L := by
    funext i
    rw [eq_ix1 i]
    exact (lanes30_apply _ _).trans (hC (i 0))
  show (Gen.V5 m outs c main_v21 : S1x1.Idx → EReal) (ix2 (0 : Fin 1) (0 : Fin 1)) = _
  rw [V5_v21, hv, ← ref_nonempty]
  exact shapeCast_apply _ shapeCasts_S_S1x1 _ _ (by
    rw [Shape.rowMajor_val_two]
    exact (Shape.rowMajorPi_zero _ _))

theorem V6_v22 : Gen.V6 m outs c main_v22 = outs 6 main_v22 c := by
  show Function.update (Gen.V5 m outs c) main_v22 (outs 6 main_v22 c) main_v22 = _
  rw [Function.update_self]

theorem V7_v23 : (Gen.V7 m outs c main_v23 : S_.Idx → EReal)
    = shapeCast S_ (Gen.V6 m outs c main_v22 : S1x1.Idx → EReal) shapeCasts_S1x1_S_ := by
  dsimp only [Gen.V7, Gen.hostOps2]
  after_results
  rfl

/-- The result buffer at the end is the second region's result word, re-laid as a scalar. -/
theorem result_word : (Gen.V7 m outs c main_v23 : S_.Idx → EReal) ix0 = (outs 6 main_v22 c : S1x1.Idx → EReal) (ix2 (0 : Fin 1) (0 : Fin 1)) := by
  rw [V7_v23, V6_v22]
  exact shapeCast_apply _ shapeCasts_S1x1_S_ _ _ (by
    rw [Shape.rowMajor_val_two]
    exact (Shape.rowMajorPi_zero _ _).symm)

end Cert.Bridge

end
-- ==== Proof.KI.Blocks1.lean ====
/-
  From blocks to arrays, second region: a tile's block of the log-probability and bin columns read at an index is the
  array at the tile's row; the weight row and the non-empty count are read whole at every tile; the result word after
  the region is the running loss after the last tile.
-/
import proofs.«173433_j21406117003629_1_alg».proof.Proof.Gen.KernelIdeal.Launch
import proofs.«173433_j21406117003629_1_alg».proof.Proof.Gen.KernelIdeal.Skeleton
import proofs.«173433_j21406117003629_1_alg».proof.Proof.Gen.KernelIdeal.Points
import proofs.«173433_j21406117003629_1_alg».proof.Proof.KI.Dat1
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Region1

variable (V : (c : Dev nD) → (b : Ref sig .tc) → Buf (Elt F) ((c : Thread nD τ).loc b))

/-- Row `r` of tile `t` as a row of the array. -/
abbrev rowAt1 (t : Fin cfg1.N) (r : Fin 4096) : Fin 1048576 := ⟨4096 * t.val + r.val, by have := t.isLt; have : cfg1.N = 256 := N_1; have := r.isLt; omega⟩

/-- The last tile. -/
abbrev lastTile1 : Fin cfg1.N := ⟨255, by have : cfg1.N = 256 := N_1; omega⟩

/-- The block index of every window at every tile: the two row-blocked windows sit at block (t, 0), the weight row, the
    non-empty count and the result word at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem lpblk_apply (c : Dev nD) (t : Fin cfg1.N) (r : Fin 4096) (u : Fin 1) :
    lpblk V c t (ix2 r u) = (V c main_v1_0 : S1048576x1.Idx → F .f32) (ix2 (rowAt1 t r) u) := by
  obtain ⟨e0, e1, -⟩ := idx_facts1 t
  show iblk1 V c 0 t (ix2 r u) = _
  unfold iblk1
  rw [View.read_apply]
  show (V c main_v1_0 : S1048576x1.Idx → F .f32) _ = (V c main_v1_0 : S1048576x1.Idx → F .f32) _
  congr 1
  funext a
  apply Fin.ext
  match a with
  | ⟨0, _⟩ => show win1_0.index t (0 : Fin 2) * 4096 + 1 * r.val = 4096 * t.val + r.val; rw [e0]; omega
  | ⟨1, _⟩ => show win1_0.index t (1 : Fin 2) * 1 + 1 * u.val = u.val; rw [e1]; omega
theorem bblk_apply (c : Dev nD) (t : Fin cfg1.N) (r : Fin 4096) (u : Fin 1) :
    bblk V c t (ix2 r u) = (V c main_v1_1 : S1048576x1.Idx → BitVec 32) (ix2 (rowAt1 t r) u) := by
  obtain ⟨-, -, e0, e1, -⟩ := idx_facts1 t
  show iblk1 V c 1 t (ix2 r u) = _
  unfold iblk1
  rw [View.read_apply]
  show (V c main_v1_1 : S1048576x1.Idx → BitVec 32) _ = (V c main_v1_1 : S1048576x1.Idx → BitVec 32) _
  congr 1
  funext a
  apply Fin.ext
  match a with
  | ⟨0, _⟩ => show win1_1.index t (0 : Fin 2) * 4096 + 1 * r.val = 4096 * t.val + r.val; rw [e0]; omega
  | ⟨1, _⟩ => show win1_1.index t (1 : Fin 2) * 1 + 1 * u.val = u.val; rw [e1]; omega

/-- The weight row's, the non-empty count's and the result word's one block is the whole array: block index (0, 0) at every tile. -/
theorem off1_2 (t : Fin cfg1.N) : (fun a => win1_2.index t a * main_v20.ty.shape.size a) = fun _ => 0 := by
  obtain ⟨-, -, -, -, e0, e1, -⟩ := idx_facts1 t
  funext a
  match a with
  | ⟨0, _⟩ => show win1_2.index t (0 : Fin 2) * 1 = 0; rw [e0]
  | ⟨1, _⟩ => show win1_2.index t (1 : Fin 2) * 128 = 0; rw [e1]
theorem off1_3 (t : Fin cfg1.N) : (fun a => win1_3.index t a * main_v21.ty.shape.size a) = fun _ => 0 := by
  obtain ⟨-, -, -, -, -, -, e0, e1, -⟩ := idx_facts1 t
  funext a
  match a with
  | ⟨0, _⟩ => show win1_3.index t (0 : Fin 2) * 1 = 0; rw [e0]
  | ⟨1, _⟩ => show win1_3.index t (1 : Fin 2) * 1 = 0; rw [e1]
theorem off1_4 (t : Fin cfg1.N) : (fun a => win1_4.index t a * main_v22.ty.shape.size a) = fun _ => 0 := by
  obtain ⟨-, -, -, -, -, -, -, -, e0, e1⟩ := idx_facts1 t
  funext a
  match a with
  | ⟨0, _⟩ => show win1_4.index t (0 : Fin 2) * 1 = 0; rw [e0]
  | ⟨1, _⟩ => show win1_4.index t (1 : Fin 2) * 1 = 0; rw [e1]

theorem wblk_eq (c : Dev nD) (t : Fin cfg1.N) : wblk V c t = (V c main_v20 : S1x128.Idx → F .f32) := by
  show iblk1 V c 2 t = _
  unfold iblk1
  exact Memref.read_access_unit_zero (Elt F) main_v20 (off1_2 t) (fun a => by rw [congrFun (off1_2 t) a]; simp) _
theorem nblk_eq (c : Dev nD) (t : Fin cfg1.N) : nblk V c t = (V c main_v21 : S1x1.Idx → F .f32) := by
  show iblk1 V c 3 t = _
  unfold iblk1
  exact Memref.read_access_unit_zero (Elt F) main_v21 (off1_3 t) (fun a => by rw [congrFun (off1_3 t) a]; simp) _

theorem lossAt_congr (c : Dev nD) {n n' : ℕ} (h : n < cfg1.N) (h' : n' < cfg1.N) (e : n = n') :
    lossAt V c n h = lossAt V c n' h' := by subst e; rfl

/-- The one write-back, at the last tile, writes the running loss after the last tile. -/
theorem flushed1_4_eq (c : Dev nD) (t : Fin cfg1.N) (hf : (cfg1.win 4).flush t = true) :
    (dat1 V c).flushed 4 t = ((cfg1.win 4).blk t).view.read (Elt F) (lossAt V c 255 (by have : cfg1.N = 256 := N_1; omega)) := by
  have hN : cfg1.N = 256 := N_1
  have h1 : t.val = 255 := by have := (flush1_4 t).mp hf; have := t.isLt; omega
  show (cfg1.win 4).cut (grid1.coords t) ((dat1 V c).after 4 t) = _
  rw [after1_4, lossAt_congr V c t.isLt (by omega) h1]
  exact (Memref.read_access_unit_zero (Elt F) main_v22 (off1_4 t) (fun a => by rw [congrFun (off1_4 t) a]; simp) _).symm

/-- The result word after the region: the running loss after the last tile. -/
theorem arrAt1_4_eq (c : Dev nD) :
    ((dat1 V c).arrAt 4 cfg1.N : S1x1.Idx → F .f32) = lossAt V c 255 (by have : cfg1.N = 256 := N_1; omega) := by
  refine (dat1 V c).arrAt_eq_of_cover 4 _ (flushed1_4_eq V c) fun i => ⟨lastTile1, (flush1_4 _).mpr rfl, ?_⟩
  show i ∈ ((View.whole main_v22).slice (win1_4.rect lastTile1)).set
  rw [View.set_slice_whole, Rect.mem_set_unit]
  obtain ⟨-, -, -, -, -, -, -, -, e0, e1⟩ := idx_facts1 lastTile1
  have hi0 : (i 0).val < 1 := (i 0).isLt
  have hi1 : (i 1).val < 1 := (i 1).isLt
  intro a
  match a with
  | ⟨0, _⟩ =>
    show win1_4.index lastTile1 (0 : Fin 2) * 1 ≤ (i 0).val ∧ (i 0).val < win1_4.index lastTile1 (0 : Fin 2) * 1 + 1
    rw [e0]; omega
  | ⟨1, _⟩ =>
    show win1_4.index lastTile1 (1 : Fin 2) * 1 ≤ (i 1).val ∧ (i 1).val < win1_4.index lastTile1 (1 : Fin 2) * 1 + 1
    rw [e1]; omega
/-- The arrays the region only reads end as it found them. -/
theorem arrAt1_in (c : Dev nD) (w : Fin cfg1.W) (hw : w.val < 4) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨n + 4, _⟩, h => exact absurd h (by simp)
  rw [(dat1 V c).arrAt_in w hin cfg1.N, A_eq1]

end Region1

end Cert.KernelIdeal.Hand

end
-- ==== Proof.Bridge.Loss.lean ====
/-
  Stage 5, the weighted sum. The kernel adds, tile by tile from zero, the tile's sum over its rows of
  `(0 − logp_n) · ((Σ_j [j = bin_n]·weight_j) / max (nonempty, 1)) / 2^20`; the reference sums over all rows
  `(−logp_n) · (weight_(bin_n) / max (nonempty, 1)) / 2^20` from zero. A bin is one of 0 … 29, so the lane sum picks
  exactly the gathered weight; sums of extended reals may be regrouped tile by tile.
-/
import proofs.«173433_j21406117003629_1_alg».proof.Proof.RefRead
import proofs.«173433_j21406117003629_1_alg».proof.Proof.Bridge.Basic
import proofs.«173433_j21406117003629_1_alg».proof.Proof.KI.Blocks1
import proofs.«173433_j21406117003629_1_alg».proof.Proof.LibKeepdims
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.Bridge

open Idealize.ShloMosaic Idealize.ShloMosaic.TcCoe Idealize.ShloMosaic.ValueIdx
open Idealize.SL Idealize.SL.Sem
open Cert.KernelIdeal Cert.KernelIdeal.Gen Cert.KernelIdeal.Hand
open scoped BigOperators

/-! ## The tile's payload read at its one word -/

/-- At the ideal values the sum of an `[a, b]` single-precision vector over its first axis from the zero word, read at
    column `q`, is the sum of the column. -/
theorem sum_cols_f32 {a b : ℕ} (v : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ v 0x00000000#32 h hφ hacc (ix1 q) = ∑ k : Fin a, v (ix2 k q) :=
  (Ideal.multiReduction_add_single v 0x00000000#32 h hφ hacc (ix1 q)).trans
    (Finset.sum_congr rfl fun k _ => congrArg v (funext fun ax => Fin.ext (by
      match ax with
      | ⟨0, _⟩ => rfl
      | ⟨1, _⟩ => rfl)))

/-- The same over the second axis, read at row `p`: the sum of the row. -/
theorem sum_rows_f32 {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) :=
  multiReduction_add_rows v 0x00000000#32 h hφ hacc p

/-- The indicator of lane `j` against a bin word `b`, as the kernel computes it: the comparison's bit widened to a word
    and read as a signed integer. -/
def laneMask (j : Fin 128) (b : BitVec 32) : EReal :=
  ((((IntOp.cmpi .eq (BitVec.ofNat 32 j.val) b).setWidth 32).toInt : ℝ) : EReal)

/-- One row's weight as the kernel computes it: the lane sum of the bin's indicator times the weight row. -/
def laneSum (b : BitVec 32) (w : FVec Ideal S1x128 .f32) : EReal :=
  ∑ j : Fin 128, laneMask j b * w (ix2 (0 : Fin 1) j)

/-- One row's term of a tile's sum: `((0 − x) · (laneSum / max (nn, 1))) / 2^20`. -/
def rowTerm (x : EReal) (b : BitVec 32) (w : FVec Ideal S1x128 .f32) (nn : EReal) : EReal :=
  Ideal.div ((Ideal.ofBits .f32 0x00000000#32 - x) * Ideal.div (laneSum b w) (max nn (Ideal.ofBits .f32 0x3F800000#32)))
    (Ideal.ofBits .f32 0x49800000#32)

/-- The tile's payload at its one word: the previous word plus the sum over the tile's rows of the rows' terms. -/
theorem k1_pay2_apply (lp : FVec Ideal S4096x1 .f32) (b : IVec S4096x1 32) (w : FVec Ideal S1x128 .f32) (nn prev : FVec Ideal S1x1 .f32) :
    k1_pay2 (F := Ideal) lp b w nn prev (ix2 (0 : Fin 1) (0 : Fin 1))
      = prev (ix2 (0 : Fin 1) (0 : Fin 1))
        + ∑ r : Fin 4096, rowTerm (lp (ix2 r (0 : Fin 1))) (b (ix2 r (0 : Fin 1))) w (nn (ix2 (0 : Fin 1) (0 : Fin 1))) := by
  unfold k1_pay2
  simp only [shapeCast_self]
  rw [addf_apply, shapeCast_a_a1_apply]
  refine congrArg (prev (ix2 (0 : Fin 1) (0 : Fin 1)) + ·) ((sum_cols_f32 _ _ _ _ (0 : Fin 1)).trans (Finset.sum_congr rfl fun r _ => ?_))
  rw [divf_apply, mulf_apply, subf_apply, divf_apply, broadcast_apply, broadcast_apply, shapeCast_a_a1_apply,
    broadcastTo_1b_ab_apply, maximumf_apply, broadcast_apply]
  unfold rowTerm laneSum
  refine congrArg (fun z => Ideal.div ((Ideal.ofBits .f32 0x00000000#32 - lp (ix2 r (0 : Fin 1))) * Ideal.div z _) _) ?_
  refine (sum_rows_f32 _ _ _ _ r).trans (Finset.sum_congr rfl fun j _ => ?_)
  rw [mulf_apply, sitofp_apply, extui_apply, broadcastTo_1b_ab_apply]
  refine congrArg (· * w (ix2 (0 : Fin 1) j)) ?_
  show (((((IntOp.cmpi .eq (iota .tc S4096x128 32 [1] iota_S4096x128_d1_w32 (ix2 r j))
    (broadcastTo S4096x128 b broadcasts_S4096x1_S4096x128 (ix2 r j))).setWidth 32).toInt : ℝ) : EReal)) = laneMask j (b (ix2 r (0 : Fin 1)))
  rw [iota_single_apply, broadcastTo_a1_ab_apply]
  rfl

/-- The first tile starts from the zero word. -/
theorem k1_pay1_apply : k1_pay1 (F := Ideal) (ix2 (0 : Fin 1) (0 : Fin 1)) = 0 := by
  unfold k1_pay1
  simp only [shapeCast_self]
  rw [broadcast_apply]
  exact Ideal.ofBits_zero_f32

/-! ## The lane sum picks the bin's weight -/

/-- For a bin word between 0 and 29 the lane's indicator is one at the bin's lane and zero elsewhere. -/
theorem laneMask_eq (j : Fin 128) (b : BitVec 32) (h0 : 0 ≤ b.toInt) (h1 : b.toInt < 30) :
    laneMask j b = if j.val = b.toInt.toNat then (1 : EReal) else 0 := by
  unfold laneMask
  have hb : b.toNat = b.toInt.toNat ∧ b.toNat < 30 := by
    have e := BitVec.toInt_eq_toNat_cond b; have := b.isLt; omega
  by_cases hj : j.val = b.toInt.toNat
  · rw [if_pos hj]
    have e1 : BitVec.ofNat 32 j.val = b := by
      apply BitVec.eq_of_toNat_eq; rw [BitVec.toNat_ofNat]; have := j.isLt; omega
    have e2 : IntOp.cmpi .eq (BitVec.ofNat 32 j.val) b = 1#1 := StableHlo.Predicate.cmpi_eq_iff.mpr e1
    rw [e2]
    have e3 : ((1#1 : BitVec 1).setWidth 32).toInt = 1 := by decide
    rw [e3]; norm_num
  · rw [if_neg hj]
    have e2 : IntOp.cmpi .eq (BitVec.ofNat 32 j.val) b = 0#1 := eq_zero_of_ne_one fun h => hj (by
      have e1 := StableHlo.Predicate.cmpi_eq_iff.mp h
      have := congrArg BitVec.toNat e1
      rw [BitVec.toNat_ofNat] at this
      have := j.isLt; omega)
    rw [e2]
    have e3 : ((0#1 : BitVec 1).setWidth 32).toInt = 0 := by decide
    rw [e3]; norm_num

/-- So the lane sum is the weight row at the bin's lane: one lane contributes `1 · w`, every other `0 · w = 0`. -/
theorem laneSum_eq (b : BitVec 32) (w : FVec Ideal S1x128 .f32) (h0 : 0 ≤ b.toInt) (h1 : b.toInt < 30) :
    laneSum b w = w (ix2 (0 : Fin 1) (⟨b.toInt.toNat, by omega⟩ : Fin 128)) := by
  unfold laneSum
  rw [Finset.sum_eq_single (⟨b.toInt.toNat, by omega⟩ : Fin 128)]
  · rw [laneMask_eq _ _ h0 h1, if_pos rfl, one_mul]
  · intro j _ hj
    rw [laneMask_eq _ _ h0 h1, if_neg (fun h => hj (Fin.ext h)), zero_mul]
  · intro h; exact absurd (Finset.mem_univ _) h

/-! ## The reference's row term -/

/-- The reference's term of one row from its log-probability `x`, its gathered weight `g` and the count `nn`:
    `((−x) · (g / max (nn, 1))) / 2^20`. -/
def refRow (x g nn : EReal) : EReal :=
  Ideal.div ((-x) * Ideal.div g (max nn (Ideal.ofBits .f32 0x3F800000#32))) (Ideal.ofBits .f32 0x49800000#32)

/-- A row's term as the kernel computes it, when the row's bin word is between 0 and 29 and the weight row carries a
    30-entry table in its first lanes: the lane sum is the table at the bin, and `0 − x = −x`. -/
theorem rowTerm_eq (x x' : EReal) (b bw : BitVec 32) (w : FVec Ideal S1x128 .f32) (nn nn' : EReal)
    (tbl : (⟨1, ![30]⟩ : Shape).Idx → EReal) (hx : x = x') (hb : b = bw) (hn : nn = nn')
    (hW : ∀ j : Fin 128, w (ix2 (0 : Fin 1) j) = if h : j.val < 30 then tbl (ix1 (⟨j.val, h⟩ : Fin 30)) else (0 : EReal))
    (h0 : 0 ≤ bw.toInt) (h1 : bw.toInt < 30) :
    rowTerm x b w nn = refRow x' (tbl (ix1 (⟨bw.toInt.toNat, by omega⟩ : Fin 30))) nn' := by
  subst hx hb hn
  unfold rowTerm refRow
  rw [laneSum_eq _ _ h0 h1, hW, dif_pos (show b.toInt.toNat < 30 by omega)]
  simp only [Ideal.ofBits_zero_f32, zero_sub]

/-- The gather of a 30-entry table at a column of start indices, read at a row whose index word is between 0 and 29:
    the table at that word (no clamping happens). -/
theorem gather30_apply (d : GatherDims (⟨1, ![30]⟩ : Shape) (⟨2, ![1048576, 1]⟩ : Shape) (⟨1, ![1048576]⟩ : Shape))
    (hcoll : d.collapsedSliceDims = [0]) (hob : d.operandBatchingDims = [])
    (hsim : d.startIndexMap = [0]) (hivd : d.indexVectorDim = 1)
    (tbl : (⟨1, ![30]⟩ : Shape).Idx → EReal) (idx : IVec ⟨2, ![1048576, 1]⟩ 32) (n : Fin 1048576) (bw : BitVec 32)
    (hidx : idx (StableHlo.Predicate.ixP n) = bw) (h0 : 0 ≤ bw.toInt) (h1 : bw.toInt < 30) :
    Host.gather d tbl idx (ix1 n) = tbl (ix1 (⟨bw.toInt.toNat, by omega⟩ : Fin 30)) := by
  have e : (ix1 n : (⟨1, ![1048576]⟩ : Shape).Idx) = Shape.Idx.ofFin n := funext fun a => Fin.ext (by match a with | ⟨0, _⟩ => rfl)
  refine (congrArg (Host.gather d tbl idx) e).trans ?_
  refine (StableHlo.Predicate.gather_take d hcoll hob hsim hivd tbl idx n (by decide)).trans ?_
  refine congrArg tbl (funext fun a => Fin.ext ?_)
  match a with
  | ⟨0, _⟩ =>
    show min (idx (StableHlo.Predicate.ixP n)).toInt.toNat (30 - 1) = bw.toInt.toNat
    rw [hidx]
    omega

/-- A word that is not negative is kept by "add 30 if negative". -/
theorem select_neg_keep (bw y : BitVec 32) (h0 : 0 ≤ bw.toInt) : Scalar.select (IntOp.cmpi .slt bw 0#32) y bw = bw := by
  have hlt : IntOp.cmpi .slt bw 0#32 = 0#1 := by
    apply eq_zero_of_ne_one
    intro h
    simp only [IntOp.cmpi, StableHlo.Predicate.ofBool_eq_one_iff, BitVec.slt_iff_toInt_lt] at h
    have e0 : (0#32 : BitVec 32).toInt = 0 := by decide
    omega
  rw [hlt, select_zero]

/-- The reference's start index of row `n` is the row's bin when the bin is not negative. -/
theorem v40_row (P T : (⟨2, ![1048576, 128]⟩ : Shape).Idx → EReal) (L : (⟨1, ![1048576]⟩ : Shape).Idx → BitVec 32) (n : Fin 1048576)
    (h0 : 0 ≤ (Cert.ReferenceIdeal.ReadP.val_main_v18 (F := Ideal) P T L (ix1 n)).toInt) :
    Cert.ReferenceIdeal.ReadP.val_main_v40 (F := Ideal) P T L (StableHlo.Predicate.ixP n)
      = Cert.ReferenceIdeal.ReadP.val_main_v18 (F := Ideal) P T L (ix1 n) := by
  have hi : Cert.ReferenceIdeal.ReadP.idx_main_v40 (StableHlo.Predicate.ixP n) = ix1 n :=
    funext fun a => Fin.ext (by match a with | ⟨0, _⟩ => rfl)
  rw [Cert.ReferenceIdeal.ReadP.val_main_v40_apply, hi, Cert.ReferenceIdeal.ReadP.val_main_v39_apply,
    Cert.ReferenceIdeal.ReadP.val_main_v36_apply, Cert.ReferenceIdeal.ReadP.val_main_v35_apply,
    Cert.ReferenceIdeal.ReadP.val_main_c_13_apply]
  exact select_neg_keep _ _ h0

/-- The gathered weight of row `n`: the weights at the row's bin. -/
theorem v41_row (P T : (⟨2, ![1048576, 128]⟩ : Shape).Idx → EReal) (L : (⟨1, ![1048576]⟩ : Shape).Idx → BitVec 32) (n : Fin 1048576)
    (h0 : 0 ≤ (Cert.ReferenceIdeal.ReadP.val_main_v18 (F := Ideal) P T L (ix1 n)).toInt)
    (h1 : (Cert.ReferenceIdeal.ReadP.val_main_v18 (F := Ideal) P T L (ix1 n)).toInt < 30) :
    Cert.ReferenceIdeal.ReadP.val_main_v41 (F := Ideal) P T L (ix1 n)
      = Cert.ReferenceIdeal.ReadP.val_main_v34 (F := Ideal) P T L
          (ix1 (⟨(Cert.ReferenceIdeal.ReadP.val_main_v18 (F := Ideal) P T L (ix1 n)).toInt.toNat, by omega⟩ : Fin 30)) := by
  unfold Cert.ReferenceIdeal.ReadP.val_main_v41
  exact gather30_apply Cert.ReferenceIdeal.gather_S30_S1048576x1_S1048576_n_0_n_n_0_1_1 rfl rfl rfl rfl _ _ n _ (v40_row P T L n h0) h0 h1

/-- The reference's term of row `n`. -/
theorem v48_row (P T : (⟨2, ![1048576, 128]⟩ : Shape).Idx → EReal) (L : (⟨1, ![1048576]⟩ : Shape).Idx → BitVec 32) (n : Fin 1048576)
    (h0 : 0 ≤ (Cert.ReferenceIdeal.ReadP.val_main_v18 (F := Ideal) P T L (ix1 n)).toInt)
    (h1 : (Cert.ReferenceIdeal.ReadP.val_main_v18 (F := Ideal) P T L (ix1 n)).toInt < 30) :
    Cert.ReferenceIdeal.ReadP.val_main_v48 (F := Ideal) P T L (ix1 n)
      = refRow (Cert.ReferenceIdeal.ReadP.val_main_v3 (F := Ideal) P L (ix1 n))
          (Cert.ReferenceIdeal.ReadP.val_main_v34 (F := Ideal) P T L
            (ix1 (⟨(Cert.ReferenceIdeal.ReadP.val_main_v18 (F := Ideal) P T L (ix1 n)).toInt.toNat, by omega⟩ : Fin 30)))
          (Cert.ReferenceIdeal.ReadP.val_main_v27 (F := Ideal) P T L ix0) := by
  rw [Cert.ReferenceIdeal.ReadP.val_main_v48_apply, Cert.ReferenceIdeal.ReadP.val_main_v46_apply,
    Cert.ReferenceIdeal.ReadP.val_main_v45_apply, Cert.ReferenceIdeal.ReadP.val_main_v44_apply,
    Cert.ReferenceIdeal.ReadP.val_main_v43_apply, Cert.ReferenceIdeal.ReadP.val_main_v42_apply,
    Cert.ReferenceIdeal.ReadP.val_main_v47_apply, Cert.ReferenceIdeal.ReadP.val_main_cst_16_apply,
    Cert.ReferenceIdeal.ReadP.val_main_cst_15_apply, v41_row P T L n h0 h1]
  unfold refRow
  simp only [Ideal.hostDivf_def, Ideal.mulf_def, Ideal.hostNegf_def, Ideal.negf_def, Ideal.maximumf_def, Ideal.ofBits_def]

/-! ## Tile by tile, then all rows at once -/

/-- A function of the row as a sequence (zero past the last row). -/
def seqOf (f : (⟨1, ![1048576]⟩ : Shape).Idx → EReal) (m : ℕ) : EReal :=
  if h : m < 1048576 then f (ix1 (⟨m, h⟩ : Fin 1048576)) else 0

/-- The sequence at row `r` of tile `t`. -/
theorem seqOf_rowAt1 (f : (⟨1, ![1048576]⟩ : Shape).Idx → EReal) (t : Fin cfg1.N) (r : Fin 4096) :
    seqOf f (4096 * t.val + r.val) = f (ix1 (rowAt1 t r)) := by
  unfold seqOf
  exact dif_pos (rowAt1 t r).isLt

/-- The sequence summed over all rows is the function summed over all indices. -/
theorem sum_seqOf (f : (⟨1, ![1048576]⟩ : Shape).Idx → EReal) :
    ∑ i ∈ Finset.range 1048576, seqOf f i = ∑ j : (⟨1, ![1048576]⟩ : Shape).Idx, f j := by
  rw [Finset.sum_range]
  refine (Finset.sum_congr rfl fun i _ => ?_).trans (Equiv.sum_comp (idxEquiv1 (n := 1048576)).symm f)
  unfold seqOf
  exact dif_pos i.isLt

section Tiles

variable (V : (c : Dev nD) → (b : Ref sig .tc) → Buf (Elt Ideal) ((c : Thread nD τ).loc b)) (c : Dev nD)
  (f : (⟨1, ![1048576]⟩ : Shape).Idx → EReal)
  (hterm : ∀ n : Fin 1048576,
    rowTerm ((V c main_v1_0 : S1048576x1.Idx → EReal) (ix2 n (0 : Fin 1))) ((V c main_v1_1 : S1048576x1.Idx → BitVec 32) (ix2 n (0 : Fin 1)))
      (V c main_v20 : S1x128.Idx → EReal) ((V c main_v21 : S1x1.Idx → EReal) (ix2 (0 : Fin 1) (0 : Fin 1))) = f (ix1 n))

include hterm

/-- One tile's step: the previous word plus the terms of the tile's 4096 rows. -/
theorem tile_step (t : Fin cfg1.N) (prev : FVec Ideal S1x1 .f32) :
    k1_pay2 (F := Ideal) (lpblk V c t) (bblk V c t) (wblk V c t) (nblk V c t) prev (ix2 (0 : Fin 1) (0 : Fin 1))
      = prev (ix2 (0 : Fin 1) (0 : Fin 1)) + ∑ i ∈ Finset.range 4096, seqOf f (4096 * t.val + i) := by
  refine (k1_pay2_apply _ _ _ _ _).trans (congrArg (prev (ix2 (0 : Fin 1) (0 : Fin 1)) + ·) ?_)
  rw [Finset.sum_range]
  refine Finset.sum_congr rfl fun r _ => ?_
  rw [seqOf_rowAt1, ← hterm (rowAt1 t r), lpblk_apply, bblk_apply, wblk_eq, nblk_eq]

/-- The running loss after tile `n` is the sum of the terms of the rows of tiles 0 … n. -/
theorem lossAt_eq : ∀ (n : ℕ) (h : n < cfg1.N),
    lossAt V c n h (ix2 (0 : Fin 1) (0 : Fin 1)) = ∑ i ∈ Finset.range (4096 * (n + 1)), seqOf f i
  | 0, h => by
    rw [lossAt_zero]
    refine (tile_step V c f hterm ⟨0, h⟩ (k1_pay1 (F := Ideal))).trans ?_
    rw [k1_pay1_apply, zero_add]
    simp only [Nat.mul_zero, Nat.zero_add, Nat.mul_one]
  | n + 1, h => by
    rw [lossAt_succ]
    refine (tile_step V c f hterm ⟨n + 1, h⟩ (lossAt V c n (Nat.lt_of_succ_lt h))).trans ?_
    rw [lossAt_eq n (Nat.lt_of_succ_lt h), show 4096 * (n + 1 + 1) = 4096 * (n + 1) + 4096 by ring, Finset.sum_range_add]

/-- After the last tile: the sum of the terms of all rows. -/
theorem lossAt_last (h : 255 < cfg1.N) :
    lossAt V c 255 h (ix2 (0 : Fin 1) (0 : Fin 1)) = ∑ j : (⟨1, ![1048576]⟩ : Shape).Idx, f j := by
  rw [lossAt_eq V c f hterm 255 h, show 4096 * (255 + 1) = 1048576 by norm_num, sum_seqOf]

end Tiles

/-! ## The weighted sum -/

theorem loss_bridge (V : (c : Dev nD) → (b : Ref sig .tc) → Buf (Elt Ideal) ((c : Thread nD τ).loc b)) (c : Dev nD) (P T : (⟨2, ![1048576, 128]⟩ : Shape).Idx → EReal) (L : (⟨1, ![1048576]⟩ : Shape).Idx → BitVec 32)
    (hLP : ∀ n : Fin 1048576, (V c main_v1_0 : S1048576x1.Idx → EReal) (ix2 n (0 : Fin 1)) = Cert.ReferenceIdeal.ReadP.val_main_v3 (F := Ideal) P L (ix1 n))
    (hBI : ∀ n : Fin 1048576, (V c main_v1_1 : S1048576x1.Idx → BitVec 32) (ix2 n (0 : Fin 1)) = Cert.ReferenceIdeal.ReadP.val_main_v18 (F := Ideal) P T L (ix1 n))
    (hW : ∀ j : Fin 128, (V c main_v20 : S1x128.Idx → EReal) (ix2 (0 : Fin 1) j)
      = if h : j.val < 30 then Cert.ReferenceIdeal.ReadP.val_main_v34 (F := Ideal) P T L (ix1 (⟨j.val, h⟩ : Fin 30)) else (0 : EReal))
    (hN : (V c main_v21 : S1x1.Idx → EReal) (ix2 (0 : Fin 1) (0 : Fin 1)) = Cert.ReferenceIdeal.ReadP.val_main_v27 (F := Ideal) P T L ix0)
    (hR : ∀ i, 0 ≤ (Cert.ReferenceIdeal.ReadP.val_main_v18 (F := Ideal) P T L i).toInt ∧ (Cert.ReferenceIdeal.ReadP.val_main_v18 (F := Ideal) P T L i).toInt < 30) :
    ((dat1 V c).arrAt 4 cfg1.N : S1x1.Idx → EReal) (ix2 (0 : Fin 1) (0 : Fin 1)) = Cert.ReferenceIdeal.ReadP.val_main_v49 (F := Ideal) P T L ix0 := by
  have h255 : 255 < cfg1.N := by have : cfg1.N = 256 := N_1; omega
  have hterm : ∀ n : Fin 1048576,
      rowTerm ((V c main_v1_0 : S1048576x1.Idx → EReal) (ix2 n (0 : Fin 1))) ((V c main_v1_1 : S1048576x1.Idx → BitVec 32) (ix2 n (0 : Fin 1)))
        (V c main_v20 : S1x128.Idx → EReal) ((V c main_v21 : S1x1.Idx → EReal) (ix2 (0 : Fin 1) (0 : Fin 1)))
        = Cert.ReferenceIdeal.ReadP.val_main_v48 (F := Ideal) P T L (ix1 n) := fun n =>
    (rowTerm_eq _ _ _ _ _ _ _ (Cert.ReferenceIdeal.ReadP.val_main_v34 (F := Ideal) P T L) (hLP n) (hBI n) hN hW (hR (ix1 n)).1 (hR (ix1 n)).2).trans
      (v48_row P T L n (hR (ix1 n)).1 (hR (ix1 n)).2).symm
  refine (congrFun (arrAt1_4_eq V c) (ix2 (0 : Fin 1) (0 : Fin 1))).trans ?_
  refine (lossAt_last V c _ hterm h255).trans ?_
  rw [Cert.ReferenceIdeal.ReadP.val_main_v49_apply, Cert.ReferenceIdeal.ReadP.val_main_cst_17_apply]
  simp only [Ideal.ofBits_def, Ideal.ofBits_zero_f32, zero_add]

end Cert.Bridge

end
-- ==== Proof.Bridge.Final.lean ====
/-
  The five stages joined: the value the kernel's program leaves in its result buffer is the reference's last stage of
  the same three argument arrays, when the logits and targets are arrays of real numbers and every label is a class
  number.
-/
import proofs.«173433_j21406117003629_1_alg».proof.Proof.RefRead
import proofs.«173433_j21406117003629_1_alg».proof.Proof.Bridge.Basic
import proofs.«173433_j21406117003629_1_alg».proof.Proof.Bridge.Logp
import proofs.«173433_j21406117003629_1_alg».proof.Proof.Bridge.Bin
import proofs.«173433_j21406117003629_1_alg».proof.Proof.Bridge.Counts
import proofs.«173433_j21406117003629_1_alg».proof.Proof.Bridge.Glue
import proofs.«173433_j21406117003629_1_alg».proof.Proof.Bridge.Loss
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.Bridge

open Idealize.ShloMosaic Idealize.ShloMosaic.TcCoe Idealize.ShloMosaic.ValueIdx
open Idealize.SL Idealize.SL.Sem
open Cert.KernelIdeal Cert.KernelIdeal.Gen Cert.KernelIdeal.Hand
open scoped BigOperators

theorem result_eq (m : (ℓ : Loc nD τ sig) → Buf (Elt Ideal) ℓ) (outs : Gen.Outs (F := Ideal)) (c : Dev nD)
    (h0 : outs 2 main_v1_0 c = (dat0 (E1 m) c).arrAt 3 cfg0.N)
    (h1 : outs 2 main_v1_1 c = (dat0 (E1 m) c).arrAt 4 cfg0.N)
    (h2 : outs 2 main_v1_2 c = (dat0 (E1 m) c).arrAt 5 cfg0.N)
    (h3 : outs 6 main_v22 c = (dat1 (E5 m outs) c).arrAt 4 cfg1.N)
    (hP : Finite (m ((c : Thread nD τ).loc main_arg0) : S1048576x128.Idx → EReal))
    (hT : Finite (m ((c : Thread nD τ).loc main_arg1) : S1048576x128.Idx → EReal))
    (hL : InRange (m ((c : Thread nD τ).loc main_arg2) : S1048576.Idx → BitVec 32)) :
    (Gen.V7 m outs c main_v23 : S_.Idx → EReal)
      = Cert.ReferenceIdeal.ReadP.val_main_v49 (F := Ideal) (m ((c : Thread nD τ).loc main_arg0)) (m ((c : Thread nD τ).loc main_arg1)) (m ((c : Thread nD τ).loc main_arg2)) := by
  -- the three argument arrays, named
  generalize hPe : (m ((c : Thread nD τ).loc main_arg0) : S1048576x128.Idx → EReal) = P at hP ⊢
  generalize hTe : (m ((c : Thread nD τ).loc main_arg1) : S1048576x128.Idx → EReal) = T at hT ⊢
  generalize hLe : (m ((c : Thread nD τ).loc main_arg2) : S1048576.Idx → BitVec 32) = L at hL ⊢
  have hVP : (E1 m c main_arg0 : S1048576x128.Idx → EReal) = P := (entry1_arg0 m c).trans hPe
  have hVT : (E1 m c main_arg1 : S1048576x128.Idx → EReal) = T := (entry1_arg1 m c).trans hTe
  have hVL : ∀ n : Fin 1048576, (E1 m c main_v0 : S1048576x1.Idx → BitVec 32) (ix2 n (0 : Fin 1)) = L (ix1 n) :=
    fun n => (entry1_labels m c n).trans (congrFun hLe (ix1 n))
  have hR := bin_range P T L
  -- what the second region finds
  have hLP : ∀ n : Fin 1048576, (E5 m outs c main_v1_0 : S1048576x1.Idx → EReal) (ix2 n (0 : Fin 1)) = Cert.ReferenceIdeal.ReadP.val_main_v3 (F := Ideal) P L (ix1 n) := fun n => by
    rw [entry5_logp m outs c, h0]; exact logp_bridge (E1 m) c P T L hVP hVL hP hL n
  have hBI : ∀ n : Fin 1048576, (E5 m outs c main_v1_1 : S1048576x1.Idx → BitVec 32) (ix2 n (0 : Fin 1)) = Cert.ReferenceIdeal.ReadP.val_main_v18 (F := Ideal) P T L (ix1 n) := fun n => by
    rw [entry5_bin m outs c, h1]; exact bin_bridge (E1 m) c P T L hVP hVT hVL n
  have hC : ∀ b : Fin 30, (outs 2 main_v1_2 c : S1x128.Idx → EReal) (ix2 (0 : Fin 1) (⟨b.val, by have := b.isLt; omega⟩ : Fin 128)) = Cert.ReferenceIdeal.ReadP.val_main_v22 (F := Ideal) P T L (ix1 b) := fun b => by
    rw [h2]; exact counts_bridge (E1 m) c P T L (binCol_bridge (E1 m) c P T L hVP hVT hVL) hR b
  funext i
  rw [eq_ix0 i, result_word m outs c, h3]
  exact loss_bridge (E5 m outs) c P T L hLP hBI (entry5_weights m outs c P T L hC) (entry5_nonempty m outs c P T L hC) hR

end Cert.Bridge

end
-- ==== Proof.lean ====
/-
  The certificate of the histogram-binned classification loss: a Pallas program of two kernel regions (a per-row pass
  that leaves each row's log-probability of its labelled class and its gradient-norm bin and accumulates the histogram of
  bins over 256 tiles; then a weighted sum of the log-probabilities, each row weighted by the inverse population of its
  bin) against the jnp reference (one-hot, log-softmax, segment-sum, gather).

  • The three frames. Both printings of the kernel program (at the machine words and at the ideal values) run through
    the several-regions rule: each region's body obligation is proved tile by tile with the scratch accumulator carried in
    the region's invariant (Proof/K/…, Proof/KI/…: one text at the two namespaces). The reference is a host program; its
    run is the generated one (a patched copy: the float family named at the compares and converts).
  • preserves: the idealization rewrote nothing.
  • algebraic. Under the precondition the logits and targets are real numbers and every label is a class number
    (Bridge/PreDecode). Then, stage by stage (Bridge/Logp … Loss, joined in Bridge/Final), the kernel program's result is
    the reference's: exactly one lane of the one-hot mask is set, so `Σ p·mask − (max + log Σ exp (p − max))` and
    `Σ ((p − max) − log Σ exp (p − max))·mask` are the same real number; the bins are computed by the same expression;
    the tile-by-tile lane counts and the scatter-add are both the number of rows per bin; the weights and the count of
    non-empty bins come from the same host operations; the masked lane sum picks the gathered weight; and a sum over all
    rows may be taken tile by tile.
-/
import proofs.«173433_j21406117003629_1_alg».proof.Defs
import proofs.«173433_j21406117003629_1_alg».proof.Proof.Gen.Kernel
import proofs.«173433_j21406117003629_1_alg».proof.Proof.Gen.KernelIdeal
import proofs.«173433_j21406117003629_1_alg».proof.Proof.Gen.ReferenceIdeal
import proofs.«173433_j21406117003629_1_alg».proof.Proof.Gen.Pre_finite_inputs
import proofs.«173433_j21406117003629_1_alg».proof.Proof.K.Launch
import proofs.«173433_j21406117003629_1_alg».proof.Proof.KI.Launch
import proofs.«173433_j21406117003629_1_alg».proof.Proof.RefRun
import proofs.«173433_j21406117003629_1_alg».proof.Proof.RefReadEq
import proofs.«173433_j21406117003629_1_alg».proof.Proof.Bridge.PreDecode
import proofs.«173433_j21406117003629_1_alg».proof.Proof.Bridge.Final
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference is a host program: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two programs, run from memories that agree on the arguments, end with the same loss. -/
theorem algebraic : Cert.algebraic_KernelIdeal_ReferenceIdeal := by
  intro m ρ m' ρ' hpre hagree
  refine ⟨fun c => Cert.KernelIdeal.Gen.V7 m (Cert.KernelIdeal.Hand.outs m) c Cert.KernelIdeal.main_v23,
    (θ_run Cert.KernelIdeal.defs _ _).mono (fun _ h c => h c) (Cert.KernelIdeal.Hand.run_main (F := Ideal) m ρ), ?_⟩
  refine (θ_run Cert.ReferenceIdeal.defs _ _).mono (fun _ h c => ⟨(h c).1.trans ?_, (h c).2⟩)
    (Cert.ReferenceIdeal.ValueP.run (F := Ideal) m' ρ')
  obtain ⟨hP, hT, hL⟩ := Cert.Bridge.pre_decode m hpre c
  rw [Cert.ReferenceIdeal.ReadP.val_main_v49_eq, (hagree c).1, (hagree c).2.1, (hagree c).2.2]
  exact (Cert.Bridge.result_eq m (Cert.KernelIdeal.Hand.outs m) c
    (Cert.KernelIdeal.Hand.outs_v1_0 m c) (Cert.KernelIdeal.Hand.outs_v1_1 m c) (Cert.KernelIdeal.Hand.outs_v1_2 m c)
    (Cert.KernelIdeal.Hand.outs_v22 m c) hP hT hL).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
